-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x8 : Shape := ⟨2, ![8388608, 8]⟩
abbrev S8388608x1 : Shape := ⟨2, ![8388608, 1]⟩
abbrev S_ : Shape := ⟨0, ![]⟩

class Facts : Prop where
  bcast_S_S8388608x8 : S_.BroadcastsInDim S8388608x8 (![] : Fin 0 → Fin S8388608x8.rank)
  reducesTo_S8388608x8_S_d0_1 : S8388608x8.ReducesTo [0, 1] S_
  h_S_ : 0 < S_.numel
  bcast_S_S8388608x1 : S_.BroadcastsInDim S8388608x1 (![] : Fin 0 → Fin S8388608x1.rank)
  reducesTo_S8388608x1_S_d0_1 : S8388608x1.ReducesTo [0, 1] S_

variable [Facts]

def fn {F : FTy → Type} [FloatOps F] (main_arg0 : FVec F S8388608x8 .f32) (main_arg1 : FVec F S8388608x8 .f32) (main_arg2 : FVec F S8388608x1 .f32) : IVec S_ 1 :=
  let main_v0 : FVec F S8388608x8 .f32 := Host.absf main_arg0
  let main_cst : FVec F S_ .f32 := constant S_ .f32 0x7F800000#32
  let main_v1 : FVec F S8388608x8 .f32 := broadcastInDim S8388608x8 ![] bcast_S_S8388608x8 main_cst
  let main_v2 : IVec S8388608x8 1 := cmpf .olt main_v0 main_v1
  let main_c : IVec S_ 1 := constantI S_ 1 1#1
  let main_v3 : IVec S_ 1 := (fun x v => Host.reduce IntOp.andi x v reducesTo_S8388608x8_S_d0_1 h_S_) main_v2 main_c
  let main_v4 : FVec F S8388608x8 .f32 := Host.absf main_arg1
  let main_cst_0 : FVec F S_ .f32 := constant S_ .f32 0x7F800000#32
  let main_v5 : FVec F S8388608x8 .f32 := broadcastInDim S8388608x8 ![] bcast_S_S8388608x8 main_cst_0
  let main_v6 : IVec S8388608x8 1 := cmpf .olt main_v4 main_v5
  let main_c_1 : IVec S_ 1 := constantI S_ 1 1#1
  let main_v7 : IVec S_ 1 := (fun x v => Host.reduce IntOp.andi x v reducesTo_S8388608x8_S_d0_1 h_S_) main_v6 main_c_1
  let main_v8 : IVec S_ 1 := andi main_v3 main_v7
  let main_v9 : FVec F S8388608x1 .f32 := Host.absf main_arg2
  let main_cst_2 : FVec F S_ .f32 := constant S_ .f32 0x7F800000#32
  let main_v10 : FVec F S8388608x1 .f32 := broadcastInDim S8388608x1 ![] bcast_S_S8388608x1 main_cst_2
  let main_v11 : IVec S8388608x1 1 := cmpf .olt main_v9 main_v10
  let main_c_3 : IVec S_ 1 := constantI S_ 1 1#1
  let main_v12 : IVec S_ 1 := (fun x v => Host.reduce IntOp.andi x v reducesTo_S8388608x1_S_d0_1 h_S_) main_v11 main_c_3
  let main_v13 : IVec S_ 1 := andi main_v8 main_v12
  main_v13
-- ==== Kernel.lean ====
abbrev S8388608x8 : Shape := ⟨2, ![8388608, 8]⟩
abbrev S8388608x1 : Shape := ⟨2, ![8388608, 1]⟩
abbrev S65536x8 : Shape := ⟨2, ![65536, 8]⟩
abbrev S65536x1 : Shape := ⟨2, ![65536, 1]⟩

abbrev nBuf : Space → Nat
  | .hbm => 5
  | .vmem => 10
  | .smem => 0
  | _ => 0

abbrev bufTy : (tb : Table) → Fin (tcTables nBuf tb) → BufTy
  | .hbm, ⟨0, _⟩ => ⟨S8388608x8, .f32⟩
  | .hbm, ⟨1, _⟩ => ⟨S8388608x8, .f32⟩
  | .hbm, ⟨2, _⟩ => ⟨S8388608x1, .f32⟩
  | .hbm, ⟨3, _⟩ => ⟨S8388608x8, .f32⟩
  | .hbm, ⟨4, _⟩ => ⟨S8388608x1, .f32⟩
  | .local _ .vmem, ⟨0, _⟩ => ⟨S65536x8, .f32⟩
  | .local _ .vmem, ⟨1, _⟩ => ⟨S65536x8, .f32⟩
  | .local _ .vmem, ⟨2, _⟩ => ⟨S65536x8, .f32⟩
  | .local _ .vmem, ⟨3, _⟩ => ⟨S65536x8, .f32⟩
  | .local _ .vmem, ⟨4, _⟩ => ⟨S65536x1, .f32⟩
  | .local _ .vmem, ⟨5, _⟩ => ⟨S65536x1, .f32⟩
  | .local _ .vmem, ⟨6, _⟩ => ⟨S65536x8, .f32⟩
  | .local _ .vmem, ⟨7, _⟩ => ⟨S65536x8, .f32⟩
  | .local _ .vmem, ⟨8, _⟩ => ⟨S65536x1, .f32⟩
  | .local _ .vmem, ⟨9, _⟩ => ⟨S65536x1, .f32⟩
  | _, _ => ⟨S8388608x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S65536x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S65536x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S65536x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S65536x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S65536x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S65536x1_S65536x1_0_0 : ∀ a, (![0, 0] : Fin 2 → Nat) a + S65536x1.size a ≤ S65536x1.size a
  h_S65536x1 : 0 < S65536x1.numel
  inb_S65536x8_S65536x1_0_7 : ∀ a, (![0, 7] : Fin 2 → Nat) a + S65536x1.size a ≤ S65536x8.size a
  inb_S65536x8_S65536x1_0_6 : ∀ a, (![0, 6] : Fin 2 → Nat) a + S65536x1.size a ≤ S65536x8.size a
  inb_S65536x8_S65536x1_0_5 : ∀ a, (![0, 5] : Fin 2 → Nat) a + S65536x1.size a ≤ S65536x8.size a
  inb_S65536x8_S65536x1_0_4 : ∀ a, (![0, 4] : Fin 2 → Nat) a + S65536x1.size a ≤ S65536x8.size a
  inb_S65536x8_S65536x1_0_3 : ∀ a, (![0, 3] : Fin 2 → Nat) a + S65536x1.size a ≤ S65536x8.size a
  inb_S65536x8_S65536x1_0_2 : ∀ a, (![0, 2] : Fin 2 → Nat) a + S65536x1.size a ≤ S65536x8.size a
  inb_S65536x8_S65536x1_0_1 : ∀ a, (![0, 1] : Fin 2 → Nat) a + S65536x1.size a ≤ S65536x8.size a
  inb_S65536x8_S65536x1_0_0 : ∀ a, (![0, 0] : Fin 2 → Nat) a + S65536x1.size a ≤ S65536x8.size a
  concatenates_S65536x1_S65536x1_S65536x1_S65536x1_S65536x1_S65536x1_S65536x1_S65536x1_S65536x8_d1 : Shape.Concatenates [S65536x1, S65536x1, S65536x1, S65536x1, S65536x1, S65536x1, S65536x1, S65536x1] S65536x8 1
  inb_S65536x8_S65536x8_0_0 : ∀ a, (![0, 0] : Fin 2 → Nat) a + S65536x8.size a ≤ S65536x8.size a
  h_S65536x8 : 0 < S65536x8.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536x8.size a ≤ S8388608x8.size a
  hwx0_0 : ∀ i : grid0.Coords, EltTy.bits .f32 = 32 ∨ (Rect.block (s := S8388608x8) S65536x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S65536x8.size a ≤ S8388608x8.size a
  hwx0_1 : ∀ i : grid0.Coords, EltTy.bits .f32 = 32 ∨ (Rect.block (s := S8388608x8) S65536x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S65536x1.size a ≤ S8388608x1.size a
  hwx0_2 : ∀ i : grid0.Coords, EltTy.bits .f32 = 32 ∨ (Rect.block (s := S8388608x1) S65536x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S65536x8.size a ≤ S8388608x8.size a
  hwx0_3 : ∀ i : grid0.Coords, EltTy.bits .f32 = 32 ∨ (Rect.block (s := S8388608x8) S65536x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S65536x1.size a ≤ S8388608x1.size a
  hwx0_4 : ∀ i : grid0.Coords, EltTy.bits .f32 = 32 ∨ (Rect.block (s := S8388608x1) S65536x1.size (cc0_transform_4 i) (hinb0_4 i)).WholeWords (EltTy.packing .f32)

variable [Facts₀]

abbrev win0_0 : Pipeline.Window sig grid0 :=
  Pipeline.Window.ofSpec (Memref.whole main_arg0) S65536x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S65536x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S65536x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S65536x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S65536x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8388608x8 : Shape := ⟨2, ![8388608, 8]⟩
abbrev S8388608x1 : Shape := ⟨2, ![8388608, 1]⟩
abbrev S_ : Shape := ⟨0, ![]⟩

abbrev nBuf : Space → Nat
  | .hbm => 212
  | .vmem => 0
  | .smem => 0
  | _ => 0

abbrev hbmTy0_0 (i : Nat) : BufTy := match i % 128 with
  | 0 => ⟨S8388608x8, .f32⟩
  | 1 => ⟨S8388608x8, .f32⟩
  | 2 => ⟨S8388608x1, .f32⟩
  | 3 => ⟨S8388608x1, .f32⟩
  | 4 => ⟨S8388608x1, .f32⟩
  | 5 => ⟨S8388608x1, .f32⟩
  | 6 => ⟨S_, .f32⟩
  | 7 => ⟨S8388608x1, .f32⟩
  | 8 => ⟨S8388608x1, .f32⟩
  | 9 => ⟨S8388608x1, .f32⟩
  | 10 => ⟨S8388608x1, .f32⟩
  | 11 => ⟨S8388608x1, .f32⟩
  | 12 => ⟨S_, .f32⟩
  | 13 => ⟨S8388608x1, .f32⟩
  | 14 => ⟨S8388608x1, .f32⟩
  | 15 => ⟨S8388608x1, .f32⟩
  | 16 => ⟨S8388608x1, .f32⟩
  | 17 => ⟨S_, .f32⟩
  | 18 => ⟨S8388608x1, .f32⟩
  | 19 => ⟨S8388608x1, .f32⟩
  | 20 => ⟨S8388608x1, .f32⟩
  | 21 => ⟨S8388608x1, .f32⟩
  | 22 => ⟨S8388608x1, .f32⟩
  | 23 => ⟨S8388608x1, .f32⟩
  | 24 => ⟨S8388608x1, .f32⟩
  | 25 => ⟨S8388608x1, .f32⟩
  | 26 => ⟨S8388608x1, .f32⟩
  | 27 => ⟨S8388608x1, .f32⟩
  | 28 => ⟨S8388608x1, .f32⟩
  | 29 => ⟨S8388608x1, .f32⟩
  | 30 => ⟨S8388608x1, .f32⟩
  | 31 => ⟨S8388608x1, .f32⟩
  | 32 => ⟨S_, .f32⟩
  | 33 => ⟨S8388608x1, .f32⟩
  | 34 => ⟨S8388608x1, .f32⟩
  | 35 => ⟨S8388608x1, .f32⟩
  | 36 => ⟨S8388608x1, .f32⟩
  | 37 => ⟨S8388608x1, .f32⟩
  | 38 => ⟨S_, .f32⟩
  | 39 => ⟨S8388608x1, .f32⟩
  | 40 => ⟨S8388608x1, .f32⟩
  | 41 => ⟨S8388608x1, .f32⟩
  | 42 => ⟨S8388608x1, .f32⟩
  | 43 => ⟨S_, .f32⟩
  | 44 => ⟨S8388608x1, .f32⟩
  | 45 => ⟨S8388608x1, .f32⟩
  | 46 => ⟨S8388608x1, .f32⟩
  | 47 => ⟨S8388608x1, .f32⟩
  | 48 => ⟨S8388608x1, .f32⟩
  | 49 => ⟨S8388608x1, .f32⟩
  | 50 => ⟨S8388608x1, .f32⟩
  | 51 => ⟨S8388608x1, .f32⟩
  | 52 => ⟨S8388608x1, .f32⟩
  | 53 => ⟨S8388608x1, .f32⟩
  | 54 => ⟨S8388608x1, .f32⟩
  | 55 => ⟨S8388608x1, .f32⟩
  | 56 => ⟨S8388608x1, .f32⟩
  | 57 => ⟨S8388608x1, .f32⟩
  | 58 => ⟨S_, .f32⟩
  | 59 => ⟨S8388608x1, .f32⟩
  | 60 => ⟨S8388608x1, .f32⟩
  | 61 => ⟨S8388608x1, .f32⟩
  | 62 => ⟨S8388608x1, .f32⟩
  | 63 => ⟨S8388608x1, .f32⟩
  | 64 => ⟨S_, .f32⟩
  | 65 => ⟨S8388608x1, .f32⟩
  | 66 => ⟨S8388608x1, .f32⟩
  | 67 => ⟨S8388608x1, .f32⟩
  | 68 => ⟨S8388608x1, .f32⟩
  | 69 => ⟨S_, .f32⟩
  | 70 => ⟨S8388608x1, .f32⟩
  | 71 => ⟨S8388608x1, .f32⟩
  | 72 => ⟨S8388608x1, .f32⟩
  | 73 => ⟨S8388608x1, .f32⟩
  | 74 => ⟨S8388608x1, .f32⟩
  | 75 => ⟨S8388608x1, .f32⟩
  | 76 => ⟨S8388608x1, .f32⟩
  | 77 => ⟨S8388608x1, .f32⟩
  | 78 => ⟨S8388608x1, .f32⟩
  | 79 => ⟨S8388608x1, .f32⟩
  | 80 => ⟨S8388608x1, .f32⟩
  | 81 => ⟨S8388608x1, .f32⟩
  | 82 => ⟨S8388608x1, .f32⟩
  | 83 => ⟨S8388608x1, .f32⟩
  | 84 => ⟨S_, .f32⟩
  | 85 => ⟨S8388608x1, .f32⟩
  | 86 => ⟨S8388608x1, .f32⟩
  | 87 => ⟨S8388608x1, .f32⟩
  | 88 => ⟨S8388608x1, .f32⟩
  | 89 => ⟨S8388608x1, .f32⟩
  | 90 => ⟨S_, .f32⟩
  | 91 => ⟨S8388608x1, .f32⟩
  | 92 => ⟨S8388608x1, .f32⟩
  | 93 => ⟨S8388608x1, .f32⟩
  | 94 => ⟨S8388608x1, .f32⟩
  | 95 => ⟨S_, .f32⟩
  | 96 => ⟨S8388608x1, .f32⟩
  | 97 => ⟨S8388608x1, .f32⟩
  | 98 => ⟨S8388608x1, .f32⟩
  | 99 => ⟨S8388608x1, .f32⟩
  | 100 => ⟨S8388608x1, .f32⟩
  | 101 => ⟨S8388608x1, .f32⟩
  | 102 => ⟨S8388608x1, .f32⟩
  | 103 => ⟨S8388608x1, .f32⟩
  | 104 => ⟨S8388608x1, .f32⟩
  | 105 => ⟨S8388608x1, .f32⟩
  | 106 => ⟨S8388608x1, .f32⟩
  | 107 => ⟨S8388608x1, .f32⟩
  | 108 => ⟨S8388608x1, .f32⟩
  | 109 => ⟨S8388608x1, .f32⟩
  | 110 => ⟨S_, .f32⟩
  | 111 => ⟨S8388608x1, .f32⟩
  | 112 => ⟨S8388608x1, .f32⟩
  | 113 => ⟨S8388608x1, .f32⟩
  | 114 => ⟨S8388608x1, .f32⟩
  | 115 => ⟨S8388608x1, .f32⟩
  | 116 => ⟨S_, .f32⟩
  | 117 => ⟨S8388608x1, .f32⟩
  | 118 => ⟨S8388608x1, .f32⟩
  | 119 => ⟨S8388608x1, .f32⟩
  | 120 => ⟨S8388608x1, .f32⟩
  | 121 => ⟨S_, .f32⟩
  | 122 => ⟨S8388608x1, .f32⟩
  | 123 => ⟨S8388608x1, .f32⟩
  | 124 => ⟨S8388608x1, .f32⟩
  | 125 => ⟨S8388608x1, .f32⟩
  | 126 => ⟨S8388608x1, .f32⟩
  | 127 => ⟨S8388608x1, .f32⟩
  | _ => ⟨S8388608x8, .f32⟩

abbrev hbmTy0_1 (i : Nat) : BufTy := match i % 128 with
  | 0 => ⟨S8388608x1, .f32⟩
  | 1 => ⟨S8388608x1, .f32⟩
  | 2 => ⟨S8388608x1, .f32⟩
  | 3 => ⟨S8388608x1, .f32⟩
  | 4 => ⟨S8388608x1, .f32⟩
  | 5 => ⟨S8388608x1, .f32⟩
  | 6 => ⟨S8388608x1, .f32⟩
  | 7 => ⟨S8388608x1, .f32⟩
  | 8 => ⟨S_, .f32⟩
  | 9 => ⟨S8388608x1, .f32⟩
  | 10 => ⟨S8388608x1, .f32⟩
  | 11 => ⟨S8388608x1, .f32⟩
  | 12 => ⟨S8388608x1, .f32⟩
  | 13 => ⟨S8388608x1, .f32⟩
  | 14 => ⟨S_, .f32⟩
  | 15 => ⟨S8388608x1, .f32⟩
  | 16 => ⟨S8388608x1, .f32⟩
  | 17 => ⟨S8388608x1, .f32⟩
  | 18 => ⟨S8388608x1, .f32⟩
  | 19 => ⟨S_, .f32⟩
  | 20 => ⟨S8388608x1, .f32⟩
  | 21 => ⟨S8388608x1, .f32⟩
  | 22 => ⟨S8388608x1, .f32⟩
  | 23 => ⟨S8388608x1, .f32⟩
  | 24 => ⟨S8388608x1, .f32⟩
  | 25 => ⟨S8388608x1, .f32⟩
  | 26 => ⟨S8388608x1, .f32⟩
  | 27 => ⟨S8388608x1, .f32⟩
  | 28 => ⟨S8388608x1, .f32⟩
  | 29 => ⟨S8388608x1, .f32⟩
  | 30 => ⟨S8388608x1, .f32⟩
  | 31 => ⟨S8388608x1, .f32⟩
  | 32 => ⟨S8388608x1, .f32⟩
  | 33 => ⟨S8388608x1, .f32⟩
  | 34 => ⟨S_, .f32⟩
  | 35 => ⟨S8388608x1, .f32⟩
  | 36 => ⟨S8388608x1, .f32⟩
  | 37 => ⟨S8388608x1, .f32⟩
  | 38 => ⟨S8388608x1, .f32⟩
  | 39 => ⟨S8388608x1, .f32⟩
  | 40 => ⟨S_, .f32⟩
  | 41 => ⟨S8388608x1, .f32⟩
  | 42 => ⟨S8388608x1, .f32⟩
  | 43 => ⟨S8388608x1, .f32⟩
  | 44 => ⟨S8388608x1, .f32⟩
  | 45 => ⟨S_, .f32⟩
  | 46 => ⟨S8388608x1, .f32⟩
  | 47 => ⟨S8388608x1, .f32⟩
  | 48 => ⟨S8388608x1, .f32⟩
  | 49 => ⟨S8388608x1, .f32⟩
  | 50 => ⟨S8388608x1, .f32⟩
  | 51 => ⟨S8388608x1, .f32⟩
  | 52 => ⟨S8388608x1, .f32⟩
  | 53 => ⟨S8388608x1, .f32⟩
  | 54 => ⟨S8388608x1, .f32⟩
  | 55 => ⟨S8388608x1, .f32⟩
  | 56 => ⟨S8388608x1, .f32⟩
  | 57 => ⟨S8388608x1, .f32⟩
  | 58 => ⟨S8388608x1, .f32⟩
  | 59 => ⟨S8388608x1, .f32⟩
  | 60 => ⟨S_, .f32⟩
  | 61 => ⟨S8388608x1, .f32⟩
  | 62 => ⟨S8388608x1, .f32⟩
  | 63 => ⟨S8388608x1, .f32⟩
  | 64 => ⟨S8388608x1, .f32⟩
  | 65 => ⟨S8388608x1, .f32⟩
  | 66 => ⟨S_, .f32⟩
  | 67 => ⟨S8388608x1, .f32⟩
  | 68 => ⟨S8388608x1, .f32⟩
  | 69 => ⟨S8388608x1, .f32⟩
  | 70 => ⟨S8388608x1, .f32⟩
  | 71 => ⟨S_, .f32⟩
  | 72 => ⟨S8388608x1, .f32⟩
  | 73 => ⟨S8388608x1, .f32⟩
  | 74 => ⟨S8388608x1, .f32⟩
  | 75 => ⟨S8388608x1, .f32⟩
  | 76 => ⟨S8388608x1, .f32⟩
  | 77 => ⟨S8388608x1, .f32⟩
  | 78 => ⟨S8388608x1, .f32⟩
  | 79 => ⟨S8388608x1, .f32⟩
  | 80 => ⟨S8388608x1, .f32⟩
  | 81 => ⟨S8388608x1, .f32⟩
  | 82 => ⟨S8388608x1, .f32⟩
  | 83 => ⟨S8388608x8, .f32⟩
  | _ => ⟨S8388608x8, .f32⟩

abbrev hbmTy (i : Nat) : BufTy := match i / 128 with
  | 0 => hbmTy0_0 i
  | 1 => hbmTy0_1 i
  | _ => ⟨S8388608x8, .f32⟩

abbrev bufTy : (tb : Table) → Fin (tcTables nBuf tb) → BufTy
  | .hbm, ⟨i, _⟩ => hbmTy i
  | _, _ => ⟨S8388608x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_5 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_7 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_8 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_cst_9 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_10 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_11 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_cst_12 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_cst_13 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_14 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_15 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_cst_16 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_cst_17 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_cst_18 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_cst_19 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_cst_20 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_cst_21 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_cst_22 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩

abbrev nD : Nat := 1
abbrev τ : Topo := Topo.v7x

variable {F : FTy → Type} [FloatOps F]

class Facts₀ : Prop where
  slices_S8388608x8_S8388608x1_0_7 : S8388608x8.Slices ![0, 7] S8388608x1
  bcast_S_S8388608x1 : S_.BroadcastsInDim S8388608x1 (![] : Fin 0 → Fin S8388608x1.rank)
  slices_S8388608x8_S8388608x1_0_6 : S8388608x8.Slices ![0, 6] S8388608x1
  slices_S8388608x8_S8388608x1_0_5 : S8388608x8.Slices ![0, 5] S8388608x1
  slices_S8388608x8_S8388608x1_0_4 : S8388608x8.Slices ![0, 4] S8388608x1
  slices_S8388608x8_S8388608x1_0_3 : S8388608x8.Slices ![0, 3] S8388608x1
  slices_S8388608x8_S8388608x1_0_2 : S8388608x8.Slices ![0, 2] S8388608x1
  slices_S8388608x8_S8388608x1_0_1 : S8388608x8.Slices ![0, 1] S8388608x1
  slices_S8388608x8_S8388608x1_0_0 : S8388608x8.Slices ![0, 0] S8388608x1
  concatenates_S8388608x1_S8388608x1_S8388608x1_S8388608x1_S8388608x1_S8388608x1_S8388608x1_S8388608x1_S8388608x8_d1 : Shape.Concatenates [S8388608x1, S8388608x1, S8388608x1, S8388608x1, S8388608x1, S8388608x1, S8388608x1, S8388608x1] S8388608x8 1

variable [Facts₀]

class Facts : Prop extends Facts₀ where

variable [Facts]
-- ==== Proof.Spec.lean ====
/-
  The mathematics of an 8-bit ripple-borrow subtractor over 0/1-valued floats, stated once for both programs.

  One bit stage takes the minuend bit `a`, the subtrahend bit `b` and the incoming borrow `c` and returns
    the difference bit   (a ⊕ b) ⊕ c,           where x ⊕ y := (x + y) − (2·x)·y,
    the outgoing borrow  ((¬a ∧ b) ∨ (¬a ∧ c)) ∨ (b ∧ c),   where ¬a := 1 − a, x ∧ y := x·y, x ∨ y := (x + y) − x·y.
  These are polynomial expressions; nothing here uses that the values are 0 or 1, and no law of arithmetic is used:
  the two programs compute the SAME expression tree, so the stage is kept as one folded function throughout.
  A row's result is the chain of eight stages from column 7 (least significant) down to column 0, each stage's
  borrow feeding the next: `bor k` is the borrow leaving column `k`, `dif k` the difference bit of column `k`.
-/
import Idealize.ShloMosaic.Lib.ValueIdx

noncomputable section

namespace Cert.Sub8

open Idealize.ShloMosaic Idealize.ShloMosaic.ValueIdx

variable {F : FTy → Type} [FloatOps F]

/-! ## One stage on scalars -/

/-- x ⊕ y = (x + y) − (2·x)·y, with `two` the constant 2. -/
def sXor (two x y : F .f32) : F .f32 := FloatOps.subf (FloatOps.addf x y) (FloatOps.mulf (FloatOps.mulf two x) y)
/-- x ∨ y = (x + y) − x·y. -/
def sOr (x y : F .f32) : F .f32 := FloatOps.subf (FloatOps.addf x y) (FloatOps.mulf x y)
/-- The difference bit (a ⊕ b) ⊕ c. -/
def sDiff (two a b c : F .f32) : F .f32 := sXor two (sXor two a b) c
/-- The outgoing borrow ((1−a)·b ∨ (1−a)·c) ∨ b·c. -/
def sBorrow (one a b c : F .f32) : F .f32 :=
  sOr (sOr (FloatOps.mulf (FloatOps.subf one a) b) (FloatOps.mulf (FloatOps.subf one a) c)) (FloatOps.mulf b c)

/-! ## One stage on vectors of any shape: the same expressions, lane by lane -/

section Vectors
variable {S : Shape}

def vXor (two x y : FVec F S .f32) : FVec F S .f32 := subf (addf x y) (mulf (mulf two x) y)
def vOr (x y : FVec F S .f32) : FVec F S .f32 := subf (addf x y) (mulf x y)
def vDiff (two a b c : FVec F S .f32) : FVec F S .f32 := vXor two (vXor two a b) c
def vBorrow (one a b c : FVec F S .f32) : FVec F S .f32 :=
  vOr (vOr (mulf (subf one a) b) (mulf (subf one a) c)) (mulf b c)

/-- A vector stage read at a lane is the scalar stage of the lanes. -/
theorem vDiff_apply (two a b c : FVec F S .f32) (i : S.Idx) :
    vDiff two a b c i = sDiff (two i) (a i) (b i) (c i) := rfl
theorem vBorrow_apply (one a b c : FVec F S .f32) (i : S.Idx) :
    vBorrow one a b c i = sBorrow (one i) (a i) (b i) (c i) := rfl

end Vectors

/-! ## A row: eight stages, column 7 first -/

section Row
variable (two one : F .f32) (a b : Fin 8 → F .f32) (c : F .f32)

/-- The borrow leaving column `k` (so `bor7` is after the first stage and `bor0` the final borrow). -/
def bor7 : F .f32 := sBorrow one (a 7) (b 7) c
def bor6 : F .f32 := sBorrow one (a 6) (b 6) (bor7 one a b c)
def bor5 : F .f32 := sBorrow one (a 5) (b 5) (bor6 one a b c)
def bor4 : F .f32 := sBorrow one (a 4) (b 4) (bor5 one a b c)
def bor3 : F .f32 := sBorrow one (a 3) (b 3) (bor4 one a b c)
def bor2 : F .f32 := sBorrow one (a 2) (b 2) (bor3 one a b c)
def bor1 : F .f32 := sBorrow one (a 1) (b 1) (bor2 one a b c)
def bor0 : F .f32 := sBorrow one (a 0) (b 0) (bor1 one a b c)

/-- The difference bit of column `k`: the stage of column `k` at the borrow leaving column `k + 1`. -/
def dif : Fin 8 → F .f32
  | 7 => sDiff two (a 7) (b 7) c
  | 6 => sDiff two (a 6) (b 6) (bor7 one a b c)
  | 5 => sDiff two (a 5) (b 5) (bor6 one a b c)
  | 4 => sDiff two (a 4) (b 4) (bor5 one a b c)
  | 3 => sDiff two (a 3) (b 3) (bor4 one a b c)
  | 2 => sDiff two (a 2) (b 2) (bor3 one a b c)
  | 1 => sDiff two (a 1) (b 1) (bor2 one a b c)
  | 0 => sDiff two (a 0) (b 0) (bor1 one a b c)

end Row

/-! ## The two result arrays as functions of the three argument arrays -/

/-- The arrays' shapes: N = 8388608 rows of 8 bits, and of 1. -/
abbrev SA : Shape := ⟨2, ![8388608, 8]⟩
abbrev SB : Shape := ⟨2, ![8388608, 1]⟩

/-- The constants 2 and 1 as the float family reads their bit patterns. -/
def cTwo : F .f32 := FloatOps.ofBits .f32 0x40000000#32
def cOne : F .f32 := FloatOps.ofBits .f32 0x3F800000#32

/-- Row `r` of an N×8 array as its eight entries. -/
def rowOf (A : SA.Idx → F .f32) (r : Fin 8388608) : Fin 8 → F .f32 := fun k => A (ix2 r k)

/-- The difference array: entry (r, k) is the difference bit of column k of row r. -/
def Gdif (A B : SA.Idx → F .f32) (Bin : SB.Idx → F .f32) : SA.Idx → F .f32 :=
  fun j => dif cTwo cOne (rowOf A (j 0)) (rowOf B (j 0)) (Bin (ix2 (j 0) 0)) (j 1)

/-- The borrow array: entry (r, 0) is the borrow leaving column 0 of row r. -/
def Gbor (A B : SA.Idx → F .f32) (Bin : SB.Idx → F .f32) : SB.Idx → F .f32 :=
  fun j => bor0 cOne (rowOf A (j 0)) (rowOf B (j 0)) (Bin (ix2 (j 0) 0))

end Cert.Sub8

end
-- ==== Proof.KerBlock.lean ====
/-
  What one grid step of the kernel leaves in its two output blocks, entry by entry: row p of the block of
  differences is the eight difference bits of row p of the input blocks, and row p of the borrow block is the
  borrow leaving column 0 of that row.

  The body computes on whole N×1 columns. Each named value of the body is one stage of the ripple (or half of a
  borrow stage where the text is cut between two stages), so the stored values fold to a chain of eight column
  stages; a column read at row p is the block's entry (p, k); and the chain read at row p is the row's chain.
-/
import proofs.«158708_j23407571764121_1_alg».proof.Proof.Gen.KernelIdeal.Frame
import proofs.«158708_j23407571764121_1_alg».proof.Proof.Spec
import Idealize.ShloMosaic.Lib.Pipeline.Value

noncomputable section

namespace Cert.KernelIdeal.KerBlock

open Cert.KernelIdeal Cert.KernelIdeal.Gen Idealize.ShloMosaic Idealize.ShloMosaic.ValueIdx
open Cert.Sub8

variable {F : FTy → Type} [FloatOps F]

/-- The all-2 and all-1 columns as the kernel spells them: a scalar constant broadcast down the block's rows. -/
def two : FVec F S65536x1 .f32 := broadcast S65536x1 (Scalar.ofBits .f32 0x40000000#32)
def one : FVec F S65536x1 .f32 := broadcast S65536x1 (Scalar.ofBits .f32 0x3F800000#32)

/-- The inner disjunction of a borrow stage, (¬a ∧ b) ∨ (¬a ∧ c): the borrow is this, or b ∧ c. -/
def vIn (a b c : FVec F S65536x1 .f32) : FVec F S65536x1 .f32 :=
  vOr (mulf (subf one a) b) (mulf (subf one a) c)

/-! ## Each named value of the kernel's body is a stage, or half of one

The kernel's text is cut in four parts, two stages to a part; a borrow that crosses a cut is carried as its inner
disjunction and closed by the outer one on the far side. In every lemma `c` is the incoming borrow, `a b` the bits
of the earlier column and `a' b'` those of the later one; `v` is the borrow entering a part, `w` the inner
disjunction carried with it. -/

section Payloads
variable (c a b a' b' v w : FVec F S65536x1 .f32)

theorem pay3_eq : k0_pay3 c a b = vDiff two a b c := rfl
theorem pay4_eq : k0_pay4 c a b = vBorrow one a b c := rfl
theorem pay5_eq : k0_pay5 c a b a' b' = vDiff two a' b' (k0_pay4 c a b) := rfl
theorem pay6_eq : k0_pay6 c a b a' b' = vIn a' b' (k0_pay4 c a b) := rfl
theorem pay7_eq : k0_pay7 v b (vIn a b v) = vBorrow one a b v := rfl
theorem pay8_eq : k0_pay8 v b w a' b' = vDiff two a' b' (k0_pay7 v b w) := rfl
theorem pay9_eq : k0_pay9 v b w a' b' = vBorrow one a' b' (k0_pay7 v b w) := rfl
theorem pay10_eq (a'' b'' : FVec F S65536x1 .f32) :
    k0_pay10 v b w a' b' a'' b'' = vDiff two a'' b'' (k0_pay9 v b w a' b') := rfl
theorem pay11_eq (a'' b'' : FVec F S65536x1 .f32) :
    k0_pay11 v b w a' b' a'' b'' = vIn a'' b'' (k0_pay9 v b w a' b') := rfl
theorem pay12_eq : k0_pay12 v b (vIn a b v) = vBorrow one a b v := rfl
theorem pay13_eq : k0_pay13 v b w a' b' = vDiff two a' b' (k0_pay12 v b w) := rfl
theorem pay14_eq : k0_pay14 v b w a' b' = vBorrow one a' b' (k0_pay12 v b w) := rfl
theorem pay15_eq (a'' b'' : FVec F S65536x1 .f32) :
    k0_pay15 v b w a' b' a'' b'' = vDiff two a'' b'' (k0_pay14 v b w a' b') := rfl
theorem pay16_eq (a'' b'' : FVec F S65536x1 .f32) :
    k0_pay16 v b w a' b' a'' b'' = vIn a'' b'' (k0_pay14 v b w a' b') := rfl
theorem pay17_eq : k0_pay17 v b (vIn a b v) = vBorrow one a b v := rfl
theorem pay18_eq : k0_pay18 v b w a' b' = vDiff two a' b' (k0_pay17 v b w) := rfl
theorem pay19_eq : k0_pay19 v b w a' b' = vBorrow one a' b' (k0_pay17 v b w) := rfl
theorem pay20_eq (a'' b'' : FVec F S65536x1 .f32) :
    k0_pay20 v b w a' b' a'' b'' = vDiff two a'' b'' (k0_pay19 v b w a' b') := rfl
theorem pay21_eq (a'' b'' : FVec F S65536x1 .f32) :
    k0_pay21 v b w a' b' a'' b'' = vIn a'' b'' (k0_pay19 v b w a' b') := rfl
theorem pay1_eq : k0_pay1 v b (vIn a b v) = vBorrow one a b v := rfl

end Payloads

/-- The offsets of a whole-block access are zero on both axes. -/
theorem hz : (![0, 0] : Fin 2 → Nat) = fun _ => 0 := by funext a; fin_cases a <;> rfl

/-! ## The block's two results as chains of whole-column stages

Column `k` of an N×8 block is its load through the N×1 rectangle at offset (0, k). `B k` is the borrow column
leaving bit `k`, `D k` the difference column of bit `k`. -/

section Chain
variable (x0 x1 : Vec F S65536x8 .f32) (x2 : Vec F S65536x1 .f32)

/-- The borrow column leaving bit k. -/
def B7 : FVec F S65536x1 .f32 := vBorrow one (View.ld x0 r0_1) (View.ld x1 r0_1) x2
def B6 : FVec F S65536x1 .f32 := vBorrow one (View.ld x0 r0_2) (View.ld x1 r0_2) (B7 x0 x1 x2)
def B5 : FVec F S65536x1 .f32 := vBorrow one (View.ld x0 r0_3) (View.ld x1 r0_3) (B6 x0 x1 x2)
def B4 : FVec F S65536x1 .f32 := vBorrow one (View.ld x0 r0_4) (View.ld x1 r0_4) (B5 x0 x1 x2)
def B3 : FVec F S65536x1 .f32 := vBorrow one (View.ld x0 r0_5) (View.ld x1 r0_5) (B4 x0 x1 x2)
def B2 : FVec F S65536x1 .f32 := vBorrow one (View.ld x0 r0_6) (View.ld x1 r0_6) (B3 x0 x1 x2)
def B1 : FVec F S65536x1 .f32 := vBorrow one (View.ld x0 r0_7) (View.ld x1 r0_7) (B2 x0 x1 x2)
def B0 : FVec F S65536x1 .f32 := vBorrow one (View.ld x0 r0_8) (View.ld x1 r0_8) (B1 x0 x1 x2)

/-- The difference column of bit k. -/
def D7 : FVec F S65536x1 .f32 := vDiff two (View.ld x0 r0_1) (View.ld x1 r0_1) x2
def D6 : FVec F S65536x1 .f32 := vDiff two (View.ld x0 r0_2) (View.ld x1 r0_2) (B7 x0 x1 x2)
def D5 : FVec F S65536x1 .f32 := vDiff two (View.ld x0 r0_3) (View.ld x1 r0_3) (B6 x0 x1 x2)
def D4 : FVec F S65536x1 .f32 := vDiff two (View.ld x0 r0_4) (View.ld x1 r0_4) (B5 x0 x1 x2)
def D3 : FVec F S65536x1 .f32 := vDiff two (View.ld x0 r0_5) (View.ld x1 r0_5) (B4 x0 x1 x2)
def D2 : FVec F S65536x1 .f32 := vDiff two (View.ld x0 r0_6) (View.ld x1 r0_6) (B3 x0 x1 x2)
def D1 : FVec F S65536x1 .f32 := vDiff two (View.ld x0 r0_7) (View.ld x1 r0_7) (B2 x0 x1 x2)
def D0 : FVec F S65536x1 .f32 := vDiff two (View.ld x0 r0_8) (View.ld x1 r0_8) (B1 x0 x1 x2)

/-- The borrow block is the last borrow column: its one store covers it, and the stored value folds stage by stage. -/
theorem out4_eq : out0_4 x0 x1 x2 = B0 x0 x1 x2 := by
  unfold out0_4
  rw [View.canon_unit_zero hz]
  simp only [View.ld_unit_zero (S := S65536x1) hz, pay3_eq, pay4_eq, pay5_eq, pay6_eq, pay7_eq, pay8_eq, pay9_eq, pay10_eq, pay11_eq, pay12_eq, pay13_eq,
    pay14_eq, pay15_eq, pay16_eq, pay17_eq, pay18_eq, pay19_eq, pay20_eq, pay21_eq, pay1_eq]
  rfl

/-- The eight difference columns, column 0 first. -/
def Dcols : List ((s : Shape) × (s.Idx → F .f32)) :=
  [⟨S65536x1, D0 x0 x1 x2⟩, ⟨S65536x1, D1 x0 x1 x2⟩, ⟨S65536x1, D2 x0 x1 x2⟩, ⟨S65536x1, D3 x0 x1 x2⟩,
    ⟨S65536x1, D4 x0 x1 x2⟩, ⟨S65536x1, D5 x0 x1 x2⟩, ⟨S65536x1, D6 x0 x1 x2⟩, ⟨S65536x1, D7 x0 x1 x2⟩]

/-- The difference block is the eight difference columns side by side. -/
theorem out3_eq : out0_3 x0 x1 x2 = concatenate S65536x8 1 (Dcols x0 x1 x2)
    concatenates_S65536x1_S65536x1_S65536x1_S65536x1_S65536x1_S65536x1_S65536x1_S65536x1_S65536x8_d1 := by
  unfold out0_3
  rw [View.canon_unit_zero hz]
  simp only [View.ld_unit_zero (S := S65536x1) hz, pay3_eq, pay4_eq, pay5_eq, pay6_eq, pay7_eq, pay8_eq, pay9_eq, pay10_eq, pay11_eq, pay12_eq, pay13_eq,
    pay14_eq, pay15_eq, pay16_eq, pay17_eq, pay18_eq, pay19_eq, pay20_eq, pay21_eq, pay1_eq]
  rfl

end Chain

/-! ## Read at a row

A column load at row `p` is the block's entry (p, k): the rectangle places its index (p, 0) at
(0 + 1·p, k + 1·0). -/

section Columns
variable (x : Vec F S65536x8 .f32) (p : Fin 65536)

theorem ld_col7 : View.ld x r0_1 (ix2 p 0) = x (ix2 p 7) :=
  congrArg x (funext fun a => Fin.ext (by
    match a with
    | ⟨0, _⟩ => show 0 + 1 * p.val = p.val; omega
    | ⟨1, _⟩ => rfl))
theorem ld_col6 : View.ld x r0_2 (ix2 p 0) = x (ix2 p 6) :=
  congrArg x (funext fun a => Fin.ext (by
    match a with
    | ⟨0, _⟩ => show 0 + 1 * p.val = p.val; omega
    | ⟨1, _⟩ => rfl))
theorem ld_col5 : View.ld x r0_3 (ix2 p 0) = x (ix2 p 5) :=
  congrArg x (funext fun a => Fin.ext (by
    match a with
    | ⟨0, _⟩ => show 0 + 1 * p.val = p.val; omega
    | ⟨1, _⟩ => rfl))
theorem ld_col4 : View.ld x r0_4 (ix2 p 0) = x (ix2 p 4) :=
  congrArg x (funext fun a => Fin.ext (by
    match a with
    | ⟨0, _⟩ => show 0 + 1 * p.val = p.val; omega
    | ⟨1, _⟩ => rfl))
theorem ld_col3 : View.ld x r0_5 (ix2 p 0) = x (ix2 p 3) :=
  congrArg x (funext fun a => Fin.ext (by
    match a with
    | ⟨0, _⟩ => show 0 + 1 * p.val = p.val; omega
    | ⟨1, _⟩ => rfl))
theorem ld_col2 : View.ld x r0_6 (ix2 p 0) = x (ix2 p 2) :=
  congrArg x (funext fun a => Fin.ext (by
    match a with
    | ⟨0, _⟩ => show 0 + 1 * p.val = p.val; omega
    | ⟨1, _⟩ => rfl))
theorem ld_col1 : View.ld x r0_7 (ix2 p 0) = x (ix2 p 1) :=
  congrArg x (funext fun a => Fin.ext (by
    match a with
    | ⟨0, _⟩ => show 0 + 1 * p.val = p.val; omega
    | ⟨1, _⟩ => rfl))
theorem ld_col0 : View.ld x r0_8 (ix2 p 0) = x (ix2 p 0) :=
  congrArg x (funext fun a => Fin.ext (by
    match a with
    | ⟨0, _⟩ => show 0 + 1 * p.val = p.val; omega
    | ⟨1, _⟩ => rfl))

end Columns

section AtRow
variable (x0 x1 : Vec F S65536x8 .f32) (x2 : Vec F S65536x1 .f32) (p : Fin 65536)

/-- Row p of the borrow column leaving bit k is the row's borrow leaving bit k. -/
theorem B7_apply : B7 x0 x1 x2 (ix2 p 0)
    = bor7 cOne (fun j => x0 (ix2 p j)) (fun j => x1 (ix2 p j)) (x2 (ix2 p 0)) := by
  unfold B7 bor7
  rw [vBorrow_apply, ld_col7, ld_col7]
  rfl
theorem B6_apply : B6 x0 x1 x2 (ix2 p 0)
    = bor6 cOne (fun j => x0 (ix2 p j)) (fun j => x1 (ix2 p j)) (x2 (ix2 p 0)) := by
  unfold B6 bor6
  rw [vBorrow_apply, ld_col6, ld_col6, B7_apply]
  rfl
theorem B5_apply : B5 x0 x1 x2 (ix2 p 0)
    = bor5 cOne (fun j => x0 (ix2 p j)) (fun j => x1 (ix2 p j)) (x2 (ix2 p 0)) := by
  unfold B5 bor5
  rw [vBorrow_apply, ld_col5, ld_col5, B6_apply]
  rfl
theorem B4_apply : B4 x0 x1 x2 (ix2 p 0)
    = bor4 cOne (fun j => x0 (ix2 p j)) (fun j => x1 (ix2 p j)) (x2 (ix2 p 0)) := by
  unfold B4 bor4
  rw [vBorrow_apply, ld_col4, ld_col4, B5_apply]
  rfl
theorem B3_apply : B3 x0 x1 x2 (ix2 p 0)
    = bor3 cOne (fun j => x0 (ix2 p j)) (fun j => x1 (ix2 p j)) (x2 (ix2 p 0)) := by
  unfold B3 bor3
  rw [vBorrow_apply, ld_col3, ld_col3, B4_apply]
  rfl
theorem B2_apply : B2 x0 x1 x2 (ix2 p 0)
    = bor2 cOne (fun j => x0 (ix2 p j)) (fun j => x1 (ix2 p j)) (x2 (ix2 p 0)) := by
  unfold B2 bor2
  rw [vBorrow_apply, ld_col2, ld_col2, B3_apply]
  rfl
theorem B1_apply : B1 x0 x1 x2 (ix2 p 0)
    = bor1 cOne (fun j => x0 (ix2 p j)) (fun j => x1 (ix2 p j)) (x2 (ix2 p 0)) := by
  unfold B1 bor1
  rw [vBorrow_apply, ld_col1, ld_col1, B2_apply]
  rfl
theorem B0_apply : B0 x0 x1 x2 (ix2 p 0)
    = bor0 cOne (fun j => x0 (ix2 p j)) (fun j => x1 (ix2 p j)) (x2 (ix2 p 0)) := by
  unfold B0 bor0
  rw [vBorrow_apply, ld_col0, ld_col0, B1_apply]
  rfl

/-- Row p of the difference column of bit k is the row's difference bit k. -/
theorem D7_apply : D7 x0 x1 x2 (ix2 p 0)
    = dif cTwo cOne (fun j => x0 (ix2 p j)) (fun j => x1 (ix2 p j)) (x2 (ix2 p 0)) 7 := by
  unfold D7
  rw [vDiff_apply, ld_col7, ld_col7]
  rfl
theorem D6_apply : D6 x0 x1 x2 (ix2 p 0)
    = dif cTwo cOne (fun j => x0 (ix2 p j)) (fun j => x1 (ix2 p j)) (x2 (ix2 p 0)) 6 := by
  unfold D6
  rw [vDiff_apply, ld_col6, ld_col6, B7_apply]
  rfl
theorem D5_apply : D5 x0 x1 x2 (ix2 p 0)
    = dif cTwo cOne (fun j => x0 (ix2 p j)) (fun j => x1 (ix2 p j)) (x2 (ix2 p 0)) 5 := by
  unfold D5
  rw [vDiff_apply, ld_col5, ld_col5, B6_apply]
  rfl
theorem D4_apply : D4 x0 x1 x2 (ix2 p 0)
    = dif cTwo cOne (fun j => x0 (ix2 p j)) (fun j => x1 (ix2 p j)) (x2 (ix2 p 0)) 4 := by
  unfold D4
  rw [vDiff_apply, ld_col4, ld_col4, B5_apply]
  rfl
theorem D3_apply : D3 x0 x1 x2 (ix2 p 0)
    = dif cTwo cOne (fun j => x0 (ix2 p j)) (fun j => x1 (ix2 p j)) (x2 (ix2 p 0)) 3 := by
  unfold D3
  rw [vDiff_apply, ld_col3, ld_col3, B4_apply]
  rfl
theorem D2_apply : D2 x0 x1 x2 (ix2 p 0)
    = dif cTwo cOne (fun j => x0 (ix2 p j)) (fun j => x1 (ix2 p j)) (x2 (ix2 p 0)) 2 := by
  unfold D2
  rw [vDiff_apply, ld_col2, ld_col2, B3_apply]
  rfl
theorem D1_apply : D1 x0 x1 x2 (ix2 p 0)
    = dif cTwo cOne (fun j => x0 (ix2 p j)) (fun j => x1 (ix2 p j)) (x2 (ix2 p 0)) 1 := by
  unfold D1
  rw [vDiff_apply, ld_col1, ld_col1, B2_apply]
  rfl
theorem D0_apply : D0 x0 x1 x2 (ix2 p 0)
    = dif cTwo cOne (fun j => x0 (ix2 p j)) (fun j => x1 (ix2 p j)) (x2 (ix2 p 0)) 0 := by
  unfold D0
  rw [vDiff_apply, ld_col0, ld_col0, B1_apply]
  rfl

end AtRow

/-! ## The two results, entry by entry -/

/-- Entry (p, k) of the difference block. -/
theorem out3_apply (x0 x1 : Vec F S65536x8 .f32) (x2 : Vec F S65536x1 .f32) (p : Fin 65536) (k : Fin 8) :
    out0_3 x0 x1 x2 (ix2 p k)
      = dif cTwo cOne (fun j => x0 (ix2 p j)) (fun j => x1 (ix2 p j)) (x2 (ix2 p 0)) k := by
  rw [out3_eq]
  -- off the concatenation's axis the piece is read at the same row
  have hi : ∀ (c : Fin 8) (b : Fin 2), b.cast (rfl : (2 : Nat) = 2) ≠ (1 : Fin 2) →
      ((ix2 p (0 : Fin 1) : S65536x1.Idx) b).val = ((ix2 p c : S65536x8.Idx) (b.cast rfl)).val := by
    intro c b hb
    match b with
    | ⟨0, _⟩ => rfl
    | ⟨1, _⟩ => exact absurd rfl hb
  match k with
  | ⟨0, _⟩ =>
    exact Eq.trans (concatenate_apply_piece (t := S65536x8) 1 (Dcols x0 x1 x2) _ _ 0 (by show 0 < 8; omega) S65536x1 (D0 x0 x1 x2)
      rfl rfl 0 rfl (ix2 p 0) (hi _) rfl) (D0_apply x0 x1 x2 p)
  | ⟨1, _⟩ =>
    exact Eq.trans (concatenate_apply_piece (t := S65536x8) 1 (Dcols x0 x1 x2) _ _ 1 (by show 1 < 8; omega) S65536x1 (D1 x0 x1 x2)
      rfl rfl 1 rfl (ix2 p 0) (hi _) rfl) (D1_apply x0 x1 x2 p)
  | ⟨2, _⟩ =>
    exact Eq.trans (concatenate_apply_piece (t := S65536x8) 1 (Dcols x0 x1 x2) _ _ 2 (by show 2 < 8; omega) S65536x1 (D2 x0 x1 x2)
      rfl rfl 2 rfl (ix2 p 0) (hi _) rfl) (D2_apply x0 x1 x2 p)
  | ⟨3, _⟩ =>
    exact Eq.trans (concatenate_apply_piece (t := S65536x8) 1 (Dcols x0 x1 x2) _ _ 3 (by show 3 < 8; omega) S65536x1 (D3 x0 x1 x2)
      rfl rfl 3 rfl (ix2 p 0) (hi _) rfl) (D3_apply x0 x1 x2 p)
  | ⟨4, _⟩ =>
    exact Eq.trans (concatenate_apply_piece (t := S65536x8) 1 (Dcols x0 x1 x2) _ _ 4 (by show 4 < 8; omega) S65536x1 (D4 x0 x1 x2)
      rfl rfl 4 rfl (ix2 p 0) (hi _) rfl) (D4_apply x0 x1 x2 p)
  | ⟨5, _⟩ =>
    exact Eq.trans (concatenate_apply_piece (t := S65536x8) 1 (Dcols x0 x1 x2) _ _ 5 (by show 5 < 8; omega) S65536x1 (D5 x0 x1 x2)
      rfl rfl 5 rfl (ix2 p 0) (hi _) rfl) (D5_apply x0 x1 x2 p)
  | ⟨6, _⟩ =>
    exact Eq.trans (concatenate_apply_piece (t := S65536x8) 1 (Dcols x0 x1 x2) _ _ 6 (by show 6 < 8; omega) S65536x1 (D6 x0 x1 x2)
      rfl rfl 6 rfl (ix2 p 0) (hi _) rfl) (D6_apply x0 x1 x2 p)
  | ⟨7, _⟩ =>
    exact Eq.trans (concatenate_apply_piece (t := S65536x8) 1 (Dcols x0 x1 x2) _ _ 7 (by show 7 < 8; omega) S65536x1 (D7 x0 x1 x2)
      rfl rfl 7 rfl (ix2 p 0) (hi _) rfl) (D7_apply x0 x1 x2 p)
  | ⟨_ + 8, h⟩ => exact absurd h (Nat.not_lt.2 (Nat.le_add_left _ _))

/-- Entry (p, 0) of the borrow block. -/
theorem out4_apply (x0 x1 : Vec F S65536x8 .f32) (x2 : Vec F S65536x1 .f32) (p : Fin 65536) :
    out0_4 x0 x1 x2 (ix2 p 0)
      = bor0 cOne (fun j => x0 (ix2 p j)) (fun j => x1 (ix2 p j)) (x2 (ix2 p 0)) := by
  rw [out4_eq]
  exact B0_apply x0 x1 x2 p

end Cert.KernelIdeal.KerBlock

end
-- ==== Proof.KerValue.lean ====
/-
  The kernel's two output arrays after its run, as functions of the three argument arrays. Grid step t works on
  rows 65536·t … 65536·t + 65535 of every array (all columns), so the 128 steps' blocks tile each output array,
  and entry (r, k) of an output is entry (r mod 65536, k) of the block step r / 65536 wrote.
-/
import proofs.«158708_j23407571764121_1_alg».proof.Proof.KerBlock

noncomputable section

namespace Cert.KernelIdeal.KerValue

open Cert.KernelIdeal Cert.KernelIdeal.Gen Idealize.ShloMosaic Idealize.ShloMosaic.TcCoe Idealize.ShloMosaic.ValueIdx Idealize.SL.Sem
open Cert.Sub8

variable {F : FTy → Type} [FloatOps F]

/-! ## One step's blocks as rows of the arrays -/

section Blocks

variable (m : (ℓ : Loc nD τ sig) → Buf (Elt F) ℓ)

/-- The five index maps, decided over the 128 grid steps: step t's block is block (t, 0) of every array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Entry x of step t's block of the minuend array is entry (65536·t + x₀, x₁) of the array. -/
theorem iblk0_apply (c : Dev nD) (t : Fin cfg0.N) (x : S65536x8.Idx) (k : S8388608x8.Idx)
    (hk0 : (k 0).val = 65536 * t.val + (x 0).val) (hk1 : (k 1).val = (x 1).val) :
    (iblk m c 0 t : Vec F S65536x8 .f32) x = (V m c main_arg0 : S8388608x8.Idx → Elt F .f32) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 65536 + 1 * (x 0).val = (k 0).val; rw [e0, hk0]; omega
  | ⟨1, _⟩ => show win0_0.index t 1 * 8 + 1 * (x 1).val = (k 1).val; rw [e1, hk1]; omega

/-- The same for the subtrahend array. -/
theorem iblk1_apply (c : Dev nD) (t : Fin cfg0.N) (x : S65536x8.Idx) (k : S8388608x8.Idx)
    (hk0 : (k 0).val = 65536 * t.val + (x 0).val) (hk1 : (k 1).val = (x 1).val) :
    (iblk m c 1 t : Vec F S65536x8 .f32) x = (V m c main_arg1 : S8388608x8.Idx → Elt F .f32) k := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 65536 + 1 * (x 0).val = (k 0).val; rw [e0, hk0]; omega
  | ⟨1, _⟩ => show win0_1.index t 1 * 8 + 1 * (x 1).val = (k 1).val; rw [e1, hk1]; omega

/-- The same for the one-column array of incoming borrows. -/
theorem iblk2_apply (c : Dev nD) (t : Fin cfg0.N) (x : S65536x1.Idx) (k : S8388608x1.Idx)
    (hk0 : (k 0).val = 65536 * t.val + (x 0).val) (hk1 : (k 1).val = (x 1).val) :
    (iblk m c 2 t : Vec F S65536x1 .f32) x = (V m c main_arg2 : S8388608x1.Idx → Elt F .f32) k := by
  obtain ⟨-, -, -, -, e0, e1, -⟩ := idx_facts t
  unfold iblk
  rw [View.read_apply]
  show V m c main_arg2 _ = V m c main_arg2 _
  congr 1
  funext a
  apply Fin.ext
  match a with
  | ⟨0, _⟩ => show win0_2.index t 0 * 65536 + 1 * (x 0).val = (k 0).val; rw [e0, hk0]; omega
  | ⟨1, _⟩ => show win0_2.index t 1 * 1 + 1 * (x 1).val = (k 1).val; rw [e1, hk1]; omega

/-- If three blocks are rows 65536·q … of three arrays, the difference block computed from them is the same rows
    of the arrays' difference array. -/
theorem out3_eq (A B : S8388608x8.Idx → F .f32) (Bin : S8388608x1.Idx → F .f32)
    (x0 x1 : Vec F S65536x8 .f32) (x2 : Vec F S65536x1 .f32) (q : Nat)
    (h0 : ∀ (y : S65536x8.Idx) (i : S8388608x8.Idx), (i 0).val = 65536 * q + (y 0).val → (i 1).val = (y 1).val → x0 y = A i)
    (h1 : ∀ (y : S65536x8.Idx) (i : S8388608x8.Idx), (i 0).val = 65536 * q + (y 0).val → (i 1).val = (y 1).val → x1 y = B i)
    (h2 : ∀ (y : S65536x1.Idx) (i : S8388608x1.Idx), (i 0).val = 65536 * q + (y 0).val → (i 1).val = (y 1).val → x2 y = Bin i)
    (y : S65536x8.Idx) (i : S8388608x8.Idx) (hi0 : (i 0).val = 65536 * q + (y 0).val) (hi1 : (i 1).val = (y 1).val) :
    out0_3 x0 x1 x2 y = Gdif A B Bin i := by
  obtain ⟨p, k, rfl⟩ : ∃ (p : Fin 65536) (k : Fin 8), y = ix2 p k := ⟨y 0, y 1, eq_ix2 y⟩
  obtain ⟨r, k', rfl⟩ : ∃ (r : Fin 8388608) (k' : Fin 8), i = ix2 r k' := ⟨i 0, i 1, eq_ix2 i⟩
  have hr : r.val = 65536 * q + p.val := hi0
  obtain rfl : k' = k := Fin.ext hi1
  rw [KerBlock.out3_apply]
  show dif cTwo cOne _ _ _ k' = dif cTwo cOne (rowOf A r) (rowOf B r) (Bin (ix2 r 0)) k'
  have ea : (fun j => x0 (ix2 p j)) = rowOf A r := funext fun j => h0 (ix2 p j) (ix2 r j) hr rfl
  have eb : (fun j => x1 (ix2 p j)) = rowOf B r := funext fun j => h1 (ix2 p j) (ix2 r j) hr rfl
  have ec : x2 (ix2 p 0) = Bin (ix2 r 0) := h2 (ix2 p 0) (ix2 r 0) hr rfl
  rw [ea, eb, ec]

/-- and the borrow block the same rows of their borrow array. -/
theorem out4_eq (A B : S8388608x8.Idx → F .f32) (Bin : S8388608x1.Idx → F .f32)
    (x0 x1 : Vec F S65536x8 .f32) (x2 : Vec F S65536x1 .f32) (q : Nat)
    (h0 : ∀ (y : S65536x8.Idx) (i : S8388608x8.Idx), (i 0).val = 65536 * q + (y 0).val → (i 1).val = (y 1).val → x0 y = A i)
    (h1 : ∀ (y : S65536x8.Idx) (i : S8388608x8.Idx), (i 0).val = 65536 * q + (y 0).val → (i 1).val = (y 1).val → x1 y = B i)
    (h2 : ∀ (y : S65536x1.Idx) (i : S8388608x1.Idx), (i 0).val = 65536 * q + (y 0).val → (i 1).val = (y 1).val → x2 y = Bin i)
    (y : S65536x1.Idx) (i : S8388608x1.Idx) (hi0 : (i 0).val = 65536 * q + (y 0).val) (hi1 : (i 1).val = (y 1).val) :
    out0_4 x0 x1 x2 y = Gbor A B Bin i := by
  obtain ⟨p, k, rfl⟩ : ∃ (p : Fin 65536) (k : Fin 1), y = ix2 p k := ⟨y 0, y 1, eq_ix2 y⟩
  obtain ⟨r, k', rfl⟩ : ∃ (r : Fin 8388608) (k' : Fin 1), i = ix2 r k' := ⟨i 0, i 1, eq_ix2 i⟩
  have hr : r.val = 65536 * q + p.val := hi0
  obtain rfl : k = 0 := Subsingleton.elim _ _
  rw [KerBlock.out4_apply]
  show bor0 cOne _ _ _ = bor0 cOne (rowOf A r) (rowOf B r) (Bin (ix2 r 0))
  have ea : (fun j => x0 (ix2 p j)) = rowOf A r := funext fun j => h0 (ix2 p j) (ix2 r j) hr rfl
  have eb : (fun j => x1 (ix2 p j)) = rowOf B r := funext fun j => h1 (ix2 p j) (ix2 r j) hr rfl
  have ec : x2 (ix2 p 0) = Bin (ix2 r 0) := h2 (ix2 p 0) (ix2 r 0) hr rfl
  rw [ea, eb, ec]

end Blocks

/-! ## The blocks tile the output arrays -/

section Arrays

variable (m : (ℓ : Loc nD τ sig) → Buf (Elt F) ℓ)

/-- What step t writes back to the difference array is block t of the arguments' difference array. -/
theorem flushed3_eq (c : Dev nD) (t : Fin cfg0.N) :
    (dats m 0 c).flushed 3 t
      = ((cfg0.win 3).blk t).view.read (Elt F) (Gdif (V m c main_arg0) (V m c main_arg1) (V m c main_arg2)) := by
  show (cfg0.win 3).cut (grid0.coords t) ((dats m 0 c).after 3 t) = _
  rw [after0_3]
  obtain ⟨-, -, -, -, -, -, e0, e1, -⟩ := idx_facts t
  funext j
  rw [View.read_apply]
  refine out3_eq (V m c main_arg0) (V m c main_arg1) (V m c main_arg2) (iblk m c 0 t) (iblk m c 1 t) (iblk m c 2 t) t.val
    (iblk0_apply m c t) (iblk1_apply m c t) (iblk2_apply m c t) _ _ ?_ ?_
  · show win0_3.index t 0 * 65536 + 1 * (j 0).val = 65536 * t.val + (j 0).val
    rw [e0]; omega
  · show win0_3.index t 1 * 8 + 1 * (j 1).val = (j 1).val
    rw [e1]; omega

/-- What step t writes back to the borrow array is block t of the arguments' borrow array. -/
theorem flushed4_eq (c : Dev nD) (t : Fin cfg0.N) :
    (dats m 0 c).flushed 4 t
      = ((cfg0.win 4).blk t).view.read (Elt F) (Gbor (V m c main_arg0) (V m c main_arg1) (V m c main_arg2)) := by
  show (cfg0.win 4).cut (grid0.coords t) ((dats m 0 c).after 4 t) = _
  rw [after0_4]
  obtain ⟨-, -, -, -, -, -, -, -, e0, e1⟩ := idx_facts t
  funext j
  rw [View.read_apply]
  refine out4_eq (V m c main_arg0) (V m c main_arg1) (V m c main_arg2) (iblk m c 0 t) (iblk m c 1 t) (iblk m c 2 t) t.val
    (iblk0_apply m c t) (iblk1_apply m c t) (iblk2_apply m c t) _ _ ?_ ?_
  · show win0_4.index t 0 * 65536 + 1 * (j 0).val = 65536 * t.val + (j 0).val
    rw [e0]; omega
  · show win0_4.index t 1 * 1 + 1 * (j 1).val = (j 1).val
    rw [e1]; omega

/-- An entry of the difference array is in step t's block iff each coordinate is in the block's range. -/
theorem mem_blk3 (t : Fin cfg0.N) (i : S8388608x8.Idx) :
    i ∈ ((cfg0.win 3).blk t).view.set ↔ ∀ a : Fin 2, win0_3.index t a * S65536x8.size a ≤ (i a).val ∧ (i a).val < win0_3.index t a * S65536x8.size a + S65536x8.size a := by
  show i ∈ ((View.whole main_v0_0).slice (win0_3.rect t)).set ↔ _
  rw [View.set_slice_whole, Rect.mem_set_unit]
  exact Iff.rfl

theorem mem_blk4 (t : Fin cfg0.N) (i : S8388608x1.Idx) :
    i ∈ ((cfg0.win 4).blk t).view.set ↔ ∀ a : Fin 2, win0_4.index t a * S65536x1.size a ≤ (i a).val ∧ (i a).val < win0_4.index t a * S65536x1.size a + S65536x1.size a := by
  show i ∈ ((View.whole main_v0_1).slice (win0_4.rect t)).set ↔ _
  rw [View.set_slice_whole, Rect.mem_set_unit]
  exact Iff.rfl

/-- Row r of the difference array is in the block of step r / 65536. -/
theorem cover3 (i : S8388608x8.Idx) :
    ∃ t : Fin cfg0.N, (cfg0.win 3).flush t = true ∧ i ∈ ((cfg0.win 3).blk t).view.set := by
  have hi0 : (i 0).val < 8388608 := (i 0).isLt
  have hi1 : (i 1).val < 8 := (i 1).isLt
  have hN : cfg0.N = 128 := N_0
  obtain ⟨t, ht⟩ : ∃ t : Fin cfg0.N, t.val = (i 0).val / 65536 := ⟨⟨(i 0).val / 65536, by rw [hN]; omega⟩, rfl⟩
  obtain ⟨-, -, -, -, -, -, e0, e1, -⟩ := idx_facts t
  refine ⟨t, flush0_3 t, ?_⟩
  rw [mem_blk3]
  intro a
  match a with
  | ⟨0, _⟩ =>
    show win0_3.index t 0 * 65536 ≤ (i 0).val ∧ (i 0).val < win0_3.index t 0 * 65536 + 65536
    rw [e0, ht]; omega
  | ⟨1, _⟩ =>
    show win0_3.index t 1 * 8 ≤ (i 1).val ∧ (i 1).val < win0_3.index t 1 * 8 + 8
    rw [e1]; omega

/-- Row r of the borrow array is in the block of step r / 65536. -/
theorem cover4 (i : S8388608x1.Idx) :
    ∃ t : Fin cfg0.N, (cfg0.win 4).flush t = true ∧ i ∈ ((cfg0.win 4).blk t).view.set := by
  have hi0 : (i 0).val < 8388608 := (i 0).isLt
  have hi1 : (i 1).val < 1 := (i 1).isLt
  have hN : cfg0.N = 128 := N_0
  obtain ⟨t, ht⟩ : ∃ t : Fin cfg0.N, t.val = (i 0).val / 65536 := ⟨⟨(i 0).val / 65536, by rw [hN]; omega⟩, rfl⟩
  obtain ⟨-, -, -, -, -, -, -, -, e0, e1⟩ := idx_facts t
  refine ⟨t, flush0_4 t, ?_⟩
  rw [mem_blk4]
  intro a
  match a with
  | ⟨0, _⟩ =>
    show win0_4.index t 0 * 65536 ≤ (i 0).val ∧ (i 0).val < win0_4.index t 0 * 65536 + 65536
    rw [e0, ht]; omega
  | ⟨1, _⟩ =>
    show win0_4.index t 1 * 1 ≤ (i 1).val ∧ (i 1).val < win0_4.index t 1 * 1 + 1
    rw [e1]; omega

/-- The difference array after the run. -/
theorem final3 (c : Dev nD) :
    (dats m 0 c).arrAt 3 cfg0.N = Gdif (V m c main_arg0) (V m c main_arg1) (V m c main_arg2) :=
  (dats m 0 c).arrAt_eq_of_cover 3 (Gdif (V m c main_arg0) (V m c main_arg1) (V m c main_arg2))
    (fun t _ => flushed3_eq m c t) cover3

/-- The borrow array after the run. -/
theorem final4 (c : Dev nD) :
    (dats m 0 c).arrAt 4 cfg0.N = Gbor (V m c main_arg0) (V m c main_arg1) (V m c main_arg2) :=
  (dats m 0 c).arrAt_eq_of_cover 4 (Gbor (V m c main_arg0) (V m c main_arg1) (V m c main_arg2))
    (fun t _ => flushed4_eq m c t) cover4

end Arrays

/-! ## The run -/

/-- Every weakly fair execution of the kernel program terminates; the difference output holds the difference
    array of the arguments, the borrow output their borrow array, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0_0)
          = Gdif (m ((c.tc : Thread nD τ).loc main_arg0)) (m ((c.tc : Thread nD τ).loc main_arg1)) (m ((c.tc : Thread nD τ).loc main_arg2))
      ∧ r.2.mem ((c.tc : Thread nD τ).loc main_v0_1)
          = Gbor (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).1 3).trans (final3 m c),
       ((h c).1 4).trans (final4 m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.KerValue

end
-- ==== Proof.RefOps.lean ====
import proofs.«158708_j23407571764121_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The operations of the printed window main_part0, in order. -/
abbrev opsPart0 : List (HloOp τ sig (Elt F)) :=
  [
    unary main_arg0 main_v0 ((extractStridedSlice S8388608x1 ![0, 7] · slices_S8388608x8_S8388608x1_0_7) : (⟨S8388608x8, .f32⟩ : BufTy).Contents (Elt F) → (⟨S8388608x1, .f32⟩ : BufTy).Contents (Elt F)),
    unary main_arg1 main_v1 ((extractStridedSlice S8388608x1 ![0, 7] · slices_S8388608x8_S8388608x1_0_7) : (⟨S8388608x8, .f32⟩ : BufTy).Contents (Elt F) → (⟨S8388608x1, .f32⟩ : BufTy).Contents (Elt F)),
    binary main_v0 main_v1 main_v2 (addf : (⟨S8388608x1, .f32⟩ : BufTy).Contents (Elt F) → (⟨S8388608x1, .f32⟩ : BufTy).Contents (Elt F) → (⟨S8388608x1, .f32⟩ : BufTy).Contents (Elt F)),
    nullary main_cst (constant S_ .f32 0x40000000#32),
    unary main_cst main_v3 (broadcastInDim S8388608x1 ![] bcast_S_S8388608x1 : (⟨S_, .f32⟩ : BufTy).Contents (Elt F) → (⟨S8388608x1, .f32⟩ : BufTy).Contents (Elt F)),
    binary main_v3 main_v0 main_v4 (mulf : (⟨S8388608x1, .f32⟩ : BufTy).Contents (Elt F) → (⟨S8388608x1, .f32⟩ : BufTy).Contents (Elt F) → (⟨S8388608x1, .f32⟩ : BufTy).Contents (Elt F)),
    binary main_v4 main_v1 main_v5 (mulf : (⟨S8388608x1, .f32⟩ : BufTy).Contents (Elt F) → (⟨S8388608x1, .f32⟩ : BufTy).Contents (Elt F) → (⟨S8388608x1, .f32⟩ : BufTy).Contents (Elt F)),
    binary main_v2 main_v5 main_v6 (subf : (⟨S8388608x1, .f32⟩ : BufTy).Contents (Elt F) → (⟨S8388608x1, .f32⟩ : BufTy).Contents (Elt F) → (⟨S8388608x1, .f32⟩ : BufTy).Contents (Elt F)),
    binary main_v6 main_arg2 main_v7 (addf : (⟨S8388608x1, .f32⟩ : BufTy).Contents (Elt F) → (⟨S8388608x1, .f32⟩ : BufTy).Contents (Elt F) → (⟨S8388608x1, .f32⟩ : BufTy).Contents (Elt F)),
    nullary main_cst_0 (constant S_ .f32 0x40000000#32),
    unary main_cst_0 main_v8 (broadcastInDim S8388608x1 ![] bcast_S_S8388608x1 : (⟨S_, .f32⟩ : BufTy).Contents (Elt F) → (⟨S8388608x1, .f32⟩ : BufTy).Contents (Elt F)),
    binary main_v8 main_v6 main_v9 (mulf : (⟨S8388608x1, .f32⟩ : BufTy).Contents (Elt F) → (⟨S8388608x1, .f32⟩ : BufTy).Contents (Elt F) → (⟨S8388608x1, .f32⟩ : BufTy).Contents (Elt F)),
    binary main_v9 main_arg2 main_v10 (mulf : (⟨S8388608x1, .f32⟩ : BufTy).Contents (Elt F) → (⟨S8388608x1, .f32⟩ : BufTy).Contents (Elt F) → (⟨S8388608x1, .f32⟩ : BufTy).Contents (Elt F)),
    binary main_v7 main_v10 main_v11 (subf : (⟨S8388608x1, .f32⟩ : BufTy).Contents (Elt F) → (⟨S8388608x1, .f32⟩ : BufTy).Contents (Elt F) → (⟨S8388608x1, .f32⟩ : BufTy).Contents (Elt F)),
    nullary main_cst_1 (constant S_ .f32 0x3F800000#32),
    unary main_cst_1 main_v12 (broadcastInDim S8388608x1 ![] bcast_S_S8388608x1 : (⟨S_, .f32⟩ : BufTy).Contents (Elt F) → (⟨S8388608x1, .f32⟩ : BufTy).Contents (Elt F)),
    binary main_v12 main_v0 main_v13 (subf : (⟨S8388608x1, .f32⟩ : BufTy).Contents (Elt F) → (⟨S8388608x1, .f32⟩ : BufTy).Contents (Elt F) → (⟨S8388608x1, .f32⟩ : BufTy).Contents (Elt F)),
    binary main_v13 main_v1 main_v14 (mulf : (⟨S8388608x1, .f32⟩ : BufTy).Contents (Elt F) → (⟨S8388608x1, .f32⟩ : BufTy).Contents (Elt F) → (⟨S8388608x1, .f32⟩ : BufTy).Contents (Elt F)),
    binary main_v13 main_arg2 main_v15 (mulf : (⟨S8388608x1, .f32⟩ : BufTy).Contents (Elt F) → (⟨S8388608x1, .f32⟩ : BufTy).Contents (Elt F) → (⟨S8388608x1, .f32⟩ : BufTy).Contents (Elt F)),
    binary main_v14 main_v15 main_v16 (addf : (⟨S8388608x1, .f32⟩ : BufTy).Contents (Elt F) → (⟨S8388608x1, .f32⟩ : BufTy).Contents (Elt F) → (⟨S8388608x1, .f32⟩ : BufTy).Contents (Elt F)),
    binary main_v14 main_v15 main_v17 (mulf : (⟨S8388608x1, .f32⟩ : BufTy).Contents (Elt F) → (⟨S8388608x1, .f32⟩ : BufTy).Contents (Elt F) → (⟨S8388608x1, .f32⟩ : BufTy).Contents (Elt F)),
    binary main_v16 main_v17 main_v18 (subf : (⟨S8388608x1, .f32⟩ : BufTy).Contents (Elt F) → (⟨S8388608x1, .f32⟩ : BufTy).Contents (Elt F) → (⟨S8388608x1, .f32⟩ : BufTy).Contents (Elt F)),
    binary main_v1 main_arg2 main_v19 (mulf : (⟨S8388608x1, .f32⟩ : BufTy).Contents (Elt F) → (⟨S8388608x1, .f32⟩ : BufTy).Contents (Elt F) → (⟨S8388608x1, .f32⟩ : BufTy).Contents (Elt F)),
    binary main_v18 main_v19 main_v20 (addf : (⟨S8388608x1, .f32⟩ : BufTy).Contents (Elt F) → (⟨S8388608x1, .f32⟩ : BufTy).Contents (Elt F) → (⟨S8388608x1, .f32⟩ : BufTy).Contents (Elt F)),
    binary main_v18 main_v19 main_v21 (mulf : (⟨S8388608x1, .f32⟩ : BufTy).Contents (Elt F) → (⟨S8388608x1, .f32⟩ : BufTy).Contents (Elt F) → (⟨S8388608x1, .f32⟩ : BufTy).Contents (Elt F)),
    binary main_v20 main_v21 main_v22 (subf : (⟨S8388608x1, .f32⟩ : BufTy).Contents (Elt F) → (⟨S8388608x1, .f32⟩ : BufTy).Contents (Elt F) → (⟨S8388608x1, .f32⟩ : BufTy).Contents (Elt F)),
    unary main_arg0 main_v23 ((extractStridedSlice S8388608x1 ![0, 6] · slices_S8388608x8_S8388608x1_0_6) : (⟨S8388608x8, .f32⟩ : BufTy).Contents (Elt F) → (⟨S8388608x1, .f32⟩ : BufTy).Contents (Elt F)),
    unary main_arg1 main_v24 ((extractStridedSlice S8388608x1 ![0, 6] · slices_S8388608x8_S8388608x1_0_6) : (⟨S8388608x8, .f32⟩ : BufTy).Contents (Elt F) → (⟨S8388608x1, .f32⟩ : BufTy).Contents (Elt F)),
    binary main_v23 main_v24 main_v25 (addf : (⟨S8388608x1, .f32⟩ : BufTy).Contents (Elt F) → (⟨S8388608x1, .f32⟩ : BufTy).Contents (Elt F) → (⟨S8388608x1, .f32⟩ : BufTy).Contents (Elt F)),
    nullary main_cst_2 (constant S_ .f32 0x40000000#32),
    unary main_cst_2 main_v26 (broadcastInDim S8388608x1 ![] bcast_S_S8388608x1 : (⟨S_, .f32⟩ : BufTy).Contents (Elt F) → (⟨S8388608x1, .f32⟩ : BufTy).Contents (Elt F)),
    binary main_v26 main_v23 main_v27 (mulf : (⟨S8388608x1, .f32⟩ : BufTy).Contents (Elt F) → (⟨S8388608x1, .f32⟩ : BufTy).Contents (Elt F) → (⟨S8388608x1, .f32⟩ : BufTy).Contents (Elt F)),
    binary main_v27 main_v24 main_v28 (mulf : (⟨S8388608x1, .f32⟩ : BufTy).Contents (Elt F) → (⟨S8388608x1, .f32⟩ : BufTy).Contents (Elt F) → (⟨S8388608x1, .f32⟩ : BufTy).Contents (Elt F)),
    binary main_v25 main_v28 main_v29 (subf : (⟨S8388608x1, .f32⟩ : BufTy).Contents (Elt F) → (⟨S8388608x1, .f32⟩ : BufTy).Contents (Elt F) → (⟨S8388608x1, .f32⟩ : BufTy).Contents (Elt F)),
    binary main_v29 main_v22 main_v30 (addf : (⟨S8388608x1, .f32⟩ : BufTy).Contents (Elt F) → (⟨S8388608x1, .f32⟩ : BufTy).Contents (Elt F) → (⟨S8388608x1, .f32⟩ : BufTy).Contents (Elt F)),
    nullary main_cst_3 (constant S_ .f32 0x40000000#32),
    unary main_cst_3 main_v31 (broadcastInDim S8388608x1 ![] bcast_S_S8388608x1 : (⟨S_, .f32⟩ : BufTy).Contents (Elt F) → (⟨S8388608x1, .f32⟩ : BufTy).Contents (Elt F)),
    binary main_v31 main_v29 main_v32 (mulf : (⟨S8388608x1, .f32⟩ : BufTy).Contents (Elt F) → (⟨S8388608x1, .f32⟩ : BufTy).Contents (Elt F) → (⟨S8388608x1, .f32⟩ : BufTy).Contents (Elt F)),
    binary main_v32 main_v22 main_v33 (mulf : (⟨S8388608x1, .f32⟩ : BufTy).Contents (Elt F) → (⟨S8388608x1, .f32⟩ : BufTy).Contents (Elt F) → (⟨S8388608x1, .f32⟩ : BufTy).Contents (Elt F)),
    binary main_v30 main_v33 main_v34 (subf : (⟨S8388608x1, .f32⟩ : BufTy).Contents (Elt F) → (⟨S8388608x1, .f32⟩ : BufTy).Contents (Elt F) → (⟨S8388608x1, .f32⟩ : BufTy).Contents (Elt F)),
    nullary main_cst_4 (constant S_ .f32 0x3F800000#32),
    unary main_cst_4 main_v35 (broadcastInDim S8388608x1 ![] bcast_S_S8388608x1 : (⟨S_, .f32⟩ : BufTy).Contents (Elt F) → (⟨S8388608x1, .f32⟩ : BufTy).Contents (Elt F)),
    binary main_v35 main_v23 main_v36 (subf : (⟨S8388608x1, .f32⟩ : BufTy).Contents (Elt F) → (⟨S8388608x1, .f32⟩ : BufTy).Contents (Elt F) → (⟨S8388608x1, .f32⟩ : BufTy).Contents (Elt F)),
    binary main_v36 main_v24 main_v37 (mulf : (⟨S8388608x1, .f32⟩ : BufTy).Contents (Elt F) → (⟨S8388608x1, .f32⟩ : BufTy).Contents (Elt F) → (⟨S8388608x1, .f32⟩ : BufTy).Contents (Elt F)),
    binary main_v36 main_v22 main_v38 (mulf : (⟨S8388608x1, .f32⟩ : BufTy).Contents (Elt F) → (⟨S8388608x1, .f32⟩ : BufTy).Contents (Elt F) → (⟨S8388608x1, .f32⟩ : BufTy).Contents (Elt F)),
    binary main_v37 main_v38 main_v39 (addf : (⟨S8388608x1, .f32⟩ : BufTy).Contents (Elt F) → (⟨S8388608x1, .f32⟩ : BufTy).Contents (Elt F) → (⟨S8388608x1, .f32⟩ : BufTy).Contents (Elt F)),
    binary main_v37 main_v38 main_v40 (mulf : (⟨S8388608x1, .f32⟩ : BufTy).Contents (Elt F) → (⟨S8388608x1, .f32⟩ : BufTy).Contents (Elt F) → (⟨S8388608x1, .f32⟩ : BufTy).Contents (Elt F)),
    binary main_v39 main_v40 main_v41 (subf : (⟨S8388608x1, .f32⟩ : BufTy).Contents (Elt F) → (⟨S8388608x1, .f32⟩ : BufTy).Contents (Elt F) → (⟨S8388608x1, .f32⟩ : BufTy).Contents (Elt F)),
    binary main_v24 main_v22 main_v42 (mulf : (⟨S8388608x1, .f32⟩ : BufTy).Contents (Elt F) → (⟨S8388608x1, .f32⟩ : BufTy).Contents (Elt F) → (⟨S8388608x1, .f32⟩ : BufTy).Contents (Elt F)),
    binary main_v41 main_v42 main_v43 (addf : (⟨S8388608x1, .f32⟩ : BufTy).Contents (Elt F) → (⟨S8388608x1, .f32⟩ : BufTy).Contents (Elt F) → (⟨S8388608x1, .f32⟩ : BufTy).Contents (Elt F)),
    binary main_v41 main_v42 main_v44 (mulf : (⟨S8388608x1, .f32⟩ : BufTy).Contents (Elt F) → (⟨S8388608x1, .f32⟩ : BufTy).Contents (Elt F) → (⟨S8388608x1, .f32⟩ : BufTy).Contents (Elt F)),
    binary main_v43 main_v44 main_v45 (subf : (⟨S8388608x1, .f32⟩ : BufTy).Contents (Elt F) → (⟨S8388608x1, .f32⟩ : BufTy).Contents (Elt F) → (⟨S8388608x1, .f32⟩ : BufTy).Contents (Elt F)),
    unary main_arg0 main_v46 ((extractStridedSlice S8388608x1 ![0, 5] · slices_S8388608x8_S8388608x1_0_5) : (⟨S8388608x8, .f32⟩ : BufTy).Contents (Elt F) → (⟨S8388608x1, .f32⟩ : BufTy).Contents (Elt F)),
    unary main_arg1 main_v47 ((extractStridedSlice S8388608x1 ![0, 5] · slices_S8388608x8_S8388608x1_0_5) : (⟨S8388608x8, .f32⟩ : BufTy).Contents (Elt F) → (⟨S8388608x1, .f32⟩ : BufTy).Contents (Elt F)),
    binary main_v46 main_v47 main_v48 (addf : (⟨S8388608x1, .f32⟩ : BufTy).Contents (Elt F) → (⟨S8388608x1, .f32⟩ : BufTy).Contents (Elt F) → (⟨S8388608x1, .f32⟩ : BufTy).Contents (Elt F)),
    nullary main_cst_5 (constant S_ .f32 0x40000000#32),
    unary main_cst_5 main_v49 (broadcastInDim S8388608x1 ![] bcast_S_S8388608x1 : (⟨S_, .f32⟩ : BufTy).Contents (Elt F) → (⟨S8388608x1, .f32⟩ : BufTy).Contents (Elt F)),
    binary main_v49 main_v46 main_v50 (mulf : (⟨S8388608x1, .f32⟩ : BufTy).Contents (Elt F) → (⟨S8388608x1, .f32⟩ : BufTy).Contents (Elt F) → (⟨S8388608x1, .f32⟩ : BufTy).Contents (Elt F)),
    binary main_v50 main_v47 main_v51 (mulf : (⟨S8388608x1, .f32⟩ : BufTy).Contents (Elt F) → (⟨S8388608x1, .f32⟩ : BufTy).Contents (Elt F) → (⟨S8388608x1, .f32⟩ : BufTy).Contents (Elt F)),
    binary main_v48 main_v51 main_v52 (subf : (⟨S8388608x1, .f32⟩ : BufTy).Contents (Elt F) → (⟨S8388608x1, .f32⟩ : BufTy).Contents (Elt F) → (⟨S8388608x1, .f32⟩ : BufTy).Contents (Elt F)) ]

/-- The operations of the printed window main_part1, in order. -/
abbrev opsPart1 : List (HloOp τ sig (Elt F)) :=
  [
    binary main_v52 main_v45 main_v53 (addf : (⟨S8388608x1, .f32⟩ : BufTy).Contents (Elt F) → (⟨S8388608x1, .f32⟩ : BufTy).Contents (Elt F) → (⟨S8388608x1, .f32⟩ : BufTy).Contents (Elt F)),
    nullary main_cst_6 (constant S_ .f32 0x40000000#32),
    unary main_cst_6 main_v54 (broadcastInDim S8388608x1 ![] bcast_S_S8388608x1 : (⟨S_, .f32⟩ : BufTy).Contents (Elt F) → (⟨S8388608x1, .f32⟩ : BufTy).Contents (Elt F)),
    binary main_v54 main_v52 main_v55 (mulf : (⟨S8388608x1, .f32⟩ : BufTy).Contents (Elt F) → (⟨S8388608x1, .f32⟩ : BufTy).Contents (Elt F) → (⟨S8388608x1, .f32⟩ : BufTy).Contents (Elt F)),
    binary main_v55 main_v45 main_v56 (mulf : (⟨S8388608x1, .f32⟩ : BufTy).Contents (Elt F) → (⟨S8388608x1, .f32⟩ : BufTy).Contents (Elt F) → (⟨S8388608x1, .f32⟩ : BufTy).Contents (Elt F)),
    binary main_v53 main_v56 main_v57 (subf : (⟨S8388608x1, .f32⟩ : BufTy).Contents (Elt F) → (⟨S8388608x1, .f32⟩ : BufTy).Contents (Elt F) → (⟨S8388608x1, .f32⟩ : BufTy).Contents (Elt F)),
    nullary main_cst_7 (constant S_ .f32 0x3F800000#32),
    unary main_cst_7 main_v58 (broadcastInDim S8388608x1 ![] bcast_S_S8388608x1 : (⟨S_, .f32⟩ : BufTy).Contents (Elt F) → (⟨S8388608x1, .f32⟩ : BufTy).Contents (Elt F)),
    binary main_v58 main_v46 main_v59 (subf : (⟨S8388608x1, .f32⟩ : BufTy).Contents (Elt F) → (⟨S8388608x1, .f32⟩ : BufTy).Contents (Elt F) → (⟨S8388608x1, .f32⟩ : BufTy).Contents (Elt F)),
    binary main_v59 main_v47 main_v60 (mulf : (⟨S8388608x1, .f32⟩ : BufTy).Contents (Elt F) → (⟨S8388608x1, .f32⟩ : BufTy).Contents (Elt F) → (⟨S8388608x1, .f32⟩ : BufTy).Contents (Elt F)),
    binary main_v59 main_v45 main_v61 (mulf : (⟨S8388608x1, .f32⟩ : BufTy).Contents (Elt F) → (⟨S8388608x1, .f32⟩ : BufTy).Contents (Elt F) → (⟨S8388608x1, .f32⟩ : BufTy).Contents (Elt F)),
    binary main_v60 main_v61 main_v62 (addf : (⟨S8388608x1, .f32⟩ : BufTy).Contents (Elt F) → (⟨S8388608x1, .f32⟩ : BufTy).Contents (Elt F) → (⟨S8388608x1, .f32⟩ : BufTy).Contents (Elt F)),
    binary main_v60 main_v61 main_v63 (mulf : (⟨S8388608x1, .f32⟩ : BufTy).Contents (Elt F) → (⟨S8388608x1, .f32⟩ : BufTy).Contents (Elt F) → (⟨S8388608x1, .f32⟩ : BufTy).Contents (Elt F)),
    binary main_v62 main_v63 main_v64 (subf : (⟨S8388608x1, .f32⟩ : BufTy).Contents (Elt F) → (⟨S8388608x1, .f32⟩ : BufTy).Contents (Elt F) → (⟨S8388608x1, .f32⟩ : BufTy).Contents (Elt F)),
    binary main_v47 main_v45 main_v65 (mulf : (⟨S8388608x1, .f32⟩ : BufTy).Contents (Elt F) → (⟨S8388608x1, .f32⟩ : BufTy).Contents (Elt F) → (⟨S8388608x1, .f32⟩ : BufTy).Contents (Elt F)),
    binary main_v64 main_v65 main_v66 (addf : (⟨S8388608x1, .f32⟩ : BufTy).Contents (Elt F) → (⟨S8388608x1, .f32⟩ : BufTy).Contents (Elt F) → (⟨S8388608x1, .f32⟩ : BufTy).Contents (Elt F)),
    binary main_v64 main_v65 main_v67 (mulf : (⟨S8388608x1, .f32⟩ : BufTy).Contents (Elt F) → (⟨S8388608x1, .f32⟩ : BufTy).Contents (Elt F) → (⟨S8388608x1, .f32⟩ : BufTy).Contents (Elt F)),
    binary main_v66 main_v67 main_v68 (subf : (⟨S8388608x1, .f32⟩ : BufTy).Contents (Elt F) → (⟨S8388608x1, .f32⟩ : BufTy).Contents (Elt F) → (⟨S8388608x1, .f32⟩ : BufTy).Contents (Elt F)),
    unary main_arg0 main_v69 ((extractStridedSlice S8388608x1 ![0, 4] · slices_S8388608x8_S8388608x1_0_4) : (⟨S8388608x8, .f32⟩ : BufTy).Contents (Elt F) → (⟨S8388608x1, .f32⟩ : BufTy).Contents (Elt F)),
    unary main_arg1 main_v70 ((extractStridedSlice S8388608x1 ![0, 4] · slices_S8388608x8_S8388608x1_0_4) : (⟨S8388608x8, .f32⟩ : BufTy).Contents (Elt F) → (⟨S8388608x1, .f32⟩ : BufTy).Contents (Elt F)),
    binary main_v69 main_v70 main_v71 (addf : (⟨S8388608x1, .f32⟩ : BufTy).Contents (Elt F) → (⟨S8388608x1, .f32⟩ : BufTy).Contents (Elt F) → (⟨S8388608x1, .f32⟩ : BufTy).Contents (Elt F)),
    nullary main_cst_8 (constant S_ .f32 0x40000000#32),
    unary main_cst_8 main_v72 (broadcastInDim S8388608x1 ![] bcast_S_S8388608x1 : (⟨S_, .f32⟩ : BufTy).Contents (Elt F) → (⟨S8388608x1, .f32⟩ : BufTy).Contents (Elt F)),
    binary main_v72 main_v69 main_v73 (mulf : (⟨S8388608x1, .f32⟩ : BufTy).Contents (Elt F) → (⟨S8388608x1, .f32⟩ : BufTy).Contents (Elt F) → (⟨S8388608x1, .f32⟩ : BufTy).Contents (Elt F)),
    binary main_v73 main_v70 main_v74 (mulf : (⟨S8388608x1, .f32⟩ : BufTy).Contents (Elt F) → (⟨S8388608x1, .f32⟩ : BufTy).Contents (Elt F) → (⟨S8388608x1, .f32⟩ : BufTy).Contents (Elt F)),
    binary main_v71 main_v74 main_v75 (subf : (⟨S8388608x1, .f32⟩ : BufTy).Contents (Elt F) → (⟨S8388608x1, .f32⟩ : BufTy).Contents (Elt F) → (⟨S8388608x1, .f32⟩ : BufTy).Contents (Elt F)),
    binary main_v75 main_v68 main_v76 (addf : (⟨S8388608x1, .f32⟩ : BufTy).Contents (Elt F) → (⟨S8388608x1, .f32⟩ : BufTy).Contents (Elt F) → (⟨S8388608x1, .f32⟩ : BufTy).Contents (Elt F)),
    nullary main_cst_9 (constant S_ .f32 0x40000000#32),
    unary main_cst_9 main_v77 (broadcastInDim S8388608x1 ![] bcast_S_S8388608x1 : (⟨S_, .f32⟩ : BufTy).Contents (Elt F) → (⟨S8388608x1, .f32⟩ : BufTy).Contents (Elt F)),
    binary main_v77 main_v75 main_v78 (mulf : (⟨S8388608x1, .f32⟩ : BufTy).Contents (Elt F) → (⟨S8388608x1, .f32⟩ : BufTy).Contents (Elt F) → (⟨S8388608x1, .f32⟩ : BufTy).Contents (Elt F)),
    binary main_v78 main_v68 main_v79 (mulf : (⟨S8388608x1, .f32⟩ : BufTy).Contents (Elt F) → (⟨S8388608x1, .f32⟩ : BufTy).Contents (Elt F) → (⟨S8388608x1, .f32⟩ : BufTy).Contents (Elt F)),
    binary main_v76 main_v79 main_v80 (subf : (⟨S8388608x1, .f32⟩ : BufTy).Contents (Elt F) → (⟨S8388608x1, .f32⟩ : BufTy).Contents (Elt F) → (⟨S8388608x1, .f32⟩ : BufTy).Contents (Elt F)),
    nullary main_cst_10 (constant S_ .f32 0x3F800000#32),
    unary main_cst_10 main_v81 (broadcastInDim S8388608x1 ![] bcast_S_S8388608x1 : (⟨S_, .f32⟩ : BufTy).Contents (Elt F) → (⟨S8388608x1, .f32⟩ : BufTy).Contents (Elt F)),
    binary main_v81 main_v69 main_v82 (subf : (⟨S8388608x1, .f32⟩ : BufTy).Contents (Elt F) → (⟨S8388608x1, .f32⟩ : BufTy).Contents (Elt F) → (⟨S8388608x1, .f32⟩ : BufTy).Contents (Elt F)),
    binary main_v82 main_v70 main_v83 (mulf : (⟨S8388608x1, .f32⟩ : BufTy).Contents (Elt F) → (⟨S8388608x1, .f32⟩ : BufTy).Contents (Elt F) → (⟨S8388608x1, .f32⟩ : BufTy).Contents (Elt F)),
    binary main_v82 main_v68 main_v84 (mulf : (⟨S8388608x1, .f32⟩ : BufTy).Contents (Elt F) → (⟨S8388608x1, .f32⟩ : BufTy).Contents (Elt F) → (⟨S8388608x1, .f32⟩ : BufTy).Contents (Elt F)),
    binary main_v83 main_v84 main_v85 (addf : (⟨S8388608x1, .f32⟩ : BufTy).Contents (Elt F) → (⟨S8388608x1, .f32⟩ : BufTy).Contents (Elt F) → (⟨S8388608x1, .f32⟩ : BufTy).Contents (Elt F)),
    binary main_v83 main_v84 main_v86 (mulf : (⟨S8388608x1, .f32⟩ : BufTy).Contents (Elt F) → (⟨S8388608x1, .f32⟩ : BufTy).Contents (Elt F) → (⟨S8388608x1, .f32⟩ : BufTy).Contents (Elt F)),
    binary main_v85 main_v86 main_v87 (subf : (⟨S8388608x1, .f32⟩ : BufTy).Contents (Elt F) → (⟨S8388608x1, .f32⟩ : BufTy).Contents (Elt F) → (⟨S8388608x1, .f32⟩ : BufTy).Contents (Elt F)),
    binary main_v70 main_v68 main_v88 (mulf : (⟨S8388608x1, .f32⟩ : BufTy).Contents (Elt F) → (⟨S8388608x1, .f32⟩ : BufTy).Contents (Elt F) → (⟨S8388608x1, .f32⟩ : BufTy).Contents (Elt F)),
    binary main_v87 main_v88 main_v89 (addf : (⟨S8388608x1, .f32⟩ : BufTy).Contents (Elt F) → (⟨S8388608x1, .f32⟩ : BufTy).Contents (Elt F) → (⟨S8388608x1, .f32⟩ : BufTy).Contents (Elt F)),
    binary main_v87 main_v88 main_v90 (mulf : (⟨S8388608x1, .f32⟩ : BufTy).Contents (Elt F) → (⟨S8388608x1, .f32⟩ : BufTy).Contents (Elt F) → (⟨S8388608x1, .f32⟩ : BufTy).Contents (Elt F)),
    binary main_v89 main_v90 main_v91 (subf : (⟨S8388608x1, .f32⟩ : BufTy).Contents (Elt F) → (⟨S8388608x1, .f32⟩ : BufTy).Contents (Elt F) → (⟨S8388608x1, .f32⟩ : BufTy).Contents (Elt F)),
    unary main_arg0 main_v92 ((extractStridedSlice S8388608x1 ![0, 3] · slices_S8388608x8_S8388608x1_0_3) : (⟨S8388608x8, .f32⟩ : BufTy).Contents (Elt F) → (⟨S8388608x1, .f32⟩ : BufTy).Contents (Elt F)),
    unary main_arg1 main_v93 ((extractStridedSlice S8388608x1 ![0, 3] · slices_S8388608x8_S8388608x1_0_3) : (⟨S8388608x8, .f32⟩ : BufTy).Contents (Elt F) → (⟨S8388608x1, .f32⟩ : BufTy).Contents (Elt F)),
    binary main_v92 main_v93 main_v94 (addf : (⟨S8388608x1, .f32⟩ : BufTy).Contents (Elt F) → (⟨S8388608x1, .f32⟩ : BufTy).Contents (Elt F) → (⟨S8388608x1, .f32⟩ : BufTy).Contents (Elt F)),
    nullary main_cst_11 (constant S_ .f32 0x40000000#32),
    unary main_cst_11 main_v95 (broadcastInDim S8388608x1 ![] bcast_S_S8388608x1 : (⟨S_, .f32⟩ : BufTy).Contents (Elt F) → (⟨S8388608x1, .f32⟩ : BufTy).Contents (Elt F)),
    binary main_v95 main_v92 main_v96 (mulf : (⟨S8388608x1, .f32⟩ : BufTy).Contents (Elt F) → (⟨S8388608x1, .f32⟩ : BufTy).Contents (Elt F) → (⟨S8388608x1, .f32⟩ : BufTy).Contents (Elt F)),
    binary main_v96 main_v93 main_v97 (mulf : (⟨S8388608x1, .f32⟩ : BufTy).Contents (Elt F) → (⟨S8388608x1, .f32⟩ : BufTy).Contents (Elt F) → (⟨S8388608x1, .f32⟩ : BufTy).Contents (Elt F)),
    binary main_v94 main_v97 main_v98 (subf : (⟨S8388608x1, .f32⟩ : BufTy).Contents (Elt F) → (⟨S8388608x1, .f32⟩ : BufTy).Contents (Elt F) → (⟨S8388608x1, .f32⟩ : BufTy).Contents (Elt F)),
    binary main_v98 main_v91 main_v99 (addf : (⟨S8388608x1, .f32⟩ : BufTy).Contents (Elt F) → (⟨S8388608x1, .f32⟩ : BufTy).Contents (Elt F) → (⟨S8388608x1, .f32⟩ : BufTy).Contents (Elt F)),
    nullary main_cst_12 (constant S_ .f32 0x40000000#32),
    unary main_cst_12 main_v100 (broadcastInDim S8388608x1 ![] bcast_S_S8388608x1 : (⟨S_, .f32⟩ : BufTy).Contents (Elt F) → (⟨S8388608x1, .f32⟩ : BufTy).Contents (Elt F)),
    binary main_v100 main_v98 main_v101 (mulf : (⟨S8388608x1, .f32⟩ : BufTy).Contents (Elt F) → (⟨S8388608x1, .f32⟩ : BufTy).Contents (Elt F) → (⟨S8388608x1, .f32⟩ : BufTy).Contents (Elt F)),
    binary main_v101 main_v91 main_v102 (mulf : (⟨S8388608x1, .f32⟩ : BufTy).Contents (Elt F) → (⟨S8388608x1, .f32⟩ : BufTy).Contents (Elt F) → (⟨S8388608x1, .f32⟩ : BufTy).Contents (Elt F)),
    binary main_v99 main_v102 main_v103 (subf : (⟨S8388608x1, .f32⟩ : BufTy).Contents (Elt F) → (⟨S8388608x1, .f32⟩ : BufTy).Contents (Elt F) → (⟨S8388608x1, .f32⟩ : BufTy).Contents (Elt F)),
    nullary main_cst_13 (constant S_ .f32 0x3F800000#32),
    unary main_cst_13 main_v104 (broadcastInDim S8388608x1 ![] bcast_S_S8388608x1 : (⟨S_, .f32⟩ : BufTy).Contents (Elt F) → (⟨S8388608x1, .f32⟩ : BufTy).Contents (Elt F)) ]

/-- The operations of the printed window main_part2, in order. -/
abbrev opsPart2 : List (HloOp τ sig (Elt F)) :=
  [
    binary main_v104 main_v92 main_v105 (subf : (⟨S8388608x1, .f32⟩ : BufTy).Contents (Elt F) → (⟨S8388608x1, .f32⟩ : BufTy).Contents (Elt F) → (⟨S8388608x1, .f32⟩ : BufTy).Contents (Elt F)),
    binary main_v105 main_v93 main_v106 (mulf : (⟨S8388608x1, .f32⟩ : BufTy).Contents (Elt F) → (⟨S8388608x1, .f32⟩ : BufTy).Contents (Elt F) → (⟨S8388608x1, .f32⟩ : BufTy).Contents (Elt F)),
    binary main_v105 main_v91 main_v107 (mulf : (⟨S8388608x1, .f32⟩ : BufTy).Contents (Elt F) → (⟨S8388608x1, .f32⟩ : BufTy).Contents (Elt F) → (⟨S8388608x1, .f32⟩ : BufTy).Contents (Elt F)),
    binary main_v106 main_v107 main_v108 (addf : (⟨S8388608x1, .f32⟩ : BufTy).Contents (Elt F) → (⟨S8388608x1, .f32⟩ : BufTy).Contents (Elt F) → (⟨S8388608x1, .f32⟩ : BufTy).Contents (Elt F)),
    binary main_v106 main_v107 main_v109 (mulf : (⟨S8388608x1, .f32⟩ : BufTy).Contents (Elt F) → (⟨S8388608x1, .f32⟩ : BufTy).Contents (Elt F) → (⟨S8388608x1, .f32⟩ : BufTy).Contents (Elt F)),
    binary main_v108 main_v109 main_v110 (subf : (⟨S8388608x1, .f32⟩ : BufTy).Contents (Elt F) → (⟨S8388608x1, .f32⟩ : BufTy).Contents (Elt F) → (⟨S8388608x1, .f32⟩ : BufTy).Contents (Elt F)),
    binary main_v93 main_v91 main_v111 (mulf : (⟨S8388608x1, .f32⟩ : BufTy).Contents (Elt F) → (⟨S8388608x1, .f32⟩ : BufTy).Contents (Elt F) → (⟨S8388608x1, .f32⟩ : BufTy).Contents (Elt F)),
    binary main_v110 main_v111 main_v112 (addf : (⟨S8388608x1, .f32⟩ : BufTy).Contents (Elt F) → (⟨S8388608x1, .f32⟩ : BufTy).Contents (Elt F) → (⟨S8388608x1, .f32⟩ : BufTy).Contents (Elt F)),
    binary main_v110 main_v111 main_v113 (mulf : (⟨S8388608x1, .f32⟩ : BufTy).Contents (Elt F) → (⟨S8388608x1, .f32⟩ : BufTy).Contents (Elt F) → (⟨S8388608x1, .f32⟩ : BufTy).Contents (Elt F)),
    binary main_v112 main_v113 main_v114 (subf : (⟨S8388608x1, .f32⟩ : BufTy).Contents (Elt F) → (⟨S8388608x1, .f32⟩ : BufTy).Contents (Elt F) → (⟨S8388608x1, .f32⟩ : BufTy).Contents (Elt F)),
    unary main_arg0 main_v115 ((extractStridedSlice S8388608x1 ![0, 2] · slices_S8388608x8_S8388608x1_0_2) : (⟨S8388608x8, .f32⟩ : BufTy).Contents (Elt F) → (⟨S8388608x1, .f32⟩ : BufTy).Contents (Elt F)),
    unary main_arg1 main_v116 ((extractStridedSlice S8388608x1 ![0, 2] · slices_S8388608x8_S8388608x1_0_2) : (⟨S8388608x8, .f32⟩ : BufTy).Contents (Elt F) → (⟨S8388608x1, .f32⟩ : BufTy).Contents (Elt F)),
    binary main_v115 main_v116 main_v117 (addf : (⟨S8388608x1, .f32⟩ : BufTy).Contents (Elt F) → (⟨S8388608x1, .f32⟩ : BufTy).Contents (Elt F) → (⟨S8388608x1, .f32⟩ : BufTy).Contents (Elt F)),
    nullary main_cst_14 (constant S_ .f32 0x40000000#32),
    unary main_cst_14 main_v118 (broadcastInDim S8388608x1 ![] bcast_S_S8388608x1 : (⟨S_, .f32⟩ : BufTy).Contents (Elt F) → (⟨S8388608x1, .f32⟩ : BufTy).Contents (Elt F)),
    binary main_v118 main_v115 main_v119 (mulf : (⟨S8388608x1, .f32⟩ : BufTy).Contents (Elt F) → (⟨S8388608x1, .f32⟩ : BufTy).Contents (Elt F) → (⟨S8388608x1, .f32⟩ : BufTy).Contents (Elt F)),
    binary main_v119 main_v116 main_v120 (mulf : (⟨S8388608x1, .f32⟩ : BufTy).Contents (Elt F) → (⟨S8388608x1, .f32⟩ : BufTy).Contents (Elt F) → (⟨S8388608x1, .f32⟩ : BufTy).Contents (Elt F)),
    binary main_v117 main_v120 main_v121 (subf : (⟨S8388608x1, .f32⟩ : BufTy).Contents (Elt F) → (⟨S8388608x1, .f32⟩ : BufTy).Contents (Elt F) → (⟨S8388608x1, .f32⟩ : BufTy).Contents (Elt F)),
    binary main_v121 main_v114 main_v122 (addf : (⟨S8388608x1, .f32⟩ : BufTy).Contents (Elt F) → (⟨S8388608x1, .f32⟩ : BufTy).Contents (Elt F) → (⟨S8388608x1, .f32⟩ : BufTy).Contents (Elt F)),
    nullary main_cst_15 (constant S_ .f32 0x40000000#32),
    unary main_cst_15 main_v123 (broadcastInDim S8388608x1 ![] bcast_S_S8388608x1 : (⟨S_, .f32⟩ : BufTy).Contents (Elt F) → (⟨S8388608x1, .f32⟩ : BufTy).Contents (Elt F)),
    binary main_v123 main_v121 main_v124 (mulf : (⟨S8388608x1, .f32⟩ : BufTy).Contents (Elt F) → (⟨S8388608x1, .f32⟩ : BufTy).Contents (Elt F) → (⟨S8388608x1, .f32⟩ : BufTy).Contents (Elt F)),
    binary main_v124 main_v114 main_v125 (mulf : (⟨S8388608x1, .f32⟩ : BufTy).Contents (Elt F) → (⟨S8388608x1, .f32⟩ : BufTy).Contents (Elt F) → (⟨S8388608x1, .f32⟩ : BufTy).Contents (Elt F)),
    binary main_v122 main_v125 main_v126 (subf : (⟨S8388608x1, .f32⟩ : BufTy).Contents (Elt F) → (⟨S8388608x1, .f32⟩ : BufTy).Contents (Elt F) → (⟨S8388608x1, .f32⟩ : BufTy).Contents (Elt F)),
    nullary main_cst_16 (constant S_ .f32 0x3F800000#32),
    unary main_cst_16 main_v127 (broadcastInDim S8388608x1 ![] bcast_S_S8388608x1 : (⟨S_, .f32⟩ : BufTy).Contents (Elt F) → (⟨S8388608x1, .f32⟩ : BufTy).Contents (Elt F)),
    binary main_v127 main_v115 main_v128 (subf : (⟨S8388608x1, .f32⟩ : BufTy).Contents (Elt F) → (⟨S8388608x1, .f32⟩ : BufTy).Contents (Elt F) → (⟨S8388608x1, .f32⟩ : BufTy).Contents (Elt F)),
    binary main_v128 main_v116 main_v129 (mulf : (⟨S8388608x1, .f32⟩ : BufTy).Contents (Elt F) → (⟨S8388608x1, .f32⟩ : BufTy).Contents (Elt F) → (⟨S8388608x1, .f32⟩ : BufTy).Contents (Elt F)),
    binary main_v128 main_v114 main_v130 (mulf : (⟨S8388608x1, .f32⟩ : BufTy).Contents (Elt F) → (⟨S8388608x1, .f32⟩ : BufTy).Contents (Elt F) → (⟨S8388608x1, .f32⟩ : BufTy).Contents (Elt F)),
    binary main_v129 main_v130 main_v131 (addf : (⟨S8388608x1, .f32⟩ : BufTy).Contents (Elt F) → (⟨S8388608x1, .f32⟩ : BufTy).Contents (Elt F) → (⟨S8388608x1, .f32⟩ : BufTy).Contents (Elt F)),
    binary main_v129 main_v130 main_v132 (mulf : (⟨S8388608x1, .f32⟩ : BufTy).Contents (Elt F) → (⟨S8388608x1, .f32⟩ : BufTy).Contents (Elt F) → (⟨S8388608x1, .f32⟩ : BufTy).Contents (Elt F)),
    binary main_v131 main_v132 main_v133 (subf : (⟨S8388608x1, .f32⟩ : BufTy).Contents (Elt F) → (⟨S8388608x1, .f32⟩ : BufTy).Contents (Elt F) → (⟨S8388608x1, .f32⟩ : BufTy).Contents (Elt F)),
    binary main_v116 main_v114 main_v134 (mulf : (⟨S8388608x1, .f32⟩ : BufTy).Contents (Elt F) → (⟨S8388608x1, .f32⟩ : BufTy).Contents (Elt F) → (⟨S8388608x1, .f32⟩ : BufTy).Contents (Elt F)),
    binary main_v133 main_v134 main_v135 (addf : (⟨S8388608x1, .f32⟩ : BufTy).Contents (Elt F) → (⟨S8388608x1, .f32⟩ : BufTy).Contents (Elt F) → (⟨S8388608x1, .f32⟩ : BufTy).Contents (Elt F)),
    binary main_v133 main_v134 main_v136 (mulf : (⟨S8388608x1, .f32⟩ : BufTy).Contents (Elt F) → (⟨S8388608x1, .f32⟩ : BufTy).Contents (Elt F) → (⟨S8388608x1, .f32⟩ : BufTy).Contents (Elt F)),
    binary main_v135 main_v136 main_v137 (subf : (⟨S8388608x1, .f32⟩ : BufTy).Contents (Elt F) → (⟨S8388608x1, .f32⟩ : BufTy).Contents (Elt F) → (⟨S8388608x1, .f32⟩ : BufTy).Contents (Elt F)),
    unary main_arg0 main_v138 ((extractStridedSlice S8388608x1 ![0, 1] · slices_S8388608x8_S8388608x1_0_1) : (⟨S8388608x8, .f32⟩ : BufTy).Contents (Elt F) → (⟨S8388608x1, .f32⟩ : BufTy).Contents (Elt F)),
    unary main_arg1 main_v139 ((extractStridedSlice S8388608x1 ![0, 1] · slices_S8388608x8_S8388608x1_0_1) : (⟨S8388608x8, .f32⟩ : BufTy).Contents (Elt F) → (⟨S8388608x1, .f32⟩ : BufTy).Contents (Elt F)),
    binary main_v138 main_v139 main_v140 (addf : (⟨S8388608x1, .f32⟩ : BufTy).Contents (Elt F) → (⟨S8388608x1, .f32⟩ : BufTy).Contents (Elt F) → (⟨S8388608x1, .f32⟩ : BufTy).Contents (Elt F)),
    nullary main_cst_17 (constant S_ .f32 0x40000000#32),
    unary main_cst_17 main_v141 (broadcastInDim S8388608x1 ![] bcast_S_S8388608x1 : (⟨S_, .f32⟩ : BufTy).Contents (Elt F) → (⟨S8388608x1, .f32⟩ : BufTy).Contents (Elt F)),
    binary main_v141 main_v138 main_v142 (mulf : (⟨S8388608x1, .f32⟩ : BufTy).Contents (Elt F) → (⟨S8388608x1, .f32⟩ : BufTy).Contents (Elt F) → (⟨S8388608x1, .f32⟩ : BufTy).Contents (Elt F)),
    binary main_v142 main_v139 main_v143 (mulf : (⟨S8388608x1, .f32⟩ : BufTy).Contents (Elt F) → (⟨S8388608x1, .f32⟩ : BufTy).Contents (Elt F) → (⟨S8388608x1, .f32⟩ : BufTy).Contents (Elt F)),
    binary main_v140 main_v143 main_v144 (subf : (⟨S8388608x1, .f32⟩ : BufTy).Contents (Elt F) → (⟨S8388608x1, .f32⟩ : BufTy).Contents (Elt F) → (⟨S8388608x1, .f32⟩ : BufTy).Contents (Elt F)),
    binary main_v144 main_v137 main_v145 (addf : (⟨S8388608x1, .f32⟩ : BufTy).Contents (Elt F) → (⟨S8388608x1, .f32⟩ : BufTy).Contents (Elt F) → (⟨S8388608x1, .f32⟩ : BufTy).Contents (Elt F)),
    nullary main_cst_18 (constant S_ .f32 0x40000000#32),
    unary main_cst_18 main_v146 (broadcastInDim S8388608x1 ![] bcast_S_S8388608x1 : (⟨S_, .f32⟩ : BufTy).Contents (Elt F) → (⟨S8388608x1, .f32⟩ : BufTy).Contents (Elt F)),
    binary main_v146 main_v144 main_v147 (mulf : (⟨S8388608x1, .f32⟩ : BufTy).Contents (Elt F) → (⟨S8388608x1, .f32⟩ : BufTy).Contents (Elt F) → (⟨S8388608x1, .f32⟩ : BufTy).Contents (Elt F)),
    binary main_v147 main_v137 main_v148 (mulf : (⟨S8388608x1, .f32⟩ : BufTy).Contents (Elt F) → (⟨S8388608x1, .f32⟩ : BufTy).Contents (Elt F) → (⟨S8388608x1, .f32⟩ : BufTy).Contents (Elt F)),
    binary main_v145 main_v148 main_v149 (subf : (⟨S8388608x1, .f32⟩ : BufTy).Contents (Elt F) → (⟨S8388608x1, .f32⟩ : BufTy).Contents (Elt F) → (⟨S8388608x1, .f32⟩ : BufTy).Contents (Elt F)),
    nullary main_cst_19 (constant S_ .f32 0x3F800000#32),
    unary main_cst_19 main_v150 (broadcastInDim S8388608x1 ![] bcast_S_S8388608x1 : (⟨S_, .f32⟩ : BufTy).Contents (Elt F) → (⟨S8388608x1, .f32⟩ : BufTy).Contents (Elt F)),
    binary main_v150 main_v138 main_v151 (subf : (⟨S8388608x1, .f32⟩ : BufTy).Contents (Elt F) → (⟨S8388608x1, .f32⟩ : BufTy).Contents (Elt F) → (⟨S8388608x1, .f32⟩ : BufTy).Contents (Elt F)),
    binary main_v151 main_v139 main_v152 (mulf : (⟨S8388608x1, .f32⟩ : BufTy).Contents (Elt F) → (⟨S8388608x1, .f32⟩ : BufTy).Contents (Elt F) → (⟨S8388608x1, .f32⟩ : BufTy).Contents (Elt F)),
    binary main_v151 main_v137 main_v153 (mulf : (⟨S8388608x1, .f32⟩ : BufTy).Contents (Elt F) → (⟨S8388608x1, .f32⟩ : BufTy).Contents (Elt F) → (⟨S8388608x1, .f32⟩ : BufTy).Contents (Elt F)),
    binary main_v152 main_v153 main_v154 (addf : (⟨S8388608x1, .f32⟩ : BufTy).Contents (Elt F) → (⟨S8388608x1, .f32⟩ : BufTy).Contents (Elt F) → (⟨S8388608x1, .f32⟩ : BufTy).Contents (Elt F)),
    binary main_v152 main_v153 main_v155 (mulf : (⟨S8388608x1, .f32⟩ : BufTy).Contents (Elt F) → (⟨S8388608x1, .f32⟩ : BufTy).Contents (Elt F) → (⟨S8388608x1, .f32⟩ : BufTy).Contents (Elt F)),
    binary main_v154 main_v155 main_v156 (subf : (⟨S8388608x1, .f32⟩ : BufTy).Contents (Elt F) → (⟨S8388608x1, .f32⟩ : BufTy).Contents (Elt F) → (⟨S8388608x1, .f32⟩ : BufTy).Contents (Elt F)),
    binary main_v139 main_v137 main_v157 (mulf : (⟨S8388608x1, .f32⟩ : BufTy).Contents (Elt F) → (⟨S8388608x1, .f32⟩ : BufTy).Contents (Elt F) → (⟨S8388608x1, .f32⟩ : BufTy).Contents (Elt F)),
    binary main_v156 main_v157 main_v158 (addf : (⟨S8388608x1, .f32⟩ : BufTy).Contents (Elt F) → (⟨S8388608x1, .f32⟩ : BufTy).Contents (Elt F) → (⟨S8388608x1, .f32⟩ : BufTy).Contents (Elt F)) ]

/-- The operations of the printed window main_part3, in order. -/
abbrev opsPart3 : List (HloOp τ sig (Elt F)) :=
  [
    binary main_v156 main_v157 main_v159 (mulf : (⟨S8388608x1, .f32⟩ : BufTy).Contents (Elt F) → (⟨S8388608x1, .f32⟩ : BufTy).Contents (Elt F) → (⟨S8388608x1, .f32⟩ : BufTy).Contents (Elt F)),
    binary main_v158 main_v159 main_v160 (subf : (⟨S8388608x1, .f32⟩ : BufTy).Contents (Elt F) → (⟨S8388608x1, .f32⟩ : BufTy).Contents (Elt F) → (⟨S8388608x1, .f32⟩ : BufTy).Contents (Elt F)),
    unary main_arg0 main_v161 ((extractStridedSlice S8388608x1 ![0, 0] · slices_S8388608x8_S8388608x1_0_0) : (⟨S8388608x8, .f32⟩ : BufTy).Contents (Elt F) → (⟨S8388608x1, .f32⟩ : BufTy).Contents (Elt F)),
    unary main_arg1 main_v162 ((extractStridedSlice S8388608x1 ![0, 0] · slices_S8388608x8_S8388608x1_0_0) : (⟨S8388608x8, .f32⟩ : BufTy).Contents (Elt F) → (⟨S8388608x1, .f32⟩ : BufTy).Contents (Elt F)),
    binary main_v161 main_v162 main_v163 (addf : (⟨S8388608x1, .f32⟩ : BufTy).Contents (Elt F) → (⟨S8388608x1, .f32⟩ : BufTy).Contents (Elt F) → (⟨S8388608x1, .f32⟩ : BufTy).Contents (Elt F)),
    nullary main_cst_20 (constant S_ .f32 0x40000000#32),
    unary main_cst_20 main_v164 (broadcastInDim S8388608x1 ![] bcast_S_S8388608x1 : (⟨S_, .f32⟩ : BufTy).Contents (Elt F) → (⟨S8388608x1, .f32⟩ : BufTy).Contents (Elt F)),
    binary main_v164 main_v161 main_v165 (mulf : (⟨S8388608x1, .f32⟩ : BufTy).Contents (Elt F) → (⟨S8388608x1, .f32⟩ : BufTy).Contents (Elt F) → (⟨S8388608x1, .f32⟩ : BufTy).Contents (Elt F)),
    binary main_v165 main_v162 main_v166 (mulf : (⟨S8388608x1, .f32⟩ : BufTy).Contents (Elt F) → (⟨S8388608x1, .f32⟩ : BufTy).Contents (Elt F) → (⟨S8388608x1, .f32⟩ : BufTy).Contents (Elt F)),
    binary main_v163 main_v166 main_v167 (subf : (⟨S8388608x1, .f32⟩ : BufTy).Contents (Elt F) → (⟨S8388608x1, .f32⟩ : BufTy).Contents (Elt F) → (⟨S8388608x1, .f32⟩ : BufTy).Contents (Elt F)),
    binary main_v167 main_v160 main_v168 (addf : (⟨S8388608x1, .f32⟩ : BufTy).Contents (Elt F) → (⟨S8388608x1, .f32⟩ : BufTy).Contents (Elt F) → (⟨S8388608x1, .f32⟩ : BufTy).Contents (Elt F)),
    nullary main_cst_21 (constant S_ .f32 0x40000000#32),
    unary main_cst_21 main_v169 (broadcastInDim S8388608x1 ![] bcast_S_S8388608x1 : (⟨S_, .f32⟩ : BufTy).Contents (Elt F) → (⟨S8388608x1, .f32⟩ : BufTy).Contents (Elt F)),
    binary main_v169 main_v167 main_v170 (mulf : (⟨S8388608x1, .f32⟩ : BufTy).Contents (Elt F) → (⟨S8388608x1, .f32⟩ : BufTy).Contents (Elt F) → (⟨S8388608x1, .f32⟩ : BufTy).Contents (Elt F)),
    binary main_v170 main_v160 main_v171 (mulf : (⟨S8388608x1, .f32⟩ : BufTy).Contents (Elt F) → (⟨S8388608x1, .f32⟩ : BufTy).Contents (Elt F) → (⟨S8388608x1, .f32⟩ : BufTy).Contents (Elt F)),
    binary main_v168 main_v171 main_v172 (subf : (⟨S8388608x1, .f32⟩ : BufTy).Contents (Elt F) → (⟨S8388608x1, .f32⟩ : BufTy).Contents (Elt F) → (⟨S8388608x1, .f32⟩ : BufTy).Contents (Elt F)),
    nullary main_cst_22 (constant S_ .f32 0x3F800000#32),
    unary main_cst_22 main_v173 (broadcastInDim S8388608x1 ![] bcast_S_S8388608x1 : (⟨S_, .f32⟩ : BufTy).Contents (Elt F) → (⟨S8388608x1, .f32⟩ : BufTy).Contents (Elt F)),
    binary main_v173 main_v161 main_v174 (subf : (⟨S8388608x1, .f32⟩ : BufTy).Contents (Elt F) → (⟨S8388608x1, .f32⟩ : BufTy).Contents (Elt F) → (⟨S8388608x1, .f32⟩ : BufTy).Contents (Elt F)),
    binary main_v174 main_v162 main_v175 (mulf : (⟨S8388608x1, .f32⟩ : BufTy).Contents (Elt F) → (⟨S8388608x1, .f32⟩ : BufTy).Contents (Elt F) → (⟨S8388608x1, .f32⟩ : BufTy).Contents (Elt F)),
    binary main_v174 main_v160 main_v176 (mulf : (⟨S8388608x1, .f32⟩ : BufTy).Contents (Elt F) → (⟨S8388608x1, .f32⟩ : BufTy).Contents (Elt F) → (⟨S8388608x1, .f32⟩ : BufTy).Contents (Elt F)),
    binary main_v175 main_v176 main_v177 (addf : (⟨S8388608x1, .f32⟩ : BufTy).Contents (Elt F) → (⟨S8388608x1, .f32⟩ : BufTy).Contents (Elt F) → (⟨S8388608x1, .f32⟩ : BufTy).Contents (Elt F)),
    binary main_v175 main_v176 main_v178 (mulf : (⟨S8388608x1, .f32⟩ : BufTy).Contents (Elt F) → (⟨S8388608x1, .f32⟩ : BufTy).Contents (Elt F) → (⟨S8388608x1, .f32⟩ : BufTy).Contents (Elt F)),
    binary main_v177 main_v178 main_v179 (subf : (⟨S8388608x1, .f32⟩ : BufTy).Contents (Elt F) → (⟨S8388608x1, .f32⟩ : BufTy).Contents (Elt F) → (⟨S8388608x1, .f32⟩ : BufTy).Contents (Elt F)),
    binary main_v162 main_v160 main_v180 (mulf : (⟨S8388608x1, .f32⟩ : BufTy).Contents (Elt F) → (⟨S8388608x1, .f32⟩ : BufTy).Contents (Elt F) → (⟨S8388608x1, .f32⟩ : BufTy).Contents (Elt F)),
    binary main_v179 main_v180 main_v181 (addf : (⟨S8388608x1, .f32⟩ : BufTy).Contents (Elt F) → (⟨S8388608x1, .f32⟩ : BufTy).Contents (Elt F) → (⟨S8388608x1, .f32⟩ : BufTy).Contents (Elt F)),
    binary main_v179 main_v180 main_v182 (mulf : (⟨S8388608x1, .f32⟩ : BufTy).Contents (Elt F) → (⟨S8388608x1, .f32⟩ : BufTy).Contents (Elt F) → (⟨S8388608x1, .f32⟩ : BufTy).Contents (Elt F)),
    binary main_v181 main_v182 main_v183 (subf : (⟨S8388608x1, .f32⟩ : BufTy).Contents (Elt F) → (⟨S8388608x1, .f32⟩ : BufTy).Contents (Elt F) → (⟨S8388608x1, .f32⟩ : BufTy).Contents (Elt F)),
    nary ![main_v172, main_v149, main_v126, main_v103, main_v80, main_v57, main_v34, main_v11] main_v184 (fun u => concatenate S8388608x8 1 [⟨S8388608x1, u 0⟩, ⟨S8388608x1, u 1⟩, ⟨S8388608x1, u 2⟩, ⟨S8388608x1, u 3⟩, ⟨S8388608x1, u 4⟩, ⟨S8388608x1, u 5⟩, ⟨S8388608x1, u 6⟩, ⟨S8388608x1, u 7⟩] concatenates_S8388608x1_S8388608x1_S8388608x1_S8388608x1_S8388608x1_S8388608x1_S8388608x1_S8388608x1_S8388608x8_d1) ]

/-- The 26 operations of the stage of column 7. -/
abbrev opsSt7 : List (HloOp τ sig (Elt F)) :=
  [
    unary main_arg0 main_v0 ((extractStridedSlice S8388608x1 ![0, 7] · slices_S8388608x8_S8388608x1_0_7) : (⟨S8388608x8, .f32⟩ : BufTy).Contents (Elt F) → (⟨S8388608x1, .f32⟩ : BufTy).Contents (Elt F)),
    unary main_arg1 main_v1 ((extractStridedSlice S8388608x1 ![0, 7] · slices_S8388608x8_S8388608x1_0_7) : (⟨S8388608x8, .f32⟩ : BufTy).Contents (Elt F) → (⟨S8388608x1, .f32⟩ : BufTy).Contents (Elt F)),
    binary main_v0 main_v1 main_v2 (addf : (⟨S8388608x1, .f32⟩ : BufTy).Contents (Elt F) → (⟨S8388608x1, .f32⟩ : BufTy).Contents (Elt F) → (⟨S8388608x1, .f32⟩ : BufTy).Contents (Elt F)),
    nullary main_cst (constant S_ .f32 0x40000000#32),
    unary main_cst main_v3 (broadcastInDim S8388608x1 ![] bcast_S_S8388608x1 : (⟨S_, .f32⟩ : BufTy).Contents (Elt F) → (⟨S8388608x1, .f32⟩ : BufTy).Contents (Elt F)),
    binary main_v3 main_v0 main_v4 (mulf : (⟨S8388608x1, .f32⟩ : BufTy).Contents (Elt F) → (⟨S8388608x1, .f32⟩ : BufTy).Contents (Elt F) → (⟨S8388608x1, .f32⟩ : BufTy).Contents (Elt F)),
    binary main_v4 main_v1 main_v5 (mulf : (⟨S8388608x1, .f32⟩ : BufTy).Contents (Elt F) → (⟨S8388608x1, .f32⟩ : BufTy).Contents (Elt F) → (⟨S8388608x1, .f32⟩ : BufTy).Contents (Elt F)),
    binary main_v2 main_v5 main_v6 (subf : (⟨S8388608x1, .f32⟩ : BufTy).Contents (Elt F) → (⟨S8388608x1, .f32⟩ : BufTy).Contents (Elt F) → (⟨S8388608x1, .f32⟩ : BufTy).Contents (Elt F)),
    binary main_v6 main_arg2 main_v7 (addf : (⟨S8388608x1, .f32⟩ : BufTy).Contents (Elt F) → (⟨S8388608x1, .f32⟩ : BufTy).Contents (Elt F) → (⟨S8388608x1, .f32⟩ : BufTy).Contents (Elt F)),
    nullary main_cst_0 (constant S_ .f32 0x40000000#32),
    unary main_cst_0 main_v8 (broadcastInDim S8388608x1 ![] bcast_S_S8388608x1 : (⟨S_, .f32⟩ : BufTy).Contents (Elt F) → (⟨S8388608x1, .f32⟩ : BufTy).Contents (Elt F)),
    binary main_v8 main_v6 main_v9 (mulf : (⟨S8388608x1, .f32⟩ : BufTy).Contents (Elt F) → (⟨S8388608x1, .f32⟩ : BufTy).Contents (Elt F) → (⟨S8388608x1, .f32⟩ : BufTy).Contents (Elt F)),
    binary main_v9 main_arg2 main_v10 (mulf : (⟨S8388608x1, .f32⟩ : BufTy).Contents (Elt F) → (⟨S8388608x1, .f32⟩ : BufTy).Contents (Elt F) → (⟨S8388608x1, .f32⟩ : BufTy).Contents (Elt F)),
    binary main_v7 main_v10 main_v11 (subf : (⟨S8388608x1, .f32⟩ : BufTy).Contents (Elt F) → (⟨S8388608x1, .f32⟩ : BufTy).Contents (Elt F) → (⟨S8388608x1, .f32⟩ : BufTy).Contents (Elt F)),
    nullary main_cst_1 (constant S_ .f32 0x3F800000#32),
    unary main_cst_1 main_v12 (broadcastInDim S8388608x1 ![] bcast_S_S8388608x1 : (⟨S_, .f32⟩ : BufTy).Contents (Elt F) → (⟨S8388608x1, .f32⟩ : BufTy).Contents (Elt F)),
    binary main_v12 main_v0 main_v13 (subf : (⟨S8388608x1, .f32⟩ : BufTy).Contents (Elt F) → (⟨S8388608x1, .f32⟩ : BufTy).Contents (Elt F) → (⟨S8388608x1, .f32⟩ : BufTy).Contents (Elt F)),
    binary main_v13 main_v1 main_v14 (mulf : (⟨S8388608x1, .f32⟩ : BufTy).Contents (Elt F) → (⟨S8388608x1, .f32⟩ : BufTy).Contents (Elt F) → (⟨S8388608x1, .f32⟩ : BufTy).Contents (Elt F)),
    binary main_v13 main_arg2 main_v15 (mulf : (⟨S8388608x1, .f32⟩ : BufTy).Contents (Elt F) → (⟨S8388608x1, .f32⟩ : BufTy).Contents (Elt F) → (⟨S8388608x1, .f32⟩ : BufTy).Contents (Elt F)),
    binary main_v14 main_v15 main_v16 (addf : (⟨S8388608x1, .f32⟩ : BufTy).Contents (Elt F) → (⟨S8388608x1, .f32⟩ : BufTy).Contents (Elt F) → (⟨S8388608x1, .f32⟩ : BufTy).Contents (Elt F)),
    binary main_v14 main_v15 main_v17 (mulf : (⟨S8388608x1, .f32⟩ : BufTy).Contents (Elt F) → (⟨S8388608x1, .f32⟩ : BufTy).Contents (Elt F) → (⟨S8388608x1, .f32⟩ : BufTy).Contents (Elt F)),
    binary main_v16 main_v17 main_v18 (subf : (⟨S8388608x1, .f32⟩ : BufTy).Contents (Elt F) → (⟨S8388608x1, .f32⟩ : BufTy).Contents (Elt F) → (⟨S8388608x1, .f32⟩ : BufTy).Contents (Elt F)),
    binary main_v1 main_arg2 main_v19 (mulf : (⟨S8388608x1, .f32⟩ : BufTy).Contents (Elt F) → (⟨S8388608x1, .f32⟩ : BufTy).Contents (Elt F) → (⟨S8388608x1, .f32⟩ : BufTy).Contents (Elt F)),
    binary main_v18 main_v19 main_v20 (addf : (⟨S8388608x1, .f32⟩ : BufTy).Contents (Elt F) → (⟨S8388608x1, .f32⟩ : BufTy).Contents (Elt F) → (⟨S8388608x1, .f32⟩ : BufTy).Contents (Elt F)),
    binary main_v18 main_v19 main_v21 (mulf : (⟨S8388608x1, .f32⟩ : BufTy).Contents (Elt F) → (⟨S8388608x1, .f32⟩ : BufTy).Contents (Elt F) → (⟨S8388608x1, .f32⟩ : BufTy).Contents (Elt F)),
    binary main_v20 main_v21 main_v22 (subf : (⟨S8388608x1, .f32⟩ : BufTy).Contents (Elt F) → (⟨S8388608x1, .f32⟩ : BufTy).Contents (Elt F) → (⟨S8388608x1, .f32⟩ : BufTy).Contents (Elt F)) ]

/-- The 26 operations of the stage of column 6. -/
abbrev opsSt6 : List (HloOp τ sig (Elt F)) :=
  [
    unary main_arg0 main_v23 ((extractStridedSlice S8388608x1 ![0, 6] · slices_S8388608x8_S8388608x1_0_6) : (⟨S8388608x8, .f32⟩ : BufTy).Contents (Elt F) → (⟨S8388608x1, .f32⟩ : BufTy).Contents (Elt F)),
    unary main_arg1 main_v24 ((extractStridedSlice S8388608x1 ![0, 6] · slices_S8388608x8_S8388608x1_0_6) : (⟨S8388608x8, .f32⟩ : BufTy).Contents (Elt F) → (⟨S8388608x1, .f32⟩ : BufTy).Contents (Elt F)),
    binary main_v23 main_v24 main_v25 (addf : (⟨S8388608x1, .f32⟩ : BufTy).Contents (Elt F) → (⟨S8388608x1, .f32⟩ : BufTy).Contents (Elt F) → (⟨S8388608x1, .f32⟩ : BufTy).Contents (Elt F)),
    nullary main_cst_2 (constant S_ .f32 0x40000000#32),
    unary main_cst_2 main_v26 (broadcastInDim S8388608x1 ![] bcast_S_S8388608x1 : (⟨S_, .f32⟩ : BufTy).Contents (Elt F) → (⟨S8388608x1, .f32⟩ : BufTy).Contents (Elt F)),
    binary main_v26 main_v23 main_v27 (mulf : (⟨S8388608x1, .f32⟩ : BufTy).Contents (Elt F) → (⟨S8388608x1, .f32⟩ : BufTy).Contents (Elt F) → (⟨S8388608x1, .f32⟩ : BufTy).Contents (Elt F)),
    binary main_v27 main_v24 main_v28 (mulf : (⟨S8388608x1, .f32⟩ : BufTy).Contents (Elt F) → (⟨S8388608x1, .f32⟩ : BufTy).Contents (Elt F) → (⟨S8388608x1, .f32⟩ : BufTy).Contents (Elt F)),
    binary main_v25 main_v28 main_v29 (subf : (⟨S8388608x1, .f32⟩ : BufTy).Contents (Elt F) → (⟨S8388608x1, .f32⟩ : BufTy).Contents (Elt F) → (⟨S8388608x1, .f32⟩ : BufTy).Contents (Elt F)),
    binary main_v29 main_v22 main_v30 (addf : (⟨S8388608x1, .f32⟩ : BufTy).Contents (Elt F) → (⟨S8388608x1, .f32⟩ : BufTy).Contents (Elt F) → (⟨S8388608x1, .f32⟩ : BufTy).Contents (Elt F)),
    nullary main_cst_3 (constant S_ .f32 0x40000000#32),
    unary main_cst_3 main_v31 (broadcastInDim S8388608x1 ![] bcast_S_S8388608x1 : (⟨S_, .f32⟩ : BufTy).Contents (Elt F) → (⟨S8388608x1, .f32⟩ : BufTy).Contents (Elt F)),
    binary main_v31 main_v29 main_v32 (mulf : (⟨S8388608x1, .f32⟩ : BufTy).Contents (Elt F) → (⟨S8388608x1, .f32⟩ : BufTy).Contents (Elt F) → (⟨S8388608x1, .f32⟩ : BufTy).Contents (Elt F)),
    binary main_v32 main_v22 main_v33 (mulf : (⟨S8388608x1, .f32⟩ : BufTy).Contents (Elt F) → (⟨S8388608x1, .f32⟩ : BufTy).Contents (Elt F) → (⟨S8388608x1, .f32⟩ : BufTy).Contents (Elt F)),
    binary main_v30 main_v33 main_v34 (subf : (⟨S8388608x1, .f32⟩ : BufTy).Contents (Elt F) → (⟨S8388608x1, .f32⟩ : BufTy).Contents (Elt F) → (⟨S8388608x1, .f32⟩ : BufTy).Contents (Elt F)),
    nullary main_cst_4 (constant S_ .f32 0x3F800000#32),
    unary main_cst_4 main_v35 (broadcastInDim S8388608x1 ![] bcast_S_S8388608x1 : (⟨S_, .f32⟩ : BufTy).Contents (Elt F) → (⟨S8388608x1, .f32⟩ : BufTy).Contents (Elt F)),
    binary main_v35 main_v23 main_v36 (subf : (⟨S8388608x1, .f32⟩ : BufTy).Contents (Elt F) → (⟨S8388608x1, .f32⟩ : BufTy).Contents (Elt F) → (⟨S8388608x1, .f32⟩ : BufTy).Contents (Elt F)),
    binary main_v36 main_v24 main_v37 (mulf : (⟨S8388608x1, .f32⟩ : BufTy).Contents (Elt F) → (⟨S8388608x1, .f32⟩ : BufTy).Contents (Elt F) → (⟨S8388608x1, .f32⟩ : BufTy).Contents (Elt F)),
    binary main_v36 main_v22 main_v38 (mulf : (⟨S8388608x1, .f32⟩ : BufTy).Contents (Elt F) → (⟨S8388608x1, .f32⟩ : BufTy).Contents (Elt F) → (⟨S8388608x1, .f32⟩ : BufTy).Contents (Elt F)),
    binary main_v37 main_v38 main_v39 (addf : (⟨S8388608x1, .f32⟩ : BufTy).Contents (Elt F) → (⟨S8388608x1, .f32⟩ : BufTy).Contents (Elt F) → (⟨S8388608x1, .f32⟩ : BufTy).Contents (Elt F)),
    binary main_v37 main_v38 main_v40 (mulf : (⟨S8388608x1, .f32⟩ : BufTy).Contents (Elt F) → (⟨S8388608x1, .f32⟩ : BufTy).Contents (Elt F) → (⟨S8388608x1, .f32⟩ : BufTy).Contents (Elt F)),
    binary main_v39 main_v40 main_v41 (subf : (⟨S8388608x1, .f32⟩ : BufTy).Contents (Elt F) → (⟨S8388608x1, .f32⟩ : BufTy).Contents (Elt F) → (⟨S8388608x1, .f32⟩ : BufTy).Contents (Elt F)),
    binary main_v24 main_v22 main_v42 (mulf : (⟨S8388608x1, .f32⟩ : BufTy).Contents (Elt F) → (⟨S8388608x1, .f32⟩ : BufTy).Contents (Elt F) → (⟨S8388608x1, .f32⟩ : BufTy).Contents (Elt F)),
    binary main_v41 main_v42 main_v43 (addf : (⟨S8388608x1, .f32⟩ : BufTy).Contents (Elt F) → (⟨S8388608x1, .f32⟩ : BufTy).Contents (Elt F) → (⟨S8388608x1, .f32⟩ : BufTy).Contents (Elt F)),
    binary main_v41 main_v42 main_v44 (mulf : (⟨S8388608x1, .f32⟩ : BufTy).Contents (Elt F) → (⟨S8388608x1, .f32⟩ : BufTy).Contents (Elt F) → (⟨S8388608x1, .f32⟩ : BufTy).Contents (Elt F)),
    binary main_v43 main_v44 main_v45 (subf : (⟨S8388608x1, .f32⟩ : BufTy).Contents (Elt F) → (⟨S8388608x1, .f32⟩ : BufTy).Contents (Elt F) → (⟨S8388608x1, .f32⟩ : BufTy).Contents (Elt F)) ]

/-- The 26 operations of the stage of column 5. -/
abbrev opsSt5 : List (HloOp τ sig (Elt F)) :=
  [
    unary main_arg0 main_v46 ((extractStridedSlice S8388608x1 ![0, 5] · slices_S8388608x8_S8388608x1_0_5) : (⟨S8388608x8, .f32⟩ : BufTy).Contents (Elt F) → (⟨S8388608x1, .f32⟩ : BufTy).Contents (Elt F)),
    unary main_arg1 main_v47 ((extractStridedSlice S8388608x1 ![0, 5] · slices_S8388608x8_S8388608x1_0_5) : (⟨S8388608x8, .f32⟩ : BufTy).Contents (Elt F) → (⟨S8388608x1, .f32⟩ : BufTy).Contents (Elt F)),
    binary main_v46 main_v47 main_v48 (addf : (⟨S8388608x1, .f32⟩ : BufTy).Contents (Elt F) → (⟨S8388608x1, .f32⟩ : BufTy).Contents (Elt F) → (⟨S8388608x1, .f32⟩ : BufTy).Contents (Elt F)),
    nullary main_cst_5 (constant S_ .f32 0x40000000#32),
    unary main_cst_5 main_v49 (broadcastInDim S8388608x1 ![] bcast_S_S8388608x1 : (⟨S_, .f32⟩ : BufTy).Contents (Elt F) → (⟨S8388608x1, .f32⟩ : BufTy).Contents (Elt F)),
    binary main_v49 main_v46 main_v50 (mulf : (⟨S8388608x1, .f32⟩ : BufTy).Contents (Elt F) → (⟨S8388608x1, .f32⟩ : BufTy).Contents (Elt F) → (⟨S8388608x1, .f32⟩ : BufTy).Contents (Elt F)),
    binary main_v50 main_v47 main_v51 (mulf : (⟨S8388608x1, .f32⟩ : BufTy).Contents (Elt F) → (⟨S8388608x1, .f32⟩ : BufTy).Contents (Elt F) → (⟨S8388608x1, .f32⟩ : BufTy).Contents (Elt F)),
    binary main_v48 main_v51 main_v52 (subf : (⟨S8388608x1, .f32⟩ : BufTy).Contents (Elt F) → (⟨S8388608x1, .f32⟩ : BufTy).Contents (Elt F) → (⟨S8388608x1, .f32⟩ : BufTy).Contents (Elt F)),
    binary main_v52 main_v45 main_v53 (addf : (⟨S8388608x1, .f32⟩ : BufTy).Contents (Elt F) → (⟨S8388608x1, .f32⟩ : BufTy).Contents (Elt F) → (⟨S8388608x1, .f32⟩ : BufTy).Contents (Elt F)),
    nullary main_cst_6 (constant S_ .f32 0x40000000#32),
    unary main_cst_6 main_v54 (broadcastInDim S8388608x1 ![] bcast_S_S8388608x1 : (⟨S_, .f32⟩ : BufTy).Contents (Elt F) → (⟨S8388608x1, .f32⟩ : BufTy).Contents (Elt F)),
    binary main_v54 main_v52 main_v55 (mulf : (⟨S8388608x1, .f32⟩ : BufTy).Contents (Elt F) → (⟨S8388608x1, .f32⟩ : BufTy).Contents (Elt F) → (⟨S8388608x1, .f32⟩ : BufTy).Contents (Elt F)),
    binary main_v55 main_v45 main_v56 (mulf : (⟨S8388608x1, .f32⟩ : BufTy).Contents (Elt F) → (⟨S8388608x1, .f32⟩ : BufTy).Contents (Elt F) → (⟨S8388608x1, .f32⟩ : BufTy).Contents (Elt F)),
    binary main_v53 main_v56 main_v57 (subf : (⟨S8388608x1, .f32⟩ : BufTy).Contents (Elt F) → (⟨S8388608x1, .f32⟩ : BufTy).Contents (Elt F) → (⟨S8388608x1, .f32⟩ : BufTy).Contents (Elt F)),
    nullary main_cst_7 (constant S_ .f32 0x3F800000#32),
    unary main_cst_7 main_v58 (broadcastInDim S8388608x1 ![] bcast_S_S8388608x1 : (⟨S_, .f32⟩ : BufTy).Contents (Elt F) → (⟨S8388608x1, .f32⟩ : BufTy).Contents (Elt F)),
    binary main_v58 main_v46 main_v59 (subf : (⟨S8388608x1, .f32⟩ : BufTy).Contents (Elt F) → (⟨S8388608x1, .f32⟩ : BufTy).Contents (Elt F) → (⟨S8388608x1, .f32⟩ : BufTy).Contents (Elt F)),
    binary main_v59 main_v47 main_v60 (mulf : (⟨S8388608x1, .f32⟩ : BufTy).Contents (Elt F) → (⟨S8388608x1, .f32⟩ : BufTy).Contents (Elt F) → (⟨S8388608x1, .f32⟩ : BufTy).Contents (Elt F)),
    binary main_v59 main_v45 main_v61 (mulf : (⟨S8388608x1, .f32⟩ : BufTy).Contents (Elt F) → (⟨S8388608x1, .f32⟩ : BufTy).Contents (Elt F) → (⟨S8388608x1, .f32⟩ : BufTy).Contents (Elt F)),
    binary main_v60 main_v61 main_v62 (addf : (⟨S8388608x1, .f32⟩ : BufTy).Contents (Elt F) → (⟨S8388608x1, .f32⟩ : BufTy).Contents (Elt F) → (⟨S8388608x1, .f32⟩ : BufTy).Contents (Elt F)),
    binary main_v60 main_v61 main_v63 (mulf : (⟨S8388608x1, .f32⟩ : BufTy).Contents (Elt F) → (⟨S8388608x1, .f32⟩ : BufTy).Contents (Elt F) → (⟨S8388608x1, .f32⟩ : BufTy).Contents (Elt F)),
    binary main_v62 main_v63 main_v64 (subf : (⟨S8388608x1, .f32⟩ : BufTy).Contents (Elt F) → (⟨S8388608x1, .f32⟩ : BufTy).Contents (Elt F) → (⟨S8388608x1, .f32⟩ : BufTy).Contents (Elt F)),
    binary main_v47 main_v45 main_v65 (mulf : (⟨S8388608x1, .f32⟩ : BufTy).Contents (Elt F) → (⟨S8388608x1, .f32⟩ : BufTy).Contents (Elt F) → (⟨S8388608x1, .f32⟩ : BufTy).Contents (Elt F)),
    binary main_v64 main_v65 main_v66 (addf : (⟨S8388608x1, .f32⟩ : BufTy).Contents (Elt F) → (⟨S8388608x1, .f32⟩ : BufTy).Contents (Elt F) → (⟨S8388608x1, .f32⟩ : BufTy).Contents (Elt F)),
    binary main_v64 main_v65 main_v67 (mulf : (⟨S8388608x1, .f32⟩ : BufTy).Contents (Elt F) → (⟨S8388608x1, .f32⟩ : BufTy).Contents (Elt F) → (⟨S8388608x1, .f32⟩ : BufTy).Contents (Elt F)),
    binary main_v66 main_v67 main_v68 (subf : (⟨S8388608x1, .f32⟩ : BufTy).Contents (Elt F) → (⟨S8388608x1, .f32⟩ : BufTy).Contents (Elt F) → (⟨S8388608x1, .f32⟩ : BufTy).Contents (Elt F)) ]

/-- The 26 operations of the stage of column 4. -/
abbrev opsSt4 : List (HloOp τ sig (Elt F)) :=
  [
    unary main_arg0 main_v69 ((extractStridedSlice S8388608x1 ![0, 4] · slices_S8388608x8_S8388608x1_0_4) : (⟨S8388608x8, .f32⟩ : BufTy).Contents (Elt F) → (⟨S8388608x1, .f32⟩ : BufTy).Contents (Elt F)),
    unary main_arg1 main_v70 ((extractStridedSlice S8388608x1 ![0, 4] · slices_S8388608x8_S8388608x1_0_4) : (⟨S8388608x8, .f32⟩ : BufTy).Contents (Elt F) → (⟨S8388608x1, .f32⟩ : BufTy).Contents (Elt F)),
    binary main_v69 main_v70 main_v71 (addf : (⟨S8388608x1, .f32⟩ : BufTy).Contents (Elt F) → (⟨S8388608x1, .f32⟩ : BufTy).Contents (Elt F) → (⟨S8388608x1, .f32⟩ : BufTy).Contents (Elt F)),
    nullary main_cst_8 (constant S_ .f32 0x40000000#32),
    unary main_cst_8 main_v72 (broadcastInDim S8388608x1 ![] bcast_S_S8388608x1 : (⟨S_, .f32⟩ : BufTy).Contents (Elt F) → (⟨S8388608x1, .f32⟩ : BufTy).Contents (Elt F)),
    binary main_v72 main_v69 main_v73 (mulf : (⟨S8388608x1, .f32⟩ : BufTy).Contents (Elt F) → (⟨S8388608x1, .f32⟩ : BufTy).Contents (Elt F) → (⟨S8388608x1, .f32⟩ : BufTy).Contents (Elt F)),
    binary main_v73 main_v70 main_v74 (mulf : (⟨S8388608x1, .f32⟩ : BufTy).Contents (Elt F) → (⟨S8388608x1, .f32⟩ : BufTy).Contents (Elt F) → (⟨S8388608x1, .f32⟩ : BufTy).Contents (Elt F)),
    binary main_v71 main_v74 main_v75 (subf : (⟨S8388608x1, .f32⟩ : BufTy).Contents (Elt F) → (⟨S8388608x1, .f32⟩ : BufTy).Contents (Elt F) → (⟨S8388608x1, .f32⟩ : BufTy).Contents (Elt F)),
    binary main_v75 main_v68 main_v76 (addf : (⟨S8388608x1, .f32⟩ : BufTy).Contents (Elt F) → (⟨S8388608x1, .f32⟩ : BufTy).Contents (Elt F) → (⟨S8388608x1, .f32⟩ : BufTy).Contents (Elt F)),
    nullary main_cst_9 (constant S_ .f32 0x40000000#32),
    unary main_cst_9 main_v77 (broadcastInDim S8388608x1 ![] bcast_S_S8388608x1 : (⟨S_, .f32⟩ : BufTy).Contents (Elt F) → (⟨S8388608x1, .f32⟩ : BufTy).Contents (Elt F)),
    binary main_v77 main_v75 main_v78 (mulf : (⟨S8388608x1, .f32⟩ : BufTy).Contents (Elt F) → (⟨S8388608x1, .f32⟩ : BufTy).Contents (Elt F) → (⟨S8388608x1, .f32⟩ : BufTy).Contents (Elt F)),
    binary main_v78 main_v68 main_v79 (mulf : (⟨S8388608x1, .f32⟩ : BufTy).Contents (Elt F) → (⟨S8388608x1, .f32⟩ : BufTy).Contents (Elt F) → (⟨S8388608x1, .f32⟩ : BufTy).Contents (Elt F)),
    binary main_v76 main_v79 main_v80 (subf : (⟨S8388608x1, .f32⟩ : BufTy).Contents (Elt F) → (⟨S8388608x1, .f32⟩ : BufTy).Contents (Elt F) → (⟨S8388608x1, .f32⟩ : BufTy).Contents (Elt F)),
    nullary main_cst_10 (constant S_ .f32 0x3F800000#32),
    unary main_cst_10 main_v81 (broadcastInDim S8388608x1 ![] bcast_S_S8388608x1 : (⟨S_, .f32⟩ : BufTy).Contents (Elt F) → (⟨S8388608x1, .f32⟩ : BufTy).Contents (Elt F)),
    binary main_v81 main_v69 main_v82 (subf : (⟨S8388608x1, .f32⟩ : BufTy).Contents (Elt F) → (⟨S8388608x1, .f32⟩ : BufTy).Contents (Elt F) → (⟨S8388608x1, .f32⟩ : BufTy).Contents (Elt F)),
    binary main_v82 main_v70 main_v83 (mulf : (⟨S8388608x1, .f32⟩ : BufTy).Contents (Elt F) → (⟨S8388608x1, .f32⟩ : BufTy).Contents (Elt F) → (⟨S8388608x1, .f32⟩ : BufTy).Contents (Elt F)),
    binary main_v82 main_v68 main_v84 (mulf : (⟨S8388608x1, .f32⟩ : BufTy).Contents (Elt F) → (⟨S8388608x1, .f32⟩ : BufTy).Contents (Elt F) → (⟨S8388608x1, .f32⟩ : BufTy).Contents (Elt F)),
    binary main_v83 main_v84 main_v85 (addf : (⟨S8388608x1, .f32⟩ : BufTy).Contents (Elt F) → (⟨S8388608x1, .f32⟩ : BufTy).Contents (Elt F) → (⟨S8388608x1, .f32⟩ : BufTy).Contents (Elt F)),
    binary main_v83 main_v84 main_v86 (mulf : (⟨S8388608x1, .f32⟩ : BufTy).Contents (Elt F) → (⟨S8388608x1, .f32⟩ : BufTy).Contents (Elt F) → (⟨S8388608x1, .f32⟩ : BufTy).Contents (Elt F)),
    binary main_v85 main_v86 main_v87 (subf : (⟨S8388608x1, .f32⟩ : BufTy).Contents (Elt F) → (⟨S8388608x1, .f32⟩ : BufTy).Contents (Elt F) → (⟨S8388608x1, .f32⟩ : BufTy).Contents (Elt F)),
    binary main_v70 main_v68 main_v88 (mulf : (⟨S8388608x1, .f32⟩ : BufTy).Contents (Elt F) → (⟨S8388608x1, .f32⟩ : BufTy).Contents (Elt F) → (⟨S8388608x1, .f32⟩ : BufTy).Contents (Elt F)),
    binary main_v87 main_v88 main_v89 (addf : (⟨S8388608x1, .f32⟩ : BufTy).Contents (Elt F) → (⟨S8388608x1, .f32⟩ : BufTy).Contents (Elt F) → (⟨S8388608x1, .f32⟩ : BufTy).Contents (Elt F)),
    binary main_v87 main_v88 main_v90 (mulf : (⟨S8388608x1, .f32⟩ : BufTy).Contents (Elt F) → (⟨S8388608x1, .f32⟩ : BufTy).Contents (Elt F) → (⟨S8388608x1, .f32⟩ : BufTy).Contents (Elt F)),
    binary main_v89 main_v90 main_v91 (subf : (⟨S8388608x1, .f32⟩ : BufTy).Contents (Elt F) → (⟨S8388608x1, .f32⟩ : BufTy).Contents (Elt F) → (⟨S8388608x1, .f32⟩ : BufTy).Contents (Elt F)) ]

/-- The 26 operations of the stage of column 3. -/
abbrev opsSt3 : List (HloOp τ sig (Elt F)) :=
  [
    unary main_arg0 main_v92 ((extractStridedSlice S8388608x1 ![0, 3] · slices_S8388608x8_S8388608x1_0_3) : (⟨S8388608x8, .f32⟩ : BufTy).Contents (Elt F) → (⟨S8388608x1, .f32⟩ : BufTy).Contents (Elt F)),
    unary main_arg1 main_v93 ((extractStridedSlice S8388608x1 ![0, 3] · slices_S8388608x8_S8388608x1_0_3) : (⟨S8388608x8, .f32⟩ : BufTy).Contents (Elt F) → (⟨S8388608x1, .f32⟩ : BufTy).Contents (Elt F)),
    binary main_v92 main_v93 main_v94 (addf : (⟨S8388608x1, .f32⟩ : BufTy).Contents (Elt F) → (⟨S8388608x1, .f32⟩ : BufTy).Contents (Elt F) → (⟨S8388608x1, .f32⟩ : BufTy).Contents (Elt F)),
    nullary main_cst_11 (constant S_ .f32 0x40000000#32),
    unary main_cst_11 main_v95 (broadcastInDim S8388608x1 ![] bcast_S_S8388608x1 : (⟨S_, .f32⟩ : BufTy).Contents (Elt F) → (⟨S8388608x1, .f32⟩ : BufTy).Contents (Elt F)),
    binary main_v95 main_v92 main_v96 (mulf : (⟨S8388608x1, .f32⟩ : BufTy).Contents (Elt F) → (⟨S8388608x1, .f32⟩ : BufTy).Contents (Elt F) → (⟨S8388608x1, .f32⟩ : BufTy).Contents (Elt F)),
    binary main_v96 main_v93 main_v97 (mulf : (⟨S8388608x1, .f32⟩ : BufTy).Contents (Elt F) → (⟨S8388608x1, .f32⟩ : BufTy).Contents (Elt F) → (⟨S8388608x1, .f32⟩ : BufTy).Contents (Elt F)),
    binary main_v94 main_v97 main_v98 (subf : (⟨S8388608x1, .f32⟩ : BufTy).Contents (Elt F) → (⟨S8388608x1, .f32⟩ : BufTy).Contents (Elt F) → (⟨S8388608x1, .f32⟩ : BufTy).Contents (Elt F)),
    binary main_v98 main_v91 main_v99 (addf : (⟨S8388608x1, .f32⟩ : BufTy).Contents (Elt F) → (⟨S8388608x1, .f32⟩ : BufTy).Contents (Elt F) → (⟨S8388608x1, .f32⟩ : BufTy).Contents (Elt F)),
    nullary main_cst_12 (constant S_ .f32 0x40000000#32),
    unary main_cst_12 main_v100 (broadcastInDim S8388608x1 ![] bcast_S_S8388608x1 : (⟨S_, .f32⟩ : BufTy).Contents (Elt F) → (⟨S8388608x1, .f32⟩ : BufTy).Contents (Elt F)),
    binary main_v100 main_v98 main_v101 (mulf : (⟨S8388608x1, .f32⟩ : BufTy).Contents (Elt F) → (⟨S8388608x1, .f32⟩ : BufTy).Contents (Elt F) → (⟨S8388608x1, .f32⟩ : BufTy).Contents (Elt F)),
    binary main_v101 main_v91 main_v102 (mulf : (⟨S8388608x1, .f32⟩ : BufTy).Contents (Elt F) → (⟨S8388608x1, .f32⟩ : BufTy).Contents (Elt F) → (⟨S8388608x1, .f32⟩ : BufTy).Contents (Elt F)),
    binary main_v99 main_v102 main_v103 (subf : (⟨S8388608x1, .f32⟩ : BufTy).Contents (Elt F) → (⟨S8388608x1, .f32⟩ : BufTy).Contents (Elt F) → (⟨S8388608x1, .f32⟩ : BufTy).Contents (Elt F)),
    nullary main_cst_13 (constant S_ .f32 0x3F800000#32),
    unary main_cst_13 main_v104 (broadcastInDim S8388608x1 ![] bcast_S_S8388608x1 : (⟨S_, .f32⟩ : BufTy).Contents (Elt F) → (⟨S8388608x1, .f32⟩ : BufTy).Contents (Elt F)),
    binary main_v104 main_v92 main_v105 (subf : (⟨S8388608x1, .f32⟩ : BufTy).Contents (Elt F) → (⟨S8388608x1, .f32⟩ : BufTy).Contents (Elt F) → (⟨S8388608x1, .f32⟩ : BufTy).Contents (Elt F)),
    binary main_v105 main_v93 main_v106 (mulf : (⟨S8388608x1, .f32⟩ : BufTy).Contents (Elt F) → (⟨S8388608x1, .f32⟩ : BufTy).Contents (Elt F) → (⟨S8388608x1, .f32⟩ : BufTy).Contents (Elt F)),
    binary main_v105 main_v91 main_v107 (mulf : (⟨S8388608x1, .f32⟩ : BufTy).Contents (Elt F) → (⟨S8388608x1, .f32⟩ : BufTy).Contents (Elt F) → (⟨S8388608x1, .f32⟩ : BufTy).Contents (Elt F)),
    binary main_v106 main_v107 main_v108 (addf : (⟨S8388608x1, .f32⟩ : BufTy).Contents (Elt F) → (⟨S8388608x1, .f32⟩ : BufTy).Contents (Elt F) → (⟨S8388608x1, .f32⟩ : BufTy).Contents (Elt F)),
    binary main_v106 main_v107 main_v109 (mulf : (⟨S8388608x1, .f32⟩ : BufTy).Contents (Elt F) → (⟨S8388608x1, .f32⟩ : BufTy).Contents (Elt F) → (⟨S8388608x1, .f32⟩ : BufTy).Contents (Elt F)),
    binary main_v108 main_v109 main_v110 (subf : (⟨S8388608x1, .f32⟩ : BufTy).Contents (Elt F) → (⟨S8388608x1, .f32⟩ : BufTy).Contents (Elt F) → (⟨S8388608x1, .f32⟩ : BufTy).Contents (Elt F)),
    binary main_v93 main_v91 main_v111 (mulf : (⟨S8388608x1, .f32⟩ : BufTy).Contents (Elt F) → (⟨S8388608x1, .f32⟩ : BufTy).Contents (Elt F) → (⟨S8388608x1, .f32⟩ : BufTy).Contents (Elt F)),
    binary main_v110 main_v111 main_v112 (addf : (⟨S8388608x1, .f32⟩ : BufTy).Contents (Elt F) → (⟨S8388608x1, .f32⟩ : BufTy).Contents (Elt F) → (⟨S8388608x1, .f32⟩ : BufTy).Contents (Elt F)),
    binary main_v110 main_v111 main_v113 (mulf : (⟨S8388608x1, .f32⟩ : BufTy).Contents (Elt F) → (⟨S8388608x1, .f32⟩ : BufTy).Contents (Elt F) → (⟨S8388608x1, .f32⟩ : BufTy).Contents (Elt F)),
    binary main_v112 main_v113 main_v114 (subf : (⟨S8388608x1, .f32⟩ : BufTy).Contents (Elt F) → (⟨S8388608x1, .f32⟩ : BufTy).Contents (Elt F) → (⟨S8388608x1, .f32⟩ : BufTy).Contents (Elt F)) ]

/-- The 26 operations of the stage of column 2. -/
abbrev opsSt2 : List (HloOp τ sig (Elt F)) :=
  [
    unary main_arg0 main_v115 ((extractStridedSlice S8388608x1 ![0, 2] · slices_S8388608x8_S8388608x1_0_2) : (⟨S8388608x8, .f32⟩ : BufTy).Contents (Elt F) → (⟨S8388608x1, .f32⟩ : BufTy).Contents (Elt F)),
    unary main_arg1 main_v116 ((extractStridedSlice S8388608x1 ![0, 2] · slices_S8388608x8_S8388608x1_0_2) : (⟨S8388608x8, .f32⟩ : BufTy).Contents (Elt F) → (⟨S8388608x1, .f32⟩ : BufTy).Contents (Elt F)),
    binary main_v115 main_v116 main_v117 (addf : (⟨S8388608x1, .f32⟩ : BufTy).Contents (Elt F) → (⟨S8388608x1, .f32⟩ : BufTy).Contents (Elt F) → (⟨S8388608x1, .f32⟩ : BufTy).Contents (Elt F)),
    nullary main_cst_14 (constant S_ .f32 0x40000000#32),
    unary main_cst_14 main_v118 (broadcastInDim S8388608x1 ![] bcast_S_S8388608x1 : (⟨S_, .f32⟩ : BufTy).Contents (Elt F) → (⟨S8388608x1, .f32⟩ : BufTy).Contents (Elt F)),
    binary main_v118 main_v115 main_v119 (mulf : (⟨S8388608x1, .f32⟩ : BufTy).Contents (Elt F) → (⟨S8388608x1, .f32⟩ : BufTy).Contents (Elt F) → (⟨S8388608x1, .f32⟩ : BufTy).Contents (Elt F)),
    binary main_v119 main_v116 main_v120 (mulf : (⟨S8388608x1, .f32⟩ : BufTy).Contents (Elt F) → (⟨S8388608x1, .f32⟩ : BufTy).Contents (Elt F) → (⟨S8388608x1, .f32⟩ : BufTy).Contents (Elt F)),
    binary main_v117 main_v120 main_v121 (subf : (⟨S8388608x1, .f32⟩ : BufTy).Contents (Elt F) → (⟨S8388608x1, .f32⟩ : BufTy).Contents (Elt F) → (⟨S8388608x1, .f32⟩ : BufTy).Contents (Elt F)),
    binary main_v121 main_v114 main_v122 (addf : (⟨S8388608x1, .f32⟩ : BufTy).Contents (Elt F) → (⟨S8388608x1, .f32⟩ : BufTy).Contents (Elt F) → (⟨S8388608x1, .f32⟩ : BufTy).Contents (Elt F)),
    nullary main_cst_15 (constant S_ .f32 0x40000000#32),
    unary main_cst_15 main_v123 (broadcastInDim S8388608x1 ![] bcast_S_S8388608x1 : (⟨S_, .f32⟩ : BufTy).Contents (Elt F) → (⟨S8388608x1, .f32⟩ : BufTy).Contents (Elt F)),
    binary main_v123 main_v121 main_v124 (mulf : (⟨S8388608x1, .f32⟩ : BufTy).Contents (Elt F) → (⟨S8388608x1, .f32⟩ : BufTy).Contents (Elt F) → (⟨S8388608x1, .f32⟩ : BufTy).Contents (Elt F)),
    binary main_v124 main_v114 main_v125 (mulf : (⟨S8388608x1, .f32⟩ : BufTy).Contents (Elt F) → (⟨S8388608x1, .f32⟩ : BufTy).Contents (Elt F) → (⟨S8388608x1, .f32⟩ : BufTy).Contents (Elt F)),
    binary main_v122 main_v125 main_v126 (subf : (⟨S8388608x1, .f32⟩ : BufTy).Contents (Elt F) → (⟨S8388608x1, .f32⟩ : BufTy).Contents (Elt F) → (⟨S8388608x1, .f32⟩ : BufTy).Contents (Elt F)),
    nullary main_cst_16 (constant S_ .f32 0x3F800000#32),
    unary main_cst_16 main_v127 (broadcastInDim S8388608x1 ![] bcast_S_S8388608x1 : (⟨S_, .f32⟩ : BufTy).Contents (Elt F) → (⟨S8388608x1, .f32⟩ : BufTy).Contents (Elt F)),
    binary main_v127 main_v115 main_v128 (subf : (⟨S8388608x1, .f32⟩ : BufTy).Contents (Elt F) → (⟨S8388608x1, .f32⟩ : BufTy).Contents (Elt F) → (⟨S8388608x1, .f32⟩ : BufTy).Contents (Elt F)),
    binary main_v128 main_v116 main_v129 (mulf : (⟨S8388608x1, .f32⟩ : BufTy).Contents (Elt F) → (⟨S8388608x1, .f32⟩ : BufTy).Contents (Elt F) → (⟨S8388608x1, .f32⟩ : BufTy).Contents (Elt F)),
    binary main_v128 main_v114 main_v130 (mulf : (⟨S8388608x1, .f32⟩ : BufTy).Contents (Elt F) → (⟨S8388608x1, .f32⟩ : BufTy).Contents (Elt F) → (⟨S8388608x1, .f32⟩ : BufTy).Contents (Elt F)),
    binary main_v129 main_v130 main_v131 (addf : (⟨S8388608x1, .f32⟩ : BufTy).Contents (Elt F) → (⟨S8388608x1, .f32⟩ : BufTy).Contents (Elt F) → (⟨S8388608x1, .f32⟩ : BufTy).Contents (Elt F)),
    binary main_v129 main_v130 main_v132 (mulf : (⟨S8388608x1, .f32⟩ : BufTy).Contents (Elt F) → (⟨S8388608x1, .f32⟩ : BufTy).Contents (Elt F) → (⟨S8388608x1, .f32⟩ : BufTy).Contents (Elt F)),
    binary main_v131 main_v132 main_v133 (subf : (⟨S8388608x1, .f32⟩ : BufTy).Contents (Elt F) → (⟨S8388608x1, .f32⟩ : BufTy).Contents (Elt F) → (⟨S8388608x1, .f32⟩ : BufTy).Contents (Elt F)),
    binary main_v116 main_v114 main_v134 (mulf : (⟨S8388608x1, .f32⟩ : BufTy).Contents (Elt F) → (⟨S8388608x1, .f32⟩ : BufTy).Contents (Elt F) → (⟨S8388608x1, .f32⟩ : BufTy).Contents (Elt F)),
    binary main_v133 main_v134 main_v135 (addf : (⟨S8388608x1, .f32⟩ : BufTy).Contents (Elt F) → (⟨S8388608x1, .f32⟩ : BufTy).Contents (Elt F) → (⟨S8388608x1, .f32⟩ : BufTy).Contents (Elt F)),
    binary main_v133 main_v134 main_v136 (mulf : (⟨S8388608x1, .f32⟩ : BufTy).Contents (Elt F) → (⟨S8388608x1, .f32⟩ : BufTy).Contents (Elt F) → (⟨S8388608x1, .f32⟩ : BufTy).Contents (Elt F)),
    binary main_v135 main_v136 main_v137 (subf : (⟨S8388608x1, .f32⟩ : BufTy).Contents (Elt F) → (⟨S8388608x1, .f32⟩ : BufTy).Contents (Elt F) → (⟨S8388608x1, .f32⟩ : BufTy).Contents (Elt F)) ]

/-- The 26 operations of the stage of column 1. -/
abbrev opsSt1 : List (HloOp τ sig (Elt F)) :=
  [
    unary main_arg0 main_v138 ((extractStridedSlice S8388608x1 ![0, 1] · slices_S8388608x8_S8388608x1_0_1) : (⟨S8388608x8, .f32⟩ : BufTy).Contents (Elt F) → (⟨S8388608x1, .f32⟩ : BufTy).Contents (Elt F)),
    unary main_arg1 main_v139 ((extractStridedSlice S8388608x1 ![0, 1] · slices_S8388608x8_S8388608x1_0_1) : (⟨S8388608x8, .f32⟩ : BufTy).Contents (Elt F) → (⟨S8388608x1, .f32⟩ : BufTy).Contents (Elt F)),
    binary main_v138 main_v139 main_v140 (addf : (⟨S8388608x1, .f32⟩ : BufTy).Contents (Elt F) → (⟨S8388608x1, .f32⟩ : BufTy).Contents (Elt F) → (⟨S8388608x1, .f32⟩ : BufTy).Contents (Elt F)),
    nullary main_cst_17 (constant S_ .f32 0x40000000#32),
    unary main_cst_17 main_v141 (broadcastInDim S8388608x1 ![] bcast_S_S8388608x1 : (⟨S_, .f32⟩ : BufTy).Contents (Elt F) → (⟨S8388608x1, .f32⟩ : BufTy).Contents (Elt F)),
    binary main_v141 main_v138 main_v142 (mulf : (⟨S8388608x1, .f32⟩ : BufTy).Contents (Elt F) → (⟨S8388608x1, .f32⟩ : BufTy).Contents (Elt F) → (⟨S8388608x1, .f32⟩ : BufTy).Contents (Elt F)),
    binary main_v142 main_v139 main_v143 (mulf : (⟨S8388608x1, .f32⟩ : BufTy).Contents (Elt F) → (⟨S8388608x1, .f32⟩ : BufTy).Contents (Elt F) → (⟨S8388608x1, .f32⟩ : BufTy).Contents (Elt F)),
    binary main_v140 main_v143 main_v144 (subf : (⟨S8388608x1, .f32⟩ : BufTy).Contents (Elt F) → (⟨S8388608x1, .f32⟩ : BufTy).Contents (Elt F) → (⟨S8388608x1, .f32⟩ : BufTy).Contents (Elt F)),
    binary main_v144 main_v137 main_v145 (addf : (⟨S8388608x1, .f32⟩ : BufTy).Contents (Elt F) → (⟨S8388608x1, .f32⟩ : BufTy).Contents (Elt F) → (⟨S8388608x1, .f32⟩ : BufTy).Contents (Elt F)),
    nullary main_cst_18 (constant S_ .f32 0x40000000#32),
    unary main_cst_18 main_v146 (broadcastInDim S8388608x1 ![] bcast_S_S8388608x1 : (⟨S_, .f32⟩ : BufTy).Contents (Elt F) → (⟨S8388608x1, .f32⟩ : BufTy).Contents (Elt F)),
    binary main_v146 main_v144 main_v147 (mulf : (⟨S8388608x1, .f32⟩ : BufTy).Contents (Elt F) → (⟨S8388608x1, .f32⟩ : BufTy).Contents (Elt F) → (⟨S8388608x1, .f32⟩ : BufTy).Contents (Elt F)),
    binary main_v147 main_v137 main_v148 (mulf : (⟨S8388608x1, .f32⟩ : BufTy).Contents (Elt F) → (⟨S8388608x1, .f32⟩ : BufTy).Contents (Elt F) → (⟨S8388608x1, .f32⟩ : BufTy).Contents (Elt F)),
    binary main_v145 main_v148 main_v149 (subf : (⟨S8388608x1, .f32⟩ : BufTy).Contents (Elt F) → (⟨S8388608x1, .f32⟩ : BufTy).Contents (Elt F) → (⟨S8388608x1, .f32⟩ : BufTy).Contents (Elt F)),
    nullary main_cst_19 (constant S_ .f32 0x3F800000#32),
    unary main_cst_19 main_v150 (broadcastInDim S8388608x1 ![] bcast_S_S8388608x1 : (⟨S_, .f32⟩ : BufTy).Contents (Elt F) → (⟨S8388608x1, .f32⟩ : BufTy).Contents (Elt F)),
    binary main_v150 main_v138 main_v151 (subf : (⟨S8388608x1, .f32⟩ : BufTy).Contents (Elt F) → (⟨S8388608x1, .f32⟩ : BufTy).Contents (Elt F) → (⟨S8388608x1, .f32⟩ : BufTy).Contents (Elt F)),
    binary main_v151 main_v139 main_v152 (mulf : (⟨S8388608x1, .f32⟩ : BufTy).Contents (Elt F) → (⟨S8388608x1, .f32⟩ : BufTy).Contents (Elt F) → (⟨S8388608x1, .f32⟩ : BufTy).Contents (Elt F)),
    binary main_v151 main_v137 main_v153 (mulf : (⟨S8388608x1, .f32⟩ : BufTy).Contents (Elt F) → (⟨S8388608x1, .f32⟩ : BufTy).Contents (Elt F) → (⟨S8388608x1, .f32⟩ : BufTy).Contents (Elt F)),
    binary main_v152 main_v153 main_v154 (addf : (⟨S8388608x1, .f32⟩ : BufTy).Contents (Elt F) → (⟨S8388608x1, .f32⟩ : BufTy).Contents (Elt F) → (⟨S8388608x1, .f32⟩ : BufTy).Contents (Elt F)),
    binary main_v152 main_v153 main_v155 (mulf : (⟨S8388608x1, .f32⟩ : BufTy).Contents (Elt F) → (⟨S8388608x1, .f32⟩ : BufTy).Contents (Elt F) → (⟨S8388608x1, .f32⟩ : BufTy).Contents (Elt F)),
    binary main_v154 main_v155 main_v156 (subf : (⟨S8388608x1, .f32⟩ : BufTy).Contents (Elt F) → (⟨S8388608x1, .f32⟩ : BufTy).Contents (Elt F) → (⟨S8388608x1, .f32⟩ : BufTy).Contents (Elt F)),
    binary main_v139 main_v137 main_v157 (mulf : (⟨S8388608x1, .f32⟩ : BufTy).Contents (Elt F) → (⟨S8388608x1, .f32⟩ : BufTy).Contents (Elt F) → (⟨S8388608x1, .f32⟩ : BufTy).Contents (Elt F)),
    binary main_v156 main_v157 main_v158 (addf : (⟨S8388608x1, .f32⟩ : BufTy).Contents (Elt F) → (⟨S8388608x1, .f32⟩ : BufTy).Contents (Elt F) → (⟨S8388608x1, .f32⟩ : BufTy).Contents (Elt F)),
    binary main_v156 main_v157 main_v159 (mulf : (⟨S8388608x1, .f32⟩ : BufTy).Contents (Elt F) → (⟨S8388608x1, .f32⟩ : BufTy).Contents (Elt F) → (⟨S8388608x1, .f32⟩ : BufTy).Contents (Elt F)),
    binary main_v158 main_v159 main_v160 (subf : (⟨S8388608x1, .f32⟩ : BufTy).Contents (Elt F) → (⟨S8388608x1, .f32⟩ : BufTy).Contents (Elt F) → (⟨S8388608x1, .f32⟩ : BufTy).Contents (Elt F)) ]

/-- The 26 operations of the stage of column 0. -/
abbrev opsSt0 : List (HloOp τ sig (Elt F)) :=
  [
    unary main_arg0 main_v161 ((extractStridedSlice S8388608x1 ![0, 0] · slices_S8388608x8_S8388608x1_0_0) : (⟨S8388608x8, .f32⟩ : BufTy).Contents (Elt F) → (⟨S8388608x1, .f32⟩ : BufTy).Contents (Elt F)),
    unary main_arg1 main_v162 ((extractStridedSlice S8388608x1 ![0, 0] · slices_S8388608x8_S8388608x1_0_0) : (⟨S8388608x8, .f32⟩ : BufTy).Contents (Elt F) → (⟨S8388608x1, .f32⟩ : BufTy).Contents (Elt F)),
    binary main_v161 main_v162 main_v163 (addf : (⟨S8388608x1, .f32⟩ : BufTy).Contents (Elt F) → (⟨S8388608x1, .f32⟩ : BufTy).Contents (Elt F) → (⟨S8388608x1, .f32⟩ : BufTy).Contents (Elt F)),
    nullary main_cst_20 (constant S_ .f32 0x40000000#32),
    unary main_cst_20 main_v164 (broadcastInDim S8388608x1 ![] bcast_S_S8388608x1 : (⟨S_, .f32⟩ : BufTy).Contents (Elt F) → (⟨S8388608x1, .f32⟩ : BufTy).Contents (Elt F)),
    binary main_v164 main_v161 main_v165 (mulf : (⟨S8388608x1, .f32⟩ : BufTy).Contents (Elt F) → (⟨S8388608x1, .f32⟩ : BufTy).Contents (Elt F) → (⟨S8388608x1, .f32⟩ : BufTy).Contents (Elt F)),
    binary main_v165 main_v162 main_v166 (mulf : (⟨S8388608x1, .f32⟩ : BufTy).Contents (Elt F) → (⟨S8388608x1, .f32⟩ : BufTy).Contents (Elt F) → (⟨S8388608x1, .f32⟩ : BufTy).Contents (Elt F)),
    binary main_v163 main_v166 main_v167 (subf : (⟨S8388608x1, .f32⟩ : BufTy).Contents (Elt F) → (⟨S8388608x1, .f32⟩ : BufTy).Contents (Elt F) → (⟨S8388608x1, .f32⟩ : BufTy).Contents (Elt F)),
    binary main_v167 main_v160 main_v168 (addf : (⟨S8388608x1, .f32⟩ : BufTy).Contents (Elt F) → (⟨S8388608x1, .f32⟩ : BufTy).Contents (Elt F) → (⟨S8388608x1, .f32⟩ : BufTy).Contents (Elt F)),
    nullary main_cst_21 (constant S_ .f32 0x40000000#32),
    unary main_cst_21 main_v169 (broadcastInDim S8388608x1 ![] bcast_S_S8388608x1 : (⟨S_, .f32⟩ : BufTy).Contents (Elt F) → (⟨S8388608x1, .f32⟩ : BufTy).Contents (Elt F)),
    binary main_v169 main_v167 main_v170 (mulf : (⟨S8388608x1, .f32⟩ : BufTy).Contents (Elt F) → (⟨S8388608x1, .f32⟩ : BufTy).Contents (Elt F) → (⟨S8388608x1, .f32⟩ : BufTy).Contents (Elt F)),
    binary main_v170 main_v160 main_v171 (mulf : (⟨S8388608x1, .f32⟩ : BufTy).Contents (Elt F) → (⟨S8388608x1, .f32⟩ : BufTy).Contents (Elt F) → (⟨S8388608x1, .f32⟩ : BufTy).Contents (Elt F)),
    binary main_v168 main_v171 main_v172 (subf : (⟨S8388608x1, .f32⟩ : BufTy).Contents (Elt F) → (⟨S8388608x1, .f32⟩ : BufTy).Contents (Elt F) → (⟨S8388608x1, .f32⟩ : BufTy).Contents (Elt F)),
    nullary main_cst_22 (constant S_ .f32 0x3F800000#32),
    unary main_cst_22 main_v173 (broadcastInDim S8388608x1 ![] bcast_S_S8388608x1 : (⟨S_, .f32⟩ : BufTy).Contents (Elt F) → (⟨S8388608x1, .f32⟩ : BufTy).Contents (Elt F)),
    binary main_v173 main_v161 main_v174 (subf : (⟨S8388608x1, .f32⟩ : BufTy).Contents (Elt F) → (⟨S8388608x1, .f32⟩ : BufTy).Contents (Elt F) → (⟨S8388608x1, .f32⟩ : BufTy).Contents (Elt F)),
    binary main_v174 main_v162 main_v175 (mulf : (⟨S8388608x1, .f32⟩ : BufTy).Contents (Elt F) → (⟨S8388608x1, .f32⟩ : BufTy).Contents (Elt F) → (⟨S8388608x1, .f32⟩ : BufTy).Contents (Elt F)),
    binary main_v174 main_v160 main_v176 (mulf : (⟨S8388608x1, .f32⟩ : BufTy).Contents (Elt F) → (⟨S8388608x1, .f32⟩ : BufTy).Contents (Elt F) → (⟨S8388608x1, .f32⟩ : BufTy).Contents (Elt F)),
    binary main_v175 main_v176 main_v177 (addf : (⟨S8388608x1, .f32⟩ : BufTy).Contents (Elt F) → (⟨S8388608x1, .f32⟩ : BufTy).Contents (Elt F) → (⟨S8388608x1, .f32⟩ : BufTy).Contents (Elt F)),
    binary main_v175 main_v176 main_v178 (mulf : (⟨S8388608x1, .f32⟩ : BufTy).Contents (Elt F) → (⟨S8388608x1, .f32⟩ : BufTy).Contents (Elt F) → (⟨S8388608x1, .f32⟩ : BufTy).Contents (Elt F)),
    binary main_v177 main_v178 main_v179 (subf : (⟨S8388608x1, .f32⟩ : BufTy).Contents (Elt F) → (⟨S8388608x1, .f32⟩ : BufTy).Contents (Elt F) → (⟨S8388608x1, .f32⟩ : BufTy).Contents (Elt F)),
    binary main_v162 main_v160 main_v180 (mulf : (⟨S8388608x1, .f32⟩ : BufTy).Contents (Elt F) → (⟨S8388608x1, .f32⟩ : BufTy).Contents (Elt F) → (⟨S8388608x1, .f32⟩ : BufTy).Contents (Elt F)),
    binary main_v179 main_v180 main_v181 (addf : (⟨S8388608x1, .f32⟩ : BufTy).Contents (Elt F) → (⟨S8388608x1, .f32⟩ : BufTy).Contents (Elt F) → (⟨S8388608x1, .f32⟩ : BufTy).Contents (Elt F)),
    binary main_v179 main_v180 main_v182 (mulf : (⟨S8388608x1, .f32⟩ : BufTy).Contents (Elt F) → (⟨S8388608x1, .f32⟩ : BufTy).Contents (Elt F) → (⟨S8388608x1, .f32⟩ : BufTy).Contents (Elt F)),
    binary main_v181 main_v182 main_v183 (subf : (⟨S8388608x1, .f32⟩ : BufTy).Contents (Elt F) → (⟨S8388608x1, .f32⟩ : BufTy).Contents (Elt F) → (⟨S8388608x1, .f32⟩ : BufTy).Contents (Elt F)) ]

/-- The closing concatenate of the eight difference columns. -/
abbrev opsCat : List (HloOp τ sig (Elt F)) :=
  [
    nary ![main_v172, main_v149, main_v126, main_v103, main_v80, main_v57, main_v34, main_v11] main_v184 (fun u => concatenate S8388608x8 1 [⟨S8388608x1, u 0⟩, ⟨S8388608x1, u 1⟩, ⟨S8388608x1, u 2⟩, ⟨S8388608x1, u 3⟩, ⟨S8388608x1, u 4⟩, ⟨S8388608x1, u 5⟩, ⟨S8388608x1, u 6⟩, ⟨S8388608x1, u 7⟩] concatenates_S8388608x1_S8388608x1_S8388608x1_S8388608x1_S8388608x1_S8388608x1_S8388608x1_S8388608x1_S8388608x8_d1) ]

/-- The whole program, stage by stage. -/
abbrev ops : List (HloOp τ sig (Elt F)) :=
  opsSt7 ++ (opsSt6 ++ (opsSt5 ++ (opsSt4 ++ (opsSt3 ++ (opsSt2 ++ (opsSt1 ++ (opsSt0 ++ opsCat)))))))

/-- The whole program, printed window by printed window. -/
abbrev opsByWindow : List (HloOp τ sig (Elt F)) :=
  opsPart0 ++ (opsPart1 ++ (opsPart2 ++ opsPart3))

end Cert.ReferenceIdeal.RefOps

end
-- ==== Proof.RefRun.lean ====
/-
  The reference program runs to its end, and every buffer then holds what its operations, applied in order,
  leave there: the program is a straight line of 209 array operations (eight bit stages of 26 operations and
  a closing concatenate), so its run is the fold of the operations' results over the launch contents.
-/
import proofs.«158708_j23407571764121_1_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-! ## The program is the line of its operations

Each printed window is, statement for statement, the line of its operations; the windows run one after the
other, and a line of two lists run in turn is the line of their concatenation. -/

set_option maxRecDepth 8192 in
theorem main_part0_eq (c : Dev nD) : main_part0 (F := F) c = seq opsPart0 := rfl
set_option maxRecDepth 8192 in
theorem main_part1_eq (c : Dev nD) : main_part1 (F := F) c = seq opsPart1 := rfl
set_option maxRecDepth 8192 in
theorem main_part2_eq (c : Dev nD) : main_part2 (F := F) c = seq opsPart2 := rfl
set_option maxRecDepth 8192 in
theorem main_part3_eq (c : Dev nD) : main_part3 (F := F) c = seq opsPart3 := rfl

/-- The whole program is the line of the four windows' operations. -/
theorem main_byWindow (c : Dev nD) : main (F := F) c = seq opsByWindow := by
  show main (F := F) c = seq (opsPart0 ++ (opsPart1 ++ (opsPart2 ++ opsPart3)))
  rw [seq_append, seq_append, seq_append, ← main_part0_eq c, ← main_part1_eq c, ← main_part2_eq c, ← main_part3_eq c]
  rfl

set_option maxRecDepth 8192 in
/-- Cutting the 209 operations by printed window or by bit stage gives the same list: both are the same
    operations in the same order, only bracketed differently. -/
theorem opsByWindow_eq : (opsByWindow : List (HloOp τ sig (Elt F))) = ops := rfl

/-- The program is the line of its operations, stage by stage. -/
theorem main_eq (c : Dev nD) : main (F := F) c = seq ops :=
  (main_byWindow c).trans (congrArg seq opsByWindow_eq)

/-! ## The signature scopes nothing -/

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only

One fact per operation, in the stage's order: two column slices, the sum, then constant, broadcast and products
for each of the two exclusive-ors, then the constant one, its broadcast and the ten operations of the borrow. -/

theorem opsSt7_sub : (opsSt7 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub ..⟩
theorem opsSt6_sub : (opsSt6 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub ..⟩
theorem opsSt5_sub : (opsSt5 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub ..⟩
theorem opsSt4_sub : (opsSt4 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub ..⟩
theorem opsSt3_sub : (opsSt3 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub ..⟩
theorem opsSt2_sub : (opsSt2 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub ..⟩
theorem opsSt1_sub : (opsSt1 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub ..⟩
theorem opsSt0_sub : (opsSt0 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub ..⟩
theorem opsCat_sub : (opsCat : List (HloOp τ sig (Elt F))).Forall fun op => op.bufs ⊆ tcRefs τ sig :=
  nary_bufs_sub ..

/-- The same of the whole list: a property of every entry of a concatenation holds when it holds of both parts. -/
theorem ops_sub : (ops : List (HloOp τ sig (Elt F))).Forall fun op => op.bufs ⊆ tcRefs τ sig :=
  List.forall_append.mpr ⟨opsSt7_sub,
    List.forall_append.mpr ⟨opsSt6_sub,
    List.forall_append.mpr ⟨opsSt5_sub,
    List.forall_append.mpr ⟨opsSt4_sub,
    List.forall_append.mpr ⟨opsSt3_sub,
    List.forall_append.mpr ⟨opsSt2_sub,
    List.forall_append.mpr ⟨opsSt1_sub,
    List.forall_append.mpr ⟨opsSt0_sub, opsCat_sub⟩⟩⟩⟩⟩⟩⟩⟩

/-! ## No operation allocates

Every operation determines its results: none leaves a buffer's contents to the machine. -/

theorem opsSt7_fresh : (opsSt7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem opsSt6_fresh : (opsSt6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem opsSt5_fresh : (opsSt5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem opsSt4_fresh : (opsSt4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem opsSt3_fresh : (opsSt3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem opsSt2_fresh : (opsSt2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem opsSt1_fresh : (opsSt1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem opsSt0_fresh : (opsSt0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem opsCat_fresh : (opsCat : List (HloOp τ sig (Elt F))).Forall fun op => op.fresh = ∅ :=
  rfl

theorem ops_fresh : ∀ op ∈ (ops : List (HloOp τ sig (Elt F))), op.fresh = ∅ :=
  List.forall_iff_forall_mem.mp
   (List.forall_append.mpr ⟨opsSt7_fresh,
    List.forall_append.mpr ⟨opsSt6_fresh,
    List.forall_append.mpr ⟨opsSt5_fresh,
    List.forall_append.mpr ⟨opsSt4_fresh,
    List.forall_append.mpr ⟨opsSt3_fresh,
    List.forall_append.mpr ⟨opsSt2_fresh,
    List.forall_append.mpr ⟨opsSt1_fresh,
    List.forall_append.mpr ⟨opsSt0_fresh, opsCat_fresh⟩⟩⟩⟩⟩⟩⟩⟩)

/-! ## The run -/

/-- Every weakly fair execution of the reference terminates, and each TensorCore buffer ends at the fold of the
    209 operations (grouped by stage) over what the device held at launch. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

end Cert.ReferenceIdeal.RefRun

end
-- ==== Proof.RefVec.lean ====
/-
  The reference's computation on whole columns: column k of the two N×8 arguments as N×1 arrays, and the chain of
  eight vector stages on them. `B k` is the borrow column leaving bit k, `D k` the difference column of bit k;
  the difference result is the eight `D k` laid side by side.
-/
import proofs.«158708_j23407571764121_1_alg».proof.Proof.Gen.ReferenceIdeal
import proofs.«158708_j23407571764121_1_alg».proof.Proof.Spec

noncomputable section

namespace Cert.ReferenceIdeal.RefVec

open Cert.ReferenceIdeal Cert.ReferenceIdeal.Gen Idealize.ShloMosaic
open Cert.Sub8

variable {F : FTy → Type} [FloatOps F]

/-- The all-2 and all-1 columns, as the reference spells them: a scalar constant broadcast to N×1. -/
def two : FVec F S8388608x1 .f32 := broadcastInDim S8388608x1 ![] bcast_S_S8388608x1 (constant S_ .f32 0x40000000#32)
def one : FVec F S8388608x1 .f32 := broadcastInDim S8388608x1 ![] bcast_S_S8388608x1 (constant S_ .f32 0x3F800000#32)

variable (A B : FVec F S8388608x8 .f32) (Bin : FVec F S8388608x1 .f32)

/-- Column k of an N×8 array as an N×1 array. -/
def col7 (X : FVec F S8388608x8 .f32) : FVec F S8388608x1 .f32 := extractStridedSlice S8388608x1 ![0, 7] X slices_S8388608x8_S8388608x1_0_7
def col6 (X : FVec F S8388608x8 .f32) : FVec F S8388608x1 .f32 := extractStridedSlice S8388608x1 ![0, 6] X slices_S8388608x8_S8388608x1_0_6
def col5 (X : FVec F S8388608x8 .f32) : FVec F S8388608x1 .f32 := extractStridedSlice S8388608x1 ![0, 5] X slices_S8388608x8_S8388608x1_0_5
def col4 (X : FVec F S8388608x8 .f32) : FVec F S8388608x1 .f32 := extractStridedSlice S8388608x1 ![0, 4] X slices_S8388608x8_S8388608x1_0_4
def col3 (X : FVec F S8388608x8 .f32) : FVec F S8388608x1 .f32 := extractStridedSlice S8388608x1 ![0, 3] X slices_S8388608x8_S8388608x1_0_3
def col2 (X : FVec F S8388608x8 .f32) : FVec F S8388608x1 .f32 := extractStridedSlice S8388608x1 ![0, 2] X slices_S8388608x8_S8388608x1_0_2
def col1 (X : FVec F S8388608x8 .f32) : FVec F S8388608x1 .f32 := extractStridedSlice S8388608x1 ![0, 1] X slices_S8388608x8_S8388608x1_0_1
def col0 (X : FVec F S8388608x8 .f32) : FVec F S8388608x1 .f32 := extractStridedSlice S8388608x1 ![0, 0] X slices_S8388608x8_S8388608x1_0_0

/-- The borrow column leaving bit k. -/
def B7 : FVec F S8388608x1 .f32 := vBorrow one (col7 A) (col7 B) Bin
def B6 : FVec F S8388608x1 .f32 := vBorrow one (col6 A) (col6 B) (B7 A B Bin)
def B5 : FVec F S8388608x1 .f32 := vBorrow one (col5 A) (col5 B) (B6 A B Bin)
def B4 : FVec F S8388608x1 .f32 := vBorrow one (col4 A) (col4 B) (B5 A B Bin)
def B3 : FVec F S8388608x1 .f32 := vBorrow one (col3 A) (col3 B) (B4 A B Bin)
def B2 : FVec F S8388608x1 .f32 := vBorrow one (col2 A) (col2 B) (B3 A B Bin)
def B1 : FVec F S8388608x1 .f32 := vBorrow one (col1 A) (col1 B) (B2 A B Bin)
def B0 : FVec F S8388608x1 .f32 := vBorrow one (col0 A) (col0 B) (B1 A B Bin)

/-- The difference column of bit k. -/
def D7 : FVec F S8388608x1 .f32 := vDiff two (col7 A) (col7 B) Bin
def D6 : FVec F S8388608x1 .f32 := vDiff two (col6 A) (col6 B) (B7 A B Bin)
def D5 : FVec F S8388608x1 .f32 := vDiff two (col5 A) (col5 B) (B6 A B Bin)
def D4 : FVec F S8388608x1 .f32 := vDiff two (col4 A) (col4 B) (B5 A B Bin)
def D3 : FVec F S8388608x1 .f32 := vDiff two (col3 A) (col3 B) (B4 A B Bin)
def D2 : FVec F S8388608x1 .f32 := vDiff two (col2 A) (col2 B) (B3 A B Bin)
def D1 : FVec F S8388608x1 .f32 := vDiff two (col1 A) (col1 B) (B2 A B Bin)
def D0 : FVec F S8388608x1 .f32 := vDiff two (col0 A) (col0 B) (B1 A B Bin)

/-- The difference array: the eight difference columns side by side, column 0 first. -/
def Dcat : FVec F S8388608x8 .f32 :=
  concatenate S8388608x8 1 [⟨S8388608x1, D0 A B Bin⟩, ⟨S8388608x1, D1 A B Bin⟩, ⟨S8388608x1, D2 A B Bin⟩, ⟨S8388608x1, D3 A B Bin⟩, ⟨S8388608x1, D4 A B Bin⟩, ⟨S8388608x1, D5 A B Bin⟩, ⟨S8388608x1, D6 A B Bin⟩, ⟨S8388608x1, D7 A B Bin⟩] concatenates_S8388608x1_S8388608x1_S8388608x1_S8388608x1_S8388608x1_S8388608x1_S8388608x1_S8388608x1_S8388608x8_d1

end Cert.ReferenceIdeal.RefVec

end
-- ==== Proof.RefStages.lean ====
/-
  Stage by stage, the fold of the reference's 209 operations leaves the whole-column stage chain in the
  buffers: each stage of 26 operations computes, from the two column slices and the borrow column it finds,
  that stage's difference column and outgoing borrow column, and writes no other buffer a later stage reads.

  The road. A stage is read on an ARBITRARY valuation `W`: its two results are the folded vector stage
  (`vBorrow`, `vDiff`) of the column slices and of the borrow buffer it finds (`st7` … `st0`), and every reference
  outside the 26 it writes keeps its contents (`kept7` … `kept0`). An invariant per stage (`Inv7` … `Inv0`) says what
  the arguments, the newest borrow buffer and the difference buffers written so far hold, in the folded columns
  `B k`, `D k`; each stage carries the invariant one column on (`inv7` … `inv0`), always over a variable valuation,
  so no earlier stage is ever unfolded. The fold over the whole list is the fold of the closing concatenate over
  the eight stages' fold (`after_ops`), and the concatenate reads the eight difference buffers (`cat_v184`).
-/
import proofs.«158708_j23407571764121_1_alg».proof.Proof.RefOps
import proofs.«158708_j23407571764121_1_alg».proof.Proof.RefVec

noncomputable section

namespace Cert.ReferenceIdeal.RefStages

open Cert.ReferenceIdeal Cert.ReferenceIdeal.Gen Cert.ReferenceIdeal.RefOps Idealize.ShloMosaic Idealize.ShloMosaic.TcCoe Idealize.SL.Sem Idealize.ShloMosaic.StableHlo
open Cert.Sub8 Cert.ReferenceIdeal.RefVec

variable {F : FTy → Type} [FloatOps F]

/-! ## Folding a concatenation -/

/-- Folding two runs one after the other is folding their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What a stage writes, and what it therefore keeps -/

/-- The 26 buffers the stage of column 7 writes. -/
def wr7 : List (Ref sig .tc) := [main_v0, main_v1, main_v2, main_cst, main_v3, main_v4, main_v5, main_v6, main_v7, main_cst_0, main_v8, main_v9, main_v10, main_v11, main_cst_1, main_v12, main_v13, main_v14, main_v15, main_v16, main_v17, main_v18, main_v19, main_v20, main_v21, main_v22]
/-- The 26 buffers the stage of column 6 writes. -/
def wr6 : List (Ref sig .tc) := [main_v23, main_v24, main_v25, main_cst_2, main_v26, main_v27, main_v28, main_v29, main_v30, main_cst_3, main_v31, main_v32, main_v33, main_v34, main_cst_4, main_v35, main_v36, main_v37, main_v38, main_v39, main_v40, main_v41, main_v42, main_v43, main_v44, main_v45]
/-- The 26 buffers the stage of column 5 writes. -/
def wr5 : List (Ref sig .tc) := [main_v46, main_v47, main_v48, main_cst_5, main_v49, main_v50, main_v51, main_v52, main_v53, main_cst_6, main_v54, main_v55, main_v56, main_v57, main_cst_7, main_v58, main_v59, main_v60, main_v61, main_v62, main_v63, main_v64, main_v65, main_v66, main_v67, main_v68]
/-- The 26 buffers the stage of column 4 writes. -/
def wr4 : List (Ref sig .tc) := [main_v69, main_v70, main_v71, main_cst_8, main_v72, main_v73, main_v74, main_v75, main_v76, main_cst_9, main_v77, main_v78, main_v79, main_v80, main_cst_10, main_v81, main_v82, main_v83, main_v84, main_v85, main_v86, main_v87, main_v88, main_v89, main_v90, main_v91]
/-- The 26 buffers the stage of column 3 writes. -/
def wr3 : List (Ref sig .tc) := [main_v92, main_v93, main_v94, main_cst_11, main_v95, main_v96, main_v97, main_v98, main_v99, main_cst_12, main_v100, main_v101, main_v102, main_v103, main_cst_13, main_v104, main_v105, main_v106, main_v107, main_v108, main_v109, main_v110, main_v111, main_v112, main_v113, main_v114]
/-- The 26 buffers the stage of column 2 writes. -/
def wr2 : List (Ref sig .tc) := [main_v115, main_v116, main_v117, main_cst_14, main_v118, main_v119, main_v120, main_v121, main_v122, main_cst_15, main_v123, main_v124, main_v125, main_v126, main_cst_16, main_v127, main_v128, main_v129, main_v130, main_v131, main_v132, main_v133, main_v134, main_v135, main_v136, main_v137]
/-- The 26 buffers the stage of column 1 writes. -/
def wr1 : List (Ref sig .tc) := [main_v138, main_v139, main_v140, main_cst_17, main_v141, main_v142, main_v143, main_v144, main_v145, main_cst_18, main_v146, main_v147, main_v148, main_v149, main_cst_19, main_v150, main_v151, main_v152, main_v153, main_v154, main_v155, main_v156, main_v157, main_v158, main_v159, main_v160]
/-- The 26 buffers the stage of column 0 writes. -/
def wr0 : List (Ref sig .tc) := [main_v161, main_v162, main_v163, main_cst_20, main_v164, main_v165, main_v166, main_v167, main_v168, main_cst_21, main_v169, main_v170, main_v171, main_v172, main_cst_22, main_v173, main_v174, main_v175, main_v176, main_v177, main_v178, main_v179, main_v180, main_v181, main_v182, main_v183]

/-- A reference the stage of column k does not write keeps its contents over that stage. -/
theorem kept7 (W : Valuation τ sig (Elt F)) {r : Ref sig .tc} (hr : r ∉ wr7) :
    after (opsSt7 (F := F)) W (Proc.devRef .tc r) = W (Proc.devRef .tc r) :=
  after_of_writes_sub _ W (by simp [wr7]) hr
theorem kept6 (W : Valuation τ sig (Elt F)) {r : Ref sig .tc} (hr : r ∉ wr6) :
    after (opsSt6 (F := F)) W (Proc.devRef .tc r) = W (Proc.devRef .tc r) :=
  after_of_writes_sub _ W (by simp [wr6]) hr
theorem kept5 (W : Valuation τ sig (Elt F)) {r : Ref sig .tc} (hr : r ∉ wr5) :
    after (opsSt5 (F := F)) W (Proc.devRef .tc r) = W (Proc.devRef .tc r) :=
  after_of_writes_sub _ W (by simp [wr5]) hr
theorem kept4 (W : Valuation τ sig (Elt F)) {r : Ref sig .tc} (hr : r ∉ wr4) :
    after (opsSt4 (F := F)) W (Proc.devRef .tc r) = W (Proc.devRef .tc r) :=
  after_of_writes_sub _ W (by simp [wr4]) hr
theorem kept3 (W : Valuation τ sig (Elt F)) {r : Ref sig .tc} (hr : r ∉ wr3) :
    after (opsSt3 (F := F)) W (Proc.devRef .tc r) = W (Proc.devRef .tc r) :=
  after_of_writes_sub _ W (by simp [wr3]) hr
theorem kept2 (W : Valuation τ sig (Elt F)) {r : Ref sig .tc} (hr : r ∉ wr2) :
    after (opsSt2 (F := F)) W (Proc.devRef .tc r) = W (Proc.devRef .tc r) :=
  after_of_writes_sub _ W (by simp [wr2]) hr
theorem kept1 (W : Valuation τ sig (Elt F)) {r : Ref sig .tc} (hr : r ∉ wr1) :
    after (opsSt1 (F := F)) W (Proc.devRef .tc r) = W (Proc.devRef .tc r) :=
  after_of_writes_sub _ W (by simp [wr1]) hr
theorem kept0 (W : Valuation τ sig (Elt F)) {r : Ref sig .tc} (hr : r ∉ wr0) :
    after (opsSt0 (F := F)) W (Proc.devRef .tc r) = W (Proc.devRef .tc r) :=
  after_of_writes_sub _ W (by simp [wr0]) hr

/-! ## One stage on an arbitrary valuation

The 26 operations of a stage spell, operation for operation, the borrow `vBorrow one a b c` and the difference
`vDiff two a b c` of the column slices `a`, `b` of the two arguments and of the borrow column `c` the stage finds. -/

set_option maxHeartbeats 2000000 in
theorem st7 (W : Valuation τ sig (Elt F)) :
    after (opsSt7 (F := F)) W (Proc.devRef .tc main_v22)
        = vBorrow one (col7 (W (Proc.devRef .tc main_arg0))) (col7 (W (Proc.devRef .tc main_arg1))) (W (Proc.devRef .tc main_arg2))
    ∧ after (opsSt7 (F := F)) W (Proc.devRef .tc main_v11)
        = vDiff two (col7 (W (Proc.devRef .tc main_arg0))) (col7 (W (Proc.devRef .tc main_arg1))) (W (Proc.devRef .tc main_arg2)) := by
  constructor
  · after_results_simp; rfl
  · after_results_simp; rfl

set_option maxHeartbeats 2000000 in
theorem st6 (W : Valuation τ sig (Elt F)) :
    after (opsSt6 (F := F)) W (Proc.devRef .tc main_v45)
        = vBorrow one (col6 (W (Proc.devRef .tc main_arg0))) (col6 (W (Proc.devRef .tc main_arg1))) (W (Proc.devRef .tc main_v22))
    ∧ after (opsSt6 (F := F)) W (Proc.devRef .tc main_v34)
        = vDiff two (col6 (W (Proc.devRef .tc main_arg0))) (col6 (W (Proc.devRef .tc main_arg1))) (W (Proc.devRef .tc main_v22)) := by
  constructor
  · after_results_simp; rfl
  · after_results_simp; rfl

set_option maxHeartbeats 2000000 in
theorem st5 (W : Valuation τ sig (Elt F)) :
    after (opsSt5 (F := F)) W (Proc.devRef .tc main_v68)
        = vBorrow one (col5 (W (Proc.devRef .tc main_arg0))) (col5 (W (Proc.devRef .tc main_arg1))) (W (Proc.devRef .tc main_v45))
    ∧ after (opsSt5 (F := F)) W (Proc.devRef .tc main_v57)
        = vDiff two (col5 (W (Proc.devRef .tc main_arg0))) (col5 (W (Proc.devRef .tc main_arg1))) (W (Proc.devRef .tc main_v45)) := by
  constructor
  · after_results_simp; rfl
  · after_results_simp; rfl

set_option maxHeartbeats 2000000 in
theorem st4 (W : Valuation τ sig (Elt F)) :
    after (opsSt4 (F := F)) W (Proc.devRef .tc main_v91)
        = vBorrow one (col4 (W (Proc.devRef .tc main_arg0))) (col4 (W (Proc.devRef .tc main_arg1))) (W (Proc.devRef .tc main_v68))
    ∧ after (opsSt4 (F := F)) W (Proc.devRef .tc main_v80)
        = vDiff two (col4 (W (Proc.devRef .tc main_arg0))) (col4 (W (Proc.devRef .tc main_arg1))) (W (Proc.devRef .tc main_v68)) := by
  constructor
  · after_results_simp; rfl
  · after_results_simp; rfl

set_option maxHeartbeats 2000000 in
theorem st3 (W : Valuation τ sig (Elt F)) :
    after (opsSt3 (F := F)) W (Proc.devRef .tc main_v114)
        = vBorrow one (col3 (W (Proc.devRef .tc main_arg0))) (col3 (W (Proc.devRef .tc main_arg1))) (W (Proc.devRef .tc main_v91))
    ∧ after (opsSt3 (F := F)) W (Proc.devRef .tc main_v103)
        = vDiff two (col3 (W (Proc.devRef .tc main_arg0))) (col3 (W (Proc.devRef .tc main_arg1))) (W (Proc.devRef .tc main_v91)) := by
  constructor
  · after_results_simp; rfl
  · after_results_simp; rfl

set_option maxHeartbeats 2000000 in
theorem st2 (W : Valuation τ sig (Elt F)) :
    after (opsSt2 (F := F)) W (Proc.devRef .tc main_v137)
        = vBorrow one (col2 (W (Proc.devRef .tc main_arg0))) (col2 (W (Proc.devRef .tc main_arg1))) (W (Proc.devRef .tc main_v114))
    ∧ after (opsSt2 (F := F)) W (Proc.devRef .tc main_v126)
        = vDiff two (col2 (W (Proc.devRef .tc main_arg0))) (col2 (W (Proc.devRef .tc main_arg1))) (W (Proc.devRef .tc main_v114)) := by
  constructor
  · after_results_simp; rfl
  · after_results_simp; rfl

set_option maxHeartbeats 2000000 in
theorem st1 (W : Valuation τ sig (Elt F)) :
    after (opsSt1 (F := F)) W (Proc.devRef .tc main_v160)
        = vBorrow one (col1 (W (Proc.devRef .tc main_arg0))) (col1 (W (Proc.devRef .tc main_arg1))) (W (Proc.devRef .tc main_v137))
    ∧ after (opsSt1 (F := F)) W (Proc.devRef .tc main_v149)
        = vDiff two (col1 (W (Proc.devRef .tc main_arg0))) (col1 (W (Proc.devRef .tc main_arg1))) (W (Proc.devRef .tc main_v137)) := by
  constructor
  · after_results_simp; rfl
  · after_results_simp; rfl

set_option maxHeartbeats 2000000 in
theorem st0 (W : Valuation τ sig (Elt F)) :
    after (opsSt0 (F := F)) W (Proc.devRef .tc main_v183)
        = vBorrow one (col0 (W (Proc.devRef .tc main_arg0))) (col0 (W (Proc.devRef .tc main_arg1))) (W (Proc.devRef .tc main_v160))
    ∧ after (opsSt0 (F := F)) W (Proc.devRef .tc main_v172)
        = vDiff two (col0 (W (Proc.devRef .tc main_arg0))) (col0 (W (Proc.devRef .tc main_arg1))) (W (Proc.devRef .tc main_v160)) := by
  constructor
  · after_results_simp; rfl
  · after_results_simp; rfl

/-! ## The invariant, one column at a time

`Inv k A B Bin W`: on the valuation `W` the three arguments are `A`, `B`, `Bin`, the borrow buffer of column k holds
`B k`, and the difference buffers of columns k … 7 hold `D k` … `D 7`. -/

section Invariant

variable (A B : FVec F S8388608x8 .f32) (Bin : FVec F S8388608x1 .f32)

def Inv7 (W : Valuation τ sig (Elt F)) : Prop :=
  W (Proc.devRef .tc main_arg0) = A ∧ W (Proc.devRef .tc main_arg1) = B ∧ W (Proc.devRef .tc main_arg2) = Bin
  ∧ W (Proc.devRef .tc main_v22) = B7 A B Bin
  ∧ W (Proc.devRef .tc main_v11) = D7 A B Bin
def Inv6 (W : Valuation τ sig (Elt F)) : Prop :=
  W (Proc.devRef .tc main_arg0) = A ∧ W (Proc.devRef .tc main_arg1) = B ∧ W (Proc.devRef .tc main_arg2) = Bin
  ∧ W (Proc.devRef .tc main_v45) = B6 A B Bin
  ∧ W (Proc.devRef .tc main_v34) = D6 A B Bin ∧ W (Proc.devRef .tc main_v11) = D7 A B Bin
def Inv5 (W : Valuation τ sig (Elt F)) : Prop :=
  W (Proc.devRef .tc main_arg0) = A ∧ W (Proc.devRef .tc main_arg1) = B ∧ W (Proc.devRef .tc main_arg2) = Bin
  ∧ W (Proc.devRef .tc main_v68) = B5 A B Bin
  ∧ W (Proc.devRef .tc main_v57) = D5 A B Bin ∧ W (Proc.devRef .tc main_v34) = D6 A B Bin
  ∧ W (Proc.devRef .tc main_v11) = D7 A B Bin
def Inv4 (W : Valuation τ sig (Elt F)) : Prop :=
  W (Proc.devRef .tc main_arg0) = A ∧ W (Proc.devRef .tc main_arg1) = B ∧ W (Proc.devRef .tc main_arg2) = Bin
  ∧ W (Proc.devRef .tc main_v91) = B4 A B Bin
  ∧ W (Proc.devRef .tc main_v80) = D4 A B Bin ∧ W (Proc.devRef .tc main_v57) = D5 A B Bin
  ∧ W (Proc.devRef .tc main_v34) = D6 A B Bin ∧ W (Proc.devRef .tc main_v11) = D7 A B Bin
def Inv3 (W : Valuation τ sig (Elt F)) : Prop :=
  W (Proc.devRef .tc main_arg0) = A ∧ W (Proc.devRef .tc main_arg1) = B ∧ W (Proc.devRef .tc main_arg2) = Bin
  ∧ W (Proc.devRef .tc main_v114) = B3 A B Bin
  ∧ W (Proc.devRef .tc main_v103) = D3 A B Bin ∧ W (Proc.devRef .tc main_v80) = D4 A B Bin
  ∧ W (Proc.devRef .tc main_v57) = D5 A B Bin ∧ W (Proc.devRef .tc main_v34) = D6 A B Bin
  ∧ W (Proc.devRef .tc main_v11) = D7 A B Bin
def Inv2 (W : Valuation τ sig (Elt F)) : Prop :=
  W (Proc.devRef .tc main_arg0) = A ∧ W (Proc.devRef .tc main_arg1) = B ∧ W (Proc.devRef .tc main_arg2) = Bin
  ∧ W (Proc.devRef .tc main_v137) = B2 A B Bin
  ∧ W (Proc.devRef .tc main_v126) = D2 A B Bin ∧ W (Proc.devRef .tc main_v103) = D3 A B Bin
  ∧ W (Proc.devRef .tc main_v80) = D4 A B Bin ∧ W (Proc.devRef .tc main_v57) = D5 A B Bin
  ∧ W (Proc.devRef .tc main_v34) = D6 A B Bin ∧ W (Proc.devRef .tc main_v11) = D7 A B Bin
def Inv1 (W : Valuation τ sig (Elt F)) : Prop :=
  W (Proc.devRef .tc main_arg0) = A ∧ W (Proc.devRef .tc main_arg1) = B ∧ W (Proc.devRef .tc main_arg2) = Bin
  ∧ W (Proc.devRef .tc main_v160) = B1 A B Bin
  ∧ W (Proc.devRef .tc main_v149) = D1 A B Bin ∧ W (Proc.devRef .tc main_v126) = D2 A B Bin
  ∧ W (Proc.devRef .tc main_v103) = D3 A B Bin ∧ W (Proc.devRef .tc main_v80) = D4 A B Bin
  ∧ W (Proc.devRef .tc main_v57) = D5 A B Bin ∧ W (Proc.devRef .tc main_v34) = D6 A B Bin
  ∧ W (Proc.devRef .tc main_v11) = D7 A B Bin
def Inv0 (W : Valuation τ sig (Elt F)) : Prop :=
  W (Proc.devRef .tc main_arg0) = A ∧ W (Proc.devRef .tc main_arg1) = B ∧ W (Proc.devRef .tc main_arg2) = Bin
  ∧ W (Proc.devRef .tc main_v183) = B0 A B Bin
  ∧ W (Proc.devRef .tc main_v172) = D0 A B Bin ∧ W (Proc.devRef .tc main_v149) = D1 A B Bin
  ∧ W (Proc.devRef .tc main_v126) = D2 A B Bin ∧ W (Proc.devRef .tc main_v103) = D3 A B Bin
  ∧ W (Proc.devRef .tc main_v80) = D4 A B Bin ∧ W (Proc.devRef .tc main_v57) = D5 A B Bin
  ∧ W (Proc.devRef .tc main_v34) = D6 A B Bin ∧ W (Proc.devRef .tc main_v11) = D7 A B Bin

/-- The stage of column 7 establishes the invariant from any valuation, at that valuation's own arguments. -/
theorem inv7 (V : Valuation τ sig (Elt F)) :
    Inv7 (V (Proc.devRef .tc main_arg0)) (V (Proc.devRef .tc main_arg1)) (V (Proc.devRef .tc main_arg2))
      (after (opsSt7 (F := F)) V) := by
  obtain ⟨eb, ed⟩ := st7 V
  exact ⟨kept7 V (by decide), kept7 V (by decide), kept7 V (by decide), eb, ed⟩

variable {A B Bin}

/-- The stage of column k carries the invariant of column k + 1 to that of column k: it reads the arguments and the
    borrow of column k + 1 where the invariant says they are, and writes none of the buffers the invariant names. -/
theorem inv6 {W : Valuation τ sig (Elt F)} (h : Inv7 A B Bin W) : Inv6 A B Bin (after (opsSt6 (F := F)) W) := by
  obtain ⟨h0, h1, h2, hb, hd7⟩ := h
  obtain ⟨eb, ed⟩ := st6 W
  refine ⟨(kept6 W (by decide)).trans h0, (kept6 W (by decide)).trans h1, (kept6 W (by decide)).trans h2, ?_, ?_,
    (kept6 W (by decide)).trans hd7⟩
  · rw [eb, h0, h1, hb, B6]
  · rw [ed, h0, h1, hb, D6]

theorem inv5 {W : Valuation τ sig (Elt F)} (h : Inv6 A B Bin W) : Inv5 A B Bin (after (opsSt5 (F := F)) W) := by
  obtain ⟨h0, h1, h2, hb, hd6, hd7⟩ := h
  obtain ⟨eb, ed⟩ := st5 W
  refine ⟨(kept5 W (by decide)).trans h0, (kept5 W (by decide)).trans h1, (kept5 W (by decide)).trans h2, ?_, ?_,
    (kept5 W (by decide)).trans hd6, (kept5 W (by decide)).trans hd7⟩
  · rw [eb, h0, h1, hb, B5]
  · rw [ed, h0, h1, hb, D5]

theorem inv4 {W : Valuation τ sig (Elt F)} (h : Inv5 A B Bin W) : Inv4 A B Bin (after (opsSt4 (F := F)) W) := by
  obtain ⟨h0, h1, h2, hb, hd5, hd6, hd7⟩ := h
  obtain ⟨eb, ed⟩ := st4 W
  refine ⟨(kept4 W (by decide)).trans h0, (kept4 W (by decide)).trans h1, (kept4 W (by decide)).trans h2, ?_, ?_,
    (kept4 W (by decide)).trans hd5, (kept4 W (by decide)).trans hd6, (kept4 W (by decide)).trans hd7⟩
  · rw [eb, h0, h1, hb, B4]
  · rw [ed, h0, h1, hb, D4]

theorem inv3 {W : Valuation τ sig (Elt F)} (h : Inv4 A B Bin W) : Inv3 A B Bin (after (opsSt3 (F := F)) W) := by
  obtain ⟨h0, h1, h2, hb, hd4, hd5, hd6, hd7⟩ := h
  obtain ⟨eb, ed⟩ := st3 W
  refine ⟨(kept3 W (by decide)).trans h0, (kept3 W (by decide)).trans h1, (kept3 W (by decide)).trans h2, ?_, ?_,
    (kept3 W (by decide)).trans hd4, (kept3 W (by decide)).trans hd5, (kept3 W (by decide)).trans hd6,
    (kept3 W (by decide)).trans hd7⟩
  · rw [eb, h0, h1, hb, B3]
  · rw [ed, h0, h1, hb, D3]

theorem inv2 {W : Valuation τ sig (Elt F)} (h : Inv3 A B Bin W) : Inv2 A B Bin (after (opsSt2 (F := F)) W) := by
  obtain ⟨h0, h1, h2, hb, hd3, hd4, hd5, hd6, hd7⟩ := h
  obtain ⟨eb, ed⟩ := st2 W
  refine ⟨(kept2 W (by decide)).trans h0, (kept2 W (by decide)).trans h1, (kept2 W (by decide)).trans h2, ?_, ?_,
    (kept2 W (by decide)).trans hd3, (kept2 W (by decide)).trans hd4, (kept2 W (by decide)).trans hd5,
    (kept2 W (by decide)).trans hd6, (kept2 W (by decide)).trans hd7⟩
  · rw [eb, h0, h1, hb, B2]
  · rw [ed, h0, h1, hb, D2]

theorem inv1 {W : Valuation τ sig (Elt F)} (h : Inv2 A B Bin W) : Inv1 A B Bin (after (opsSt1 (F := F)) W) := by
  obtain ⟨h0, h1, h2, hb, hd2, hd3, hd4, hd5, hd6, hd7⟩ := h
  obtain ⟨eb, ed⟩ := st1 W
  refine ⟨(kept1 W (by decide)).trans h0, (kept1 W (by decide)).trans h1, (kept1 W (by decide)).trans h2, ?_, ?_,
    (kept1 W (by decide)).trans hd2, (kept1 W (by decide)).trans hd3, (kept1 W (by decide)).trans hd4,
    (kept1 W (by decide)).trans hd5, (kept1 W (by decide)).trans hd6, (kept1 W (by decide)).trans hd7⟩
  · rw [eb, h0, h1, hb, B1]
  · rw [ed, h0, h1, hb, D1]

theorem inv0 {W : Valuation τ sig (Elt F)} (h : Inv1 A B Bin W) : Inv0 A B Bin (after (opsSt0 (F := F)) W) := by
  obtain ⟨h0, h1, h2, hb, hd1, hd2, hd3, hd4, hd5, hd6, hd7⟩ := h
  obtain ⟨eb, ed⟩ := st0 W
  refine ⟨(kept0 W (by decide)).trans h0, (kept0 W (by decide)).trans h1, (kept0 W (by decide)).trans h2, ?_, ?_,
    (kept0 W (by decide)).trans hd1, (kept0 W (by decide)).trans hd2, (kept0 W (by decide)).trans hd3,
    (kept0 W (by decide)).trans hd4, (kept0 W (by decide)).trans hd5, (kept0 W (by decide)).trans hd6,
    (kept0 W (by decide)).trans hd7⟩
  · rw [eb, h0, h1, hb, B0]
  · rw [ed, h0, h1, hb, D0]

end Invariant

/-! ## The eight stages together, and the closing concatenate -/

/-- The buffers once the eight stages have run, column 7 first. -/
def run8 (V : Valuation τ sig (Elt F)) : Valuation τ sig (Elt F) :=
  after opsSt0 (after opsSt1 (after opsSt2 (after opsSt3 (after opsSt4 (after opsSt5 (after opsSt6 (after opsSt7 V)))))))

/-- The whole fold is the concatenate's fold over the eight stages' fold. -/
theorem after_ops (V : Valuation τ sig (Elt F)) : after (ops (F := F)) V = after opsCat (run8 V) := by
  simp only [ops, after_app, run8]

/-- After the eight stages the invariant of column 0 holds at the initial arguments. -/
theorem run8_inv (V : Valuation τ sig (Elt F)) :
    Inv0 (V (Proc.devRef .tc main_arg0)) (V (Proc.devRef .tc main_arg1)) (V (Proc.devRef .tc main_arg2)) (run8 V) :=
  inv0 (inv1 (inv2 (inv3 (inv4 (inv5 (inv6 (inv7 V)))))))

/-- The concatenate writes only its own result buffer. -/
theorem cat_arg0 (W : Valuation τ sig (Elt F)) :
    after (opsCat (F := F)) W (Proc.devRef .tc main_arg0) = W (Proc.devRef .tc main_arg0) := by after_results_simp
theorem cat_arg1 (W : Valuation τ sig (Elt F)) :
    after (opsCat (F := F)) W (Proc.devRef .tc main_arg1) = W (Proc.devRef .tc main_arg1) := by after_results_simp
theorem cat_arg2 (W : Valuation τ sig (Elt F)) :
    after (opsCat (F := F)) W (Proc.devRef .tc main_arg2) = W (Proc.devRef .tc main_arg2) := by after_results_simp
theorem cat_v183 (W : Valuation τ sig (Elt F)) :
    after (opsCat (F := F)) W (Proc.devRef .tc main_v183) = W (Proc.devRef .tc main_v183) := by after_results_simp

/-- The concatenate's result buffer holds the eight difference buffers side by side, column 0 first. -/
theorem cat_v184 (W : Valuation τ sig (Elt F)) :
    after (opsCat (F := F)) W (Proc.devRef .tc main_v184)
      = concatenate S8388608x8 1 [⟨S8388608x1, W (Proc.devRef .tc main_v172)⟩, ⟨S8388608x1, W (Proc.devRef .tc main_v149)⟩, ⟨S8388608x1, W (Proc.devRef .tc main_v126)⟩, ⟨S8388608x1, W (Proc.devRef .tc main_v103)⟩, ⟨S8388608x1, W (Proc.devRef .tc main_v80)⟩, ⟨S8388608x1, W (Proc.devRef .tc main_v57)⟩, ⟨S8388608x1, W (Proc.devRef .tc main_v34)⟩, ⟨S8388608x1, W (Proc.devRef .tc main_v11)⟩] concatenates_S8388608x1_S8388608x1_S8388608x1_S8388608x1_S8388608x1_S8388608x1_S8388608x1_S8388608x1_S8388608x8_d1 := by
  simp only [after_cons, after_nil]
  rw [nary_result]
  rfl

/-! ## The five results -/

/-- The final borrow buffer holds the borrow column leaving bit 0. -/
theorem after_v183 (V : Valuation τ sig (Elt F)) :
    after (ops (F := F)) V (Proc.devRef .tc main_v183)
      = B0 (V (Proc.devRef .tc main_arg0)) (V (Proc.devRef .tc main_arg1)) (V (Proc.devRef .tc main_arg2)) := by
  rw [after_ops, cat_v183]
  exact (run8_inv V).2.2.2.1

/-- The concatenated buffer holds the eight difference columns side by side. -/
theorem after_v184 (V : Valuation τ sig (Elt F)) :
    after (ops (F := F)) V (Proc.devRef .tc main_v184)
      = Dcat (V (Proc.devRef .tc main_arg0)) (V (Proc.devRef .tc main_arg1)) (V (Proc.devRef .tc main_arg2)) := by
  obtain ⟨-, -, -, -, hd0, hd1, hd2, hd3, hd4, hd5, hd6, hd7⟩ := run8_inv V
  rw [after_ops, cat_v184, hd0, hd1, hd2, hd3, hd4, hd5, hd6, hd7, Dcat]

/-- No operation writes an argument. -/
theorem after_arg0 (V : Valuation τ sig (Elt F)) : after (ops (F := F)) V (Proc.devRef .tc main_arg0) = V (Proc.devRef .tc main_arg0) := by
  rw [after_ops, cat_arg0]
  exact (run8_inv V).1
theorem after_arg1 (V : Valuation τ sig (Elt F)) : after (ops (F := F)) V (Proc.devRef .tc main_arg1) = V (Proc.devRef .tc main_arg1) := by
  rw [after_ops, cat_arg1]
  exact (run8_inv V).2.1
theorem after_arg2 (V : Valuation τ sig (Elt F)) : after (ops (F := F)) V (Proc.devRef .tc main_arg2) = V (Proc.devRef .tc main_arg2) := by
  rw [after_ops, cat_arg2]
  exact (run8_inv V).2.2.1

end Cert.ReferenceIdeal.RefStages

end
-- ==== Proof.RefIndex.lean ====
/-
  The whole-column stage chain read entry by entry: entry (r, 0) of the borrow column leaving bit 0 is the scalar
  chain on row r, and entry (r, k) of the eight difference columns laid side by side is the difference bit of
  column k of row r. A column slice reads the array at that column, the broadcast constants read 2 and 1, and a
  vector stage reads lane by lane.
-/
import proofs.«158708_j23407571764121_1_alg».proof.Proof.RefVec
import Idealize.ShloMosaic.Lib.Pipeline.Value
import Idealize.ShloMosaic.Lib.ValueLayout
import Idealize.ShloMosaic.Lib.IdealHost

noncomputable section

namespace Cert.ReferenceIdeal.RefIndex

open Cert.ReferenceIdeal Cert.ReferenceIdeal.Gen Idealize.ShloMosaic Idealize.ShloMosaic.ValueIdx
open Cert.Sub8 Cert.ReferenceIdeal.RefVec

variable {F : FTy → Type} [FloatOps F]

/-! ## The constants and the column slices at an entry

A scalar broadcast to N×1 reads the scalar at every entry, and the scalar is the constant's bit pattern as the float
family reads it. Column k of an N×8 array, cut out as an N×1 array, reads at (r, 0) the array at (r, k): the cut
starts at column k and the entry's own column coordinate is 0. -/

theorem two_apply (r : Fin 8388608) : (two : FVec F S8388608x1 .f32) (ix2 r 0) = cTwo := by
  unfold two
  rw [broadcastInDim_scalar_apply]
  rfl

theorem one_apply (r : Fin 8388608) : (one : FVec F S8388608x1 .f32) (ix2 r 0) = cOne := by
  unfold one
  rw [broadcastInDim_scalar_apply]
  rfl

theorem col7_apply (X : FVec F S8388608x8 .f32) (r : Fin 8388608) :
    col7 X (ix2 r 0) = X (ix2 r (7 : Fin 8)) := by
  unfold col7
  exact slice2_axis1_apply 7 X _ r 0 7 rfl

theorem col6_apply (X : FVec F S8388608x8 .f32) (r : Fin 8388608) :
    col6 X (ix2 r 0) = X (ix2 r (6 : Fin 8)) := by
  unfold col6
  exact slice2_axis1_apply 6 X _ r 0 6 rfl

theorem col5_apply (X : FVec F S8388608x8 .f32) (r : Fin 8388608) :
    col5 X (ix2 r 0) = X (ix2 r (5 : Fin 8)) := by
  unfold col5
  exact slice2_axis1_apply 5 X _ r 0 5 rfl

theorem col4_apply (X : FVec F S8388608x8 .f32) (r : Fin 8388608) :
    col4 X (ix2 r 0) = X (ix2 r (4 : Fin 8)) := by
  unfold col4
  exact slice2_axis1_apply 4 X _ r 0 4 rfl

theorem col3_apply (X : FVec F S8388608x8 .f32) (r : Fin 8388608) :
    col3 X (ix2 r 0) = X (ix2 r (3 : Fin 8)) := by
  unfold col3
  exact slice2_axis1_apply 3 X _ r 0 3 rfl

theorem col2_apply (X : FVec F S8388608x8 .f32) (r : Fin 8388608) :
    col2 X (ix2 r 0) = X (ix2 r (2 : Fin 8)) := by
  unfold col2
  exact slice2_axis1_apply 2 X _ r 0 2 rfl

theorem col1_apply (X : FVec F S8388608x8 .f32) (r : Fin 8388608) :
    col1 X (ix2 r 0) = X (ix2 r (1 : Fin 8)) := by
  unfold col1
  exact slice2_axis1_apply 1 X _ r 0 1 rfl

theorem col0_apply (X : FVec F S8388608x8 .f32) (r : Fin 8388608) :
    col0 X (ix2 r 0) = X (ix2 r (0 : Fin 8)) := by
  unfold col0
  exact slice2_axis1_apply 0 X _ r 0 0 rfl

section Chain
variable (A B : FVec F S8388608x8 .f32) (Bin : FVec F S8388608x1 .f32)

/-! ## The borrow columns at an entry

Entry (r, 0) of the borrow column leaving bit k is the scalar borrow leaving column k of row r. Each step opens one
stage only: the vector stage reads lane by lane, its constant reads 1, its two slices read row r at column k, and its
incoming borrow is the previous step's statement; the stage function itself stays folded. -/

theorem B7_apply (r : Fin 8388608) :
    B7 A B Bin (ix2 r 0) = bor7 cOne (rowOf A r) (rowOf B r) (Bin (ix2 r 0)) := by
  unfold B7 bor7
  rw [vBorrow_apply, one_apply, col7_apply, col7_apply]
  rfl

theorem B6_apply (r : Fin 8388608) :
    B6 A B Bin (ix2 r 0) = bor6 cOne (rowOf A r) (rowOf B r) (Bin (ix2 r 0)) := by
  unfold B6 bor6
  rw [vBorrow_apply, one_apply, col6_apply, col6_apply, B7_apply]
  rfl

theorem B5_apply (r : Fin 8388608) :
    B5 A B Bin (ix2 r 0) = bor5 cOne (rowOf A r) (rowOf B r) (Bin (ix2 r 0)) := by
  unfold B5 bor5
  rw [vBorrow_apply, one_apply, col5_apply, col5_apply, B6_apply]
  rfl

theorem B4_apply (r : Fin 8388608) :
    B4 A B Bin (ix2 r 0) = bor4 cOne (rowOf A r) (rowOf B r) (Bin (ix2 r 0)) := by
  unfold B4 bor4
  rw [vBorrow_apply, one_apply, col4_apply, col4_apply, B5_apply]
  rfl

theorem B3_apply (r : Fin 8388608) :
    B3 A B Bin (ix2 r 0) = bor3 cOne (rowOf A r) (rowOf B r) (Bin (ix2 r 0)) := by
  unfold B3 bor3
  rw [vBorrow_apply, one_apply, col3_apply, col3_apply, B4_apply]
  rfl

theorem B2_apply (r : Fin 8388608) :
    B2 A B Bin (ix2 r 0) = bor2 cOne (rowOf A r) (rowOf B r) (Bin (ix2 r 0)) := by
  unfold B2 bor2
  rw [vBorrow_apply, one_apply, col2_apply, col2_apply, B3_apply]
  rfl

theorem B1_apply (r : Fin 8388608) :
    B1 A B Bin (ix2 r 0) = bor1 cOne (rowOf A r) (rowOf B r) (Bin (ix2 r 0)) := by
  unfold B1 bor1
  rw [vBorrow_apply, one_apply, col1_apply, col1_apply, B2_apply]
  rfl

theorem B0_apply (r : Fin 8388608) :
    B0 A B Bin (ix2 r 0) = bor0 cOne (rowOf A r) (rowOf B r) (Bin (ix2 r 0)) := by
  unfold B0 bor0
  rw [vBorrow_apply, one_apply, col0_apply, col0_apply, B1_apply]
  rfl

/-! ## The difference columns at an entry

Entry (r, 0) of the difference column of bit k is the difference stage on row r's column k at the borrow leaving
column k + 1 (the incoming borrow for k = 7). -/

theorem D7_apply (r : Fin 8388608) :
    D7 A B Bin (ix2 r 0) = sDiff cTwo (A (ix2 r (7 : Fin 8))) (B (ix2 r (7 : Fin 8))) (Bin (ix2 r 0)) := by
  unfold D7
  rw [vDiff_apply, two_apply, col7_apply, col7_apply]

theorem D6_apply (r : Fin 8388608) :
    D6 A B Bin (ix2 r 0) = sDiff cTwo (A (ix2 r (6 : Fin 8))) (B (ix2 r (6 : Fin 8))) (bor7 cOne (rowOf A r) (rowOf B r) (Bin (ix2 r 0))) := by
  unfold D6
  rw [vDiff_apply, two_apply, col6_apply, col6_apply, B7_apply]

theorem D5_apply (r : Fin 8388608) :
    D5 A B Bin (ix2 r 0) = sDiff cTwo (A (ix2 r (5 : Fin 8))) (B (ix2 r (5 : Fin 8))) (bor6 cOne (rowOf A r) (rowOf B r) (Bin (ix2 r 0))) := by
  unfold D5
  rw [vDiff_apply, two_apply, col5_apply, col5_apply, B6_apply]

theorem D4_apply (r : Fin 8388608) :
    D4 A B Bin (ix2 r 0) = sDiff cTwo (A (ix2 r (4 : Fin 8))) (B (ix2 r (4 : Fin 8))) (bor5 cOne (rowOf A r) (rowOf B r) (Bin (ix2 r 0))) := by
  unfold D4
  rw [vDiff_apply, two_apply, col4_apply, col4_apply, B5_apply]

theorem D3_apply (r : Fin 8388608) :
    D3 A B Bin (ix2 r 0) = sDiff cTwo (A (ix2 r (3 : Fin 8))) (B (ix2 r (3 : Fin 8))) (bor4 cOne (rowOf A r) (rowOf B r) (Bin (ix2 r 0))) := by
  unfold D3
  rw [vDiff_apply, two_apply, col3_apply, col3_apply, B4_apply]

theorem D2_apply (r : Fin 8388608) :
    D2 A B Bin (ix2 r 0) = sDiff cTwo (A (ix2 r (2 : Fin 8))) (B (ix2 r (2 : Fin 8))) (bor3 cOne (rowOf A r) (rowOf B r) (Bin (ix2 r 0))) := by
  unfold D2
  rw [vDiff_apply, two_apply, col2_apply, col2_apply, B3_apply]

theorem D1_apply (r : Fin 8388608) :
    D1 A B Bin (ix2 r 0) = sDiff cTwo (A (ix2 r (1 : Fin 8))) (B (ix2 r (1 : Fin 8))) (bor2 cOne (rowOf A r) (rowOf B r) (Bin (ix2 r 0))) := by
  unfold D1
  rw [vDiff_apply, two_apply, col1_apply, col1_apply, B2_apply]

theorem D0_apply (r : Fin 8388608) :
    D0 A B Bin (ix2 r 0) = sDiff cTwo (A (ix2 r (0 : Fin 8))) (B (ix2 r (0 : Fin 8))) (bor1 cOne (rowOf A r) (rowOf B r) (Bin (ix2 r 0))) := by
  unfold D0
  rw [vDiff_apply, two_apply, col0_apply, col0_apply, B1_apply]

/-! ## The eight difference columns side by side

Eight pieces of extent 1 along axis 1: entry (r, k) of the concatenation lies in piece k, whose span starts after k
pieces of extent 1, at that piece's entry (r, 0). -/

theorem Dcat_col0 (r : Fin 8388608) : Dcat A B Bin (ix2 r (0 : Fin 8)) = D0 A B Bin (ix2 r 0) := by
  unfold Dcat
  refine concatenate_apply_piece (1 : Fin S8388608x8.rank) _ _ (ix2 r (0 : Fin 8)) 0 (by show (0 : Nat) < 8; decide)
    S8388608x1 (D0 A B Bin) rfl rfl 0 ?hpre (ix2 r 0) ?hi ?ha
  case hpre => rfl
  case hi =>
    intro b hb
    match b, hb with
    | ⟨0, _⟩, _ => rfl
    | ⟨1, _⟩, hb => exact absurd rfl hb
  case ha => rfl

theorem Dcat_col1 (r : Fin 8388608) : Dcat A B Bin (ix2 r (1 : Fin 8)) = D1 A B Bin (ix2 r 0) := by
  unfold Dcat
  refine concatenate_apply_piece (1 : Fin S8388608x8.rank) _ _ (ix2 r (1 : Fin 8)) 1 (by show (1 : Nat) < 8; decide)
    S8388608x1 (D1 A B Bin) rfl rfl 1 ?hpre (ix2 r 0) ?hi ?ha
  case hpre => rfl
  case hi =>
    intro b hb
    match b, hb with
    | ⟨0, _⟩, _ => rfl
    | ⟨1, _⟩, hb => exact absurd rfl hb
  case ha => rfl

theorem Dcat_col2 (r : Fin 8388608) : Dcat A B Bin (ix2 r (2 : Fin 8)) = D2 A B Bin (ix2 r 0) := by
  unfold Dcat
  refine concatenate_apply_piece (1 : Fin S8388608x8.rank) _ _ (ix2 r (2 : Fin 8)) 2 (by show (2 : Nat) < 8; decide)
    S8388608x1 (D2 A B Bin) rfl rfl 2 ?hpre (ix2 r 0) ?hi ?ha
  case hpre => rfl
  case hi =>
    intro b hb
    match b, hb with
    | ⟨0, _⟩, _ => rfl
    | ⟨1, _⟩, hb => exact absurd rfl hb
  case ha => rfl

theorem Dcat_col3 (r : Fin 8388608) : Dcat A B Bin (ix2 r (3 : Fin 8)) = D3 A B Bin (ix2 r 0) := by
  unfold Dcat
  refine concatenate_apply_piece (1 : Fin S8388608x8.rank) _ _ (ix2 r (3 : Fin 8)) 3 (by show (3 : Nat) < 8; decide)
    S8388608x1 (D3 A B Bin) rfl rfl 3 ?hpre (ix2 r 0) ?hi ?ha
  case hpre => rfl
  case hi =>
    intro b hb
    match b, hb with
    | ⟨0, _⟩, _ => rfl
    | ⟨1, _⟩, hb => exact absurd rfl hb
  case ha => rfl

theorem Dcat_col4 (r : Fin 8388608) : Dcat A B Bin (ix2 r (4 : Fin 8)) = D4 A B Bin (ix2 r 0) := by
  unfold Dcat
  refine concatenate_apply_piece (1 : Fin S8388608x8.rank) _ _ (ix2 r (4 : Fin 8)) 4 (by show (4 : Nat) < 8; decide)
    S8388608x1 (D4 A B Bin) rfl rfl 4 ?hpre (ix2 r 0) ?hi ?ha
  case hpre => rfl
  case hi =>
    intro b hb
    match b, hb with
    | ⟨0, _⟩, _ => rfl
    | ⟨1, _⟩, hb => exact absurd rfl hb
  case ha => rfl

theorem Dcat_col5 (r : Fin 8388608) : Dcat A B Bin (ix2 r (5 : Fin 8)) = D5 A B Bin (ix2 r 0) := by
  unfold Dcat
  refine concatenate_apply_piece (1 : Fin S8388608x8.rank) _ _ (ix2 r (5 : Fin 8)) 5 (by show (5 : Nat) < 8; decide)
    S8388608x1 (D5 A B Bin) rfl rfl 5 ?hpre (ix2 r 0) ?hi ?ha
  case hpre => rfl
  case hi =>
    intro b hb
    match b, hb with
    | ⟨0, _⟩, _ => rfl
    | ⟨1, _⟩, hb => exact absurd rfl hb
  case ha => rfl

theorem Dcat_col6 (r : Fin 8388608) : Dcat A B Bin (ix2 r (6 : Fin 8)) = D6 A B Bin (ix2 r 0) := by
  unfold Dcat
  refine concatenate_apply_piece (1 : Fin S8388608x8.rank) _ _ (ix2 r (6 : Fin 8)) 6 (by show (6 : Nat) < 8; decide)
    S8388608x1 (D6 A B Bin) rfl rfl 6 ?hpre (ix2 r 0) ?hi ?ha
  case hpre => rfl
  case hi =>
    intro b hb
    match b, hb with
    | ⟨0, _⟩, _ => rfl
    | ⟨1, _⟩, hb => exact absurd rfl hb
  case ha => rfl

theorem Dcat_col7 (r : Fin 8388608) : Dcat A B Bin (ix2 r (7 : Fin 8)) = D7 A B Bin (ix2 r 0) := by
  unfold Dcat
  refine concatenate_apply_piece (1 : Fin S8388608x8.rank) _ _ (ix2 r (7 : Fin 8)) 7 (by show (7 : Nat) < 8; decide)
    S8388608x1 (D7 A B Bin) rfl rfl 7 ?hpre (ix2 r 0) ?hi ?ha
  case hpre => rfl
  case hi =>
    intro b hb
    match b, hb with
    | ⟨0, _⟩, _ => rfl
    | ⟨1, _⟩, hb => exact absurd rfl hb
  case ha => rfl

/-! ## The specification's difference array at a literal column

At column k the case split of the row's difference bits picks the stage of column k; row r of an array at column k is
the array at (r, k). -/

theorem Gdif_col0 (r : Fin 8388608) :
    Gdif A B Bin (ix2 r (0 : Fin 8)) = sDiff cTwo (A (ix2 r (0 : Fin 8))) (B (ix2 r (0 : Fin 8))) (bor1 cOne (rowOf A r) (rowOf B r) (Bin (ix2 r 0))) := rfl

theorem Gdif_col1 (r : Fin 8388608) :
    Gdif A B Bin (ix2 r (1 : Fin 8)) = sDiff cTwo (A (ix2 r (1 : Fin 8))) (B (ix2 r (1 : Fin 8))) (bor2 cOne (rowOf A r) (rowOf B r) (Bin (ix2 r 0))) := rfl

theorem Gdif_col2 (r : Fin 8388608) :
    Gdif A B Bin (ix2 r (2 : Fin 8)) = sDiff cTwo (A (ix2 r (2 : Fin 8))) (B (ix2 r (2 : Fin 8))) (bor3 cOne (rowOf A r) (rowOf B r) (Bin (ix2 r 0))) := rfl

theorem Gdif_col3 (r : Fin 8388608) :
    Gdif A B Bin (ix2 r (3 : Fin 8)) = sDiff cTwo (A (ix2 r (3 : Fin 8))) (B (ix2 r (3 : Fin 8))) (bor4 cOne (rowOf A r) (rowOf B r) (Bin (ix2 r 0))) := rfl

theorem Gdif_col4 (r : Fin 8388608) :
    Gdif A B Bin (ix2 r (4 : Fin 8)) = sDiff cTwo (A (ix2 r (4 : Fin 8))) (B (ix2 r (4 : Fin 8))) (bor5 cOne (rowOf A r) (rowOf B r) (Bin (ix2 r 0))) := rfl

theorem Gdif_col5 (r : Fin 8388608) :
    Gdif A B Bin (ix2 r (5 : Fin 8)) = sDiff cTwo (A (ix2 r (5 : Fin 8))) (B (ix2 r (5 : Fin 8))) (bor6 cOne (rowOf A r) (rowOf B r) (Bin (ix2 r 0))) := rfl

theorem Gdif_col6 (r : Fin 8388608) :
    Gdif A B Bin (ix2 r (6 : Fin 8)) = sDiff cTwo (A (ix2 r (6 : Fin 8))) (B (ix2 r (6 : Fin 8))) (bor7 cOne (rowOf A r) (rowOf B r) (Bin (ix2 r 0))) := rfl

theorem Gdif_col7 (r : Fin 8388608) :
    Gdif A B Bin (ix2 r (7 : Fin 8)) = sDiff cTwo (A (ix2 r (7 : Fin 8))) (B (ix2 r (7 : Fin 8))) (Bin (ix2 r 0)) := rfl

end Chain

/-- The borrow column leaving bit 0 is the borrow array of the specification. -/
theorem B0_eq (A B : FVec F S8388608x8 .f32) (Bin : FVec F S8388608x1 .f32) : B0 A B Bin = Gbor A B Bin := by
  funext j
  -- every entry of an N×1 array is (r, 0)
  obtain ⟨r, k, rfl⟩ : ∃ (r : Fin 8388608) (k : Fin 1), j = ix2 r k := ⟨j 0, j 1, eq_ix2 j⟩
  obtain rfl : k = 0 := Subsingleton.elim _ _
  rw [B0_apply]
  rfl

/-- The eight difference columns side by side are the difference array of the specification. -/
theorem Dcat_eq (A B : FVec F S8388608x8 .f32) (Bin : FVec F S8388608x1 .f32) : Dcat A B Bin = Gdif A B Bin := by
  funext j
  -- every entry of an N×8 array is (r, k) with k one of the eight columns
  obtain ⟨r, k, rfl⟩ : ∃ (r : Fin 8388608) (k : Fin 8), j = ix2 r k := ⟨j 0, j 1, eq_ix2 j⟩
  match k with
  | ⟨0, _⟩ => exact ((Dcat_col0 A B Bin r).trans (D0_apply A B Bin r)).trans (Gdif_col0 A B Bin r).symm
  | ⟨1, _⟩ => exact ((Dcat_col1 A B Bin r).trans (D1_apply A B Bin r)).trans (Gdif_col1 A B Bin r).symm
  | ⟨2, _⟩ => exact ((Dcat_col2 A B Bin r).trans (D2_apply A B Bin r)).trans (Gdif_col2 A B Bin r).symm
  | ⟨3, _⟩ => exact ((Dcat_col3 A B Bin r).trans (D3_apply A B Bin r)).trans (Gdif_col3 A B Bin r).symm
  | ⟨4, _⟩ => exact ((Dcat_col4 A B Bin r).trans (D4_apply A B Bin r)).trans (Gdif_col4 A B Bin r).symm
  | ⟨5, _⟩ => exact ((Dcat_col5 A B Bin r).trans (D5_apply A B Bin r)).trans (Gdif_col5 A B Bin r).symm
  | ⟨6, _⟩ => exact ((Dcat_col6 A B Bin r).trans (D6_apply A B Bin r)).trans (Gdif_col6 A B Bin r).symm
  | ⟨7, _⟩ => exact ((Dcat_col7 A B Bin r).trans (D7_apply A B Bin r)).trans (Gdif_col7 A B Bin r).symm

end Cert.ReferenceIdeal.RefIndex

end
-- ==== Proof.RefValue.lean ====
/-
  What the reference's 209 operations leave in its two result buffers, as functions of the three argument arrays:
  the difference array and the borrow array of the specification; and the arguments untouched. The fold of the
  operations is the whole-column stage chain (Proof/RefStages.lean), and that chain read entry by entry is the
  specification (Proof/RefIndex.lean).
-/
import proofs.«158708_j23407571764121_1_alg».proof.Proof.RefStages
import proofs.«158708_j23407571764121_1_alg».proof.Proof.RefIndex

noncomputable section

namespace Cert.ReferenceIdeal.RefValue

open Cert.ReferenceIdeal Cert.ReferenceIdeal.Gen Cert.ReferenceIdeal.RefOps Idealize.ShloMosaic Idealize.ShloMosaic.TcCoe Idealize.SL.Sem Idealize.ShloMosaic.StableHlo
open Cert.Sub8

variable {F : FTy → Type} [FloatOps F]

/-- The final borrow buffer holds the borrow array of the arguments. -/
theorem after_v183 (V : Valuation τ sig (Elt F)) :
    after (ops (F := F)) V (Proc.devRef .tc main_v183)
      = Gbor (V (Proc.devRef .tc main_arg0)) (V (Proc.devRef .tc main_arg1)) (V (Proc.devRef .tc main_arg2)) :=
  (RefStages.after_v183 V).trans (RefIndex.B0_eq _ _ _)

/-- The concatenated buffer holds the difference array of the arguments. -/
theorem after_v184 (V : Valuation τ sig (Elt F)) :
    after (ops (F := F)) V (Proc.devRef .tc main_v184)
      = Gdif (V (Proc.devRef .tc main_arg0)) (V (Proc.devRef .tc main_arg1)) (V (Proc.devRef .tc main_arg2)) :=
  (RefStages.after_v184 V).trans (RefIndex.Dcat_eq _ _ _)

/-- No operation writes an argument. -/
theorem after_arg0 (V : Valuation τ sig (Elt F)) : after (ops (F := F)) V (Proc.devRef .tc main_arg0) = V (Proc.devRef .tc main_arg0) :=
  RefStages.after_arg0 V
theorem after_arg1 (V : Valuation τ sig (Elt F)) : after (ops (F := F)) V (Proc.devRef .tc main_arg1) = V (Proc.devRef .tc main_arg1) :=
  RefStages.after_arg1 V
theorem after_arg2 (V : Valuation τ sig (Elt F)) : after (ops (F := F)) V (Proc.devRef .tc main_arg2) = V (Proc.devRef .tc main_arg2) :=
  RefStages.after_arg2 V

end Cert.ReferenceIdeal.RefValue

end
-- ==== Proof.lean ====
/-
  An 8-bit ripple-borrow subtractor on 0/1-valued floats: the Pallas kernel (128 grid steps, each on 65536 rows)
  against the jnp reference (209 whole-array operations).

  Both programs evaluate, row by row, the same chain of eight bit stages from column 7 down to column 0:
  difference bit (a ⊕ b) ⊕ c and outgoing borrow ((¬a ∧ b) ∨ (¬a ∧ c)) ∨ (b ∧ c), with ⊕, ∧, ∨, ¬ the
  polynomial forms x + y − 2xy, xy, x + y − xy, 1 − x (Proof/Spec.lean). The two expression trees are
  identical, operation for operation and constant for constant, so no law of arithmetic is used and the
  inputs' finiteness is never opened: the work is only that each program's result arrays ARE these two
  functions of the argument arrays.
  * The kernel: one grid step leaves in its output blocks the stage chain of the rows of its input blocks
    (Proof/KerBlock.lean); the steps' row blocks tile the arrays (Proof/KerValue.lean).
  * The reference: its run is the fold of its operations (Proof/RefRun.lean), and stage by stage that fold is the
    same chain on whole columns (Proof/RefValue.lean).
  The idealization rewrote nothing, so `preserves` is `True`.
-/
import proofs.«158708_j23407571764121_1_alg».proof.Defs
import proofs.«158708_j23407571764121_1_alg».proof.Proof.Gen.Kernel
import proofs.«158708_j23407571764121_1_alg».proof.Proof.Gen.Kernel.Frame
import proofs.«158708_j23407571764121_1_alg».proof.Proof.Gen.KernelIdeal
import proofs.«158708_j23407571764121_1_alg».proof.Proof.Gen.KernelIdeal.Frame
import proofs.«158708_j23407571764121_1_alg».proof.Proof.Gen.ReferenceIdeal
import proofs.«158708_j23407571764121_1_alg».proof.Proof.Gen.Pre_finite_inputs
import proofs.«158708_j23407571764121_1_alg».proof.Proof.KerValue
import proofs.«158708_j23407571764121_1_alg».proof.Proof.RefRun
import proofs.«158708_j23407571764121_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo
open Cert.Sub8

/-- The kernel program terminates without a fault and leaves its arguments alone, at the word level. -/
theorem frame_k : Cert.frame_Kernel := fun m ρ _ => Cert.Kernel.Gen.frame m ρ

/-- The same for its reading over the extended reals. -/
theorem frame_ki : Cert.frame_KernelIdeal := fun m ρ _ => Cert.KernelIdeal.Gen.frame m ρ

/-- The reference terminates, and none of its 209 operations writes an argument. -/
theorem frame_ri : Cert.frame_ReferenceIdeal := fun m ρ _ =>
  (θ_run Cert.ReferenceIdeal.defs _ _).mono
    (fun _ h c =>
      ⟨(h c Cert.ReferenceIdeal.main_arg0).trans (Cert.ReferenceIdeal.RefValue.after_arg0 _),
       (h c Cert.ReferenceIdeal.main_arg1).trans (Cert.ReferenceIdeal.RefValue.after_arg1 _),
       (h c Cert.ReferenceIdeal.main_arg2).trans (Cert.ReferenceIdeal.RefValue.after_arg2 _)⟩)
    (Cert.ReferenceIdeal.RefRun.run_after (F := Ideal) m ρ)

/-- From memories that agree on the three arguments both programs end with the difference array and the
    borrow array of those arguments: the kernel by its blocks, the reference by its stages. -/
theorem algebraic : Cert.algebraic_KernelIdeal_ReferenceIdeal := by
  intro m ρ m' ρ' _ hagree
  refine ⟨fun c => Gdif (F := Ideal) (m ((c.tc : Thread Cert.KernelIdeal.nD Cert.KernelIdeal.τ).loc Cert.KernelIdeal.main_arg0))
                        (m ((c.tc : Thread Cert.KernelIdeal.nD Cert.KernelIdeal.τ).loc Cert.KernelIdeal.main_arg1))
                        (m ((c.tc : Thread Cert.KernelIdeal.nD Cert.KernelIdeal.τ).loc Cert.KernelIdeal.main_arg2)),
          fun c => Gbor (F := Ideal) (m ((c.tc : Thread Cert.KernelIdeal.nD Cert.KernelIdeal.τ).loc Cert.KernelIdeal.main_arg0))
                        (m ((c.tc : Thread Cert.KernelIdeal.nD Cert.KernelIdeal.τ).loc Cert.KernelIdeal.main_arg1))
                        (m ((c.tc : Thread Cert.KernelIdeal.nD Cert.KernelIdeal.τ).loc Cert.KernelIdeal.main_arg2)),
          ?_, ?_⟩
  · exact Cert.KernelIdeal.KerValue.run (F := Ideal) m ρ
  · refine (θ_run Cert.ReferenceIdeal.defs _ _).mono (fun _ h c => ?_) (Cert.ReferenceIdeal.RefRun.run_after (F := Ideal) m' ρ')
    refine ⟨?_, ?_, (h c Cert.ReferenceIdeal.main_arg0).trans (Cert.ReferenceIdeal.RefValue.after_arg0 _),
      (h c Cert.ReferenceIdeal.main_arg1).trans (Cert.ReferenceIdeal.RefValue.after_arg1 _),
      (h c Cert.ReferenceIdeal.main_arg2).trans (Cert.ReferenceIdeal.RefValue.after_arg2 _)⟩
    · dsimp only
      rw [← (hagree c).1, ← (hagree c).2.1, ← (hagree c).2.2]
      exact (h c Cert.ReferenceIdeal.main_v184).trans (Cert.ReferenceIdeal.RefValue.after_v184 _)
    · dsimp only
      rw [← (hagree c).1, ← (hagree c).2.1, ← (hagree c).2.2]
      exact (h c Cert.ReferenceIdeal.main_v183).trans (Cert.ReferenceIdeal.RefValue.after_v183 _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
